-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v132) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x7 : Shape := ⟨2, ![100000, 7]⟩
abbrev S1600000x2 : Shape := ⟨2, ![1600000, 2]⟩
abbrev S2x1600000 : Shape := ⟨2, ![2, 1600000]⟩
abbrev S7x32 : Shape := ⟨2, ![7, 32]⟩
abbrev S32 : Shape := ⟨1, ![32]⟩
abbrev S2x32 : Shape := ⟨2, ![2, 32]⟩
abbrev S32x32 : Shape := ⟨2, ![32, 32]⟩
abbrev S64x32 : Shape := ⟨2, ![64, 32]⟩
abbrev S32x7 : Shape := ⟨2, ![32, 7]⟩
abbrev S7 : Shape := ⟨1, ![7]⟩
abbrev S32x2 : Shape := ⟨2, ![32, 2]⟩
abbrev S2 : Shape := ⟨1, ![2]⟩
abbrev S_ : Shape := ⟨0, ![]⟩

class Facts : Prop where
  bcast_S_S100000x7 : S_.BroadcastsInDim S100000x7 (![] : Fin 0 → Fin S100000x7.rank)
  reducesTo_S100000x7_S_d0_1 : S100000x7.ReducesTo [0, 1] S_
  h_S_ : 0 < S_.numel
  bcast_S_S1600000x2 : S_.BroadcastsInDim S1600000x2 (![] : Fin 0 → Fin S1600000x2.rank)
  reducesTo_S1600000x2_S_d0_1 : S1600000x2.ReducesTo [0, 1] S_
  bcast_S_S7x32 : S_.BroadcastsInDim S7x32 (![] : Fin 0 → Fin S7x32.rank)
  reducesTo_S7x32_S_d0_1 : S7x32.ReducesTo [0, 1] S_
  bcast_S_S32 : S_.BroadcastsInDim S32 (![] : Fin 0 → Fin S32.rank)
  reducesTo_S32_S_d0 : S32.ReducesTo [0] S_
  bcast_S_S2x32 : S_.BroadcastsInDim S2x32 (![] : Fin 0 → Fin S2x32.rank)
  reducesTo_S2x32_S_d0_1 : S2x32.ReducesTo [0, 1] S_
  bcast_S_S32x32 : S_.BroadcastsInDim S32x32 (![] : Fin 0 → Fin S32x32.rank)
  reducesTo_S32x32_S_d0_1 : S32x32.ReducesTo [0, 1] S_
  bcast_S_S64x32 : S_.BroadcastsInDim S64x32 (![] : Fin 0 → Fin S64x32.rank)
  reducesTo_S64x32_S_d0_1 : S64x32.ReducesTo [0, 1] S_
  bcast_S_S32x7 : S_.BroadcastsInDim S32x7 (![] : Fin 0 → Fin S32x7.rank)
  reducesTo_S32x7_S_d0_1 : S32x7.ReducesTo [0, 1] S_
  bcast_S_S7 : S_.BroadcastsInDim S7 (![] : Fin 0 → Fin S7.rank)
  reducesTo_S7_S_d0 : S7.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part6 {F : FTy → Type} [FloatOps F] (main_arg2 : IVec S2x1600000 32) (main_arg22 : FVec F S2 .f32) (main_v98 : IVec S_ 1) (main_v101 : IVec S32x2 1) (main_c_39 : IVec S_ 1) : IVec S_ 1 :=
  let main_v102 : IVec S_ 1 := (fun x v => Host.reduce IntOp.andi x v reducesTo_S32x2_S_d0_1 h_S_) main_v101 main_c_39
  let main_v103 : IVec S_ 1 := andi main_v98 main_v102
  let main_v104 : FVec F S2 .f32 := Host.absf main_arg22
  let main_cst_40 : FVec F S_ .f32 := constant S_ .f32 0x7F800000#32
  let main_v105 : FVec F S2 .f32 := broadcastInDim S2 ![] bcast_S_S2 main_cst_40
  let main_v106 : IVec S2 1 := cmpf .olt main_v104 main_v105
  let main_c_41 : IVec S_ 1 := constantI S_ 1 1#1
  let main_v107 : IVec S_ 1 := (fun x v => Host.reduce IntOp.andi x v reducesTo_S2_S_d0 h_S_) main_v106 main_c_41
  let main_v108 : IVec S_ 1 := andi main_v103 main_v107
  let main_c_42 : IVec S_ 32 := constantI S_ 32 0#32
  let main_v109 : IVec S2x1600000 32 := broadcastInDim S2x1600000 ![] bcast_S_S2x1600000 main_c_42
  let main_v110 : IVec S2x1600000 1 := cmpi .sge main_arg2 main_v109
  let main_c_43 : IVec S_ 32 := constantI S_ 32 100000#32
  let main_v111 : IVec S2x1600000 32 := broadcastInDim S2x1600000 ![] bcast_S_S2x1600000 main_c_43
  let main_v112 : IVec S2x1600000 1 := cmpi .slt main_arg2 main_v111
  let main_v113 : IVec S2x1600000 1 := andi main_v110 main_v112
  let main_c_44 : IVec S_ 1 := constantI S_ 1 1#1
  let main_v114 : IVec S_ 1 := (fun x v => Host.reduce IntOp.andi x v reducesTo_S2x1600000_S_d0_1 h_S_) main_v113 main_c_44
  let main_v115 : IVec S_ 1 := andi main_v108 main_v114
  main_v115

def fn_part5 {F : FTy → Type} [FloatOps F] (main_arg2 : IVec S2x1600000 32) (main_arg19 : FVec F S32x7 .f32) (main_arg20 : FVec F S7 .f32) (main_arg21 : FVec F S32x2 .f32) (main_arg22 : FVec F S2 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S32x7 .f32 := Host.absf main_arg19
  let main_cst_34 : FVec F S_ .f32 := constant S_ .f32 0x7F800000#32
  let main_v90 : FVec F S32x7 .f32 := broadcastInDim S32x7 ![] bcast_S_S32x7 main_cst_34
  let main_v91 : IVec S32x7 1 := cmpf .olt main_v89 main_v90
  let main_c_35 : IVec S_ 1 := constantI S_ 1 1#1
  let main_v92 : IVec S_ 1 := (fun x v => Host.reduce IntOp.andi x v reducesTo_S32x7_S_d0_1 h_S_) main_v91 main_c_35
  let main_v93 : IVec S_ 1 := andi main_v88 main_v92
  let main_v94 : FVec F S7 .f32 := Host.absf main_arg20
  let main_cst_36 : FVec F S_ .f32 := constant S_ .f32 0x7F800000#32
  let main_v95 : FVec F S7 .f32 := broadcastInDim S7 ![] bcast_S_S7 main_cst_36
  let main_v96 : IVec S7 1 := cmpf .olt main_v94 main_v95
  let main_c_37 : IVec S_ 1 := constantI S_ 1 1#1
  let main_v97 : IVec S_ 1 := (fun x v => Host.reduce IntOp.andi x v reducesTo_S7_S_d0 h_S_) main_v96 main_c_37
  let main_v98 : IVec S_ 1 := andi main_v93 main_v97
  let main_v99 : FVec F S32x2 .f32 := Host.absf main_arg21
  let main_cst_38 : FVec F S_ .f32 := constant S_ .f32 0x7F800000#32
  let main_v100 : FVec F S32x2 .f32 := broadcastInDim S32x2 ![] bcast_S_S32x2 main_cst_38
  let main_v101 : IVec S32x2 1 := cmpf .olt main_v99 main_v100
  let main_c_39 : IVec S_ 1 := constantI S_ 1 1#1
  fn_part6 (F := F) main_arg2 main_arg22 main_v98 main_v101 main_c_39

def fn_part4 {F : FTy → Type} [FloatOps F] (main_arg2 : IVec S2x1600000 32) (main_arg15 : FVec F S32x32 .f32) (main_arg16 : FVec F S32 .f32) (main_arg17 : FVec F S32x32 .f32) (main_arg18 : FVec F S32 .f32) (main_arg19 : FVec F S32x7 .f32) (main_arg20 : FVec F S7 .f32) (main_arg21 : FVec F S32x2 .f32) (main_arg22 : FVec F S2 .f32) (main_v63 : IVec S_ 1) (main_v67 : IVec S_ 1) : IVec S_ 1 :=
  let main_v68 : IVec S_ 1 := andi main_v63 main_v67
  let main_v69 : FVec F S32x32 .f32 := Host.absf main_arg15
  let main_cst_26 : FVec F S_ .f32 := constant S_ .f32 0x7F800000#32
  let main_v70 : FVec F S32x32 .f32 := broadcastInDim S32x32 ![] bcast_S_S32x32 main_cst_26
  let main_v71 : IVec S32x32 1 := cmpf .olt main_v69 main_v70
  let main_c_27 : IVec S_ 1 := constantI S_ 1 1#1
  let main_v72 : IVec S_ 1 := (fun x v => Host.reduce IntOp.andi x v reducesTo_S32x32_S_d0_1 h_S_) main_v71 main_c_27
  let main_v73 : IVec S_ 1 := andi main_v68 main_v72
  let main_v74 : FVec F S32 .f32 := Host.absf main_arg16
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32x32 .f32 := Host.absf main_arg17
  let main_cst_30 : FVec F S_ .f32 := constant S_ .f32 0x7F800000#32
  let main_v80 : FVec F S32x32 .f32 := broadcastInDim S32x32 ![] bcast_S_S32x32 main_cst_30
  let main_v81 : IVec S32x32 1 := cmpf .olt main_v79 main_v80
  let main_c_31 : IVec S_ 1 := constantI S_ 1 1#1
  let main_v82 : IVec S_ 1 := (fun x v => Host.reduce IntOp.andi x v reducesTo_S32x32_S_d0_1 h_S_) main_v81 main_c_31
  let main_v83 : IVec S_ 1 := andi main_v78 main_v82
  let main_v84 : FVec F S32 .f32 := Host.absf main_arg18
  let main_cst_32 : FVec F S_ .f32 := constant S_ .f32 0x7F800000#32
  fn_part5 (F := F) main_arg2 main_arg19 main_arg20 main_arg21 main_arg22 main_v83 main_v84 main_cst_32

def fn_part3 {F : FTy → Type} [FloatOps F] (main_arg2 : IVec S2x1600000 32) (main_arg12 : FVec F S32 .f32) (main_arg13 : FVec F S32x32 .f32) (main_arg14 : FVec F S32 .f32) (main_arg15 : FVec F S32x32 .f32) (main_arg16 : FVec F S32 .f32) (main_arg17 : FVec F S32x32 .f32) (main_arg18 : FVec F S32 .f32) (main_arg19 : FVec F S32x7 .f32) (main_arg20 : FVec F S7 .f32) (main_arg21 : FVec F S32x2 .f32) (main_arg22 : FVec F S2 .f32) (main_v48 : IVec S_ 1) (main_v49 : FVec F S32x32 .f32) (main_v50 : FVec F S32x32 .f32) : IVec S_ 1 :=
  let main_v51 : IVec S32x32 1 := cmpf .olt main_v49 main_v50
  let main_c_19 : IVec S_ 1 := constantI S_ 1 1#1
  let main_v52 : IVec S_ 1 := (fun x v => Host.reduce IntOp.andi x v reducesTo_S32x32_S_d0_1 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x32 .f32 := Host.absf main_arg13
  let main_cst_22 : FVec F S_ .f32 := constant S_ .f32 0x7F800000#32
  let main_v60 : FVec F S32x32 .f32 := broadcastInDim S32x32 ![] bcast_S_S32x32 main_cst_22
  let main_v61 : IVec S32x32 1 := cmpf .olt main_v59 main_v60
  let main_c_23 : IVec S_ 1 := constantI S_ 1 1#1
  let main_v62 : IVec S_ 1 := (fun x v => Host.reduce IntOp.andi x v reducesTo_S32x32_S_d0_1 h_S_) main_v61 main_c_23
  let main_v63 : IVec S_ 1 := andi main_v58 main_v62
  let main_v64 : FVec F S32 .f32 := Host.absf main_arg14
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg2 main_arg15 main_arg16 main_arg17 main_arg18 main_arg19 main_arg20 main_arg21 main_arg22 main_v63 main_v67

def fn_part2 {F : FTy → Type} [FloatOps F] (main_arg2 : IVec S2x1600000 32) (main_arg8 : FVec F S32 .f32) (main_arg9 : FVec F S64x32 .f32) (main_arg10 : FVec F S32 .f32) (main_arg11 : FVec F S32x32 .f32) (main_arg12 : FVec F S32 .f32) (main_arg13 : FVec F S32x32 .f32) (main_arg14 : FVec F S32 .f32) (main_arg15 : FVec F S32x32 .f32) (main_arg16 : FVec F S32 .f32) (main_arg17 : FVec F S32x32 .f32) (main_arg18 : FVec F S32 .f32) (main_arg19 : FVec F S32x7 .f32) (main_arg20 : FVec F S7 .f32) (main_arg21 : FVec F S32x2 .f32) (main_arg22 : FVec F S2 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S64x32 .f32 := Host.absf main_arg9
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x32 .f32 := Host.absf main_arg11
  let main_cst_18 : FVec F S_ .f32 := constant S_ .f32 0x7F800000#32
  let main_v50 : FVec F S32x32 .f32 := broadcastInDim S32x32 ![] bcast_S_S32x32 main_cst_18
  fn_part3 (F := F) main_arg2 main_arg12 main_arg13 main_arg14 main_arg15 main_arg16 main_arg17 main_arg18 main_arg19 main_arg20 main_arg21 main_arg22 main_v48 main_v49 main_v50

def fn_part1 {F : FTy → Type} [FloatOps F] (main_arg2 : IVec S2x1600000 32) (main_arg5 : FVec F S2x32 .f32) (main_arg6 : FVec F S32 .f32) (main_arg7 : FVec F S32x32 .f32) (main_arg8 : FVec F S32 .f32) (main_arg9 : FVec F S64x32 .f32) (main_arg10 : FVec F S32 .f32) (main_arg11 : FVec F S32x32 .f32) (main_arg12 : FVec F S32 .f32) (main_arg13 : FVec F S32x32 .f32) (main_arg14 : FVec F S32 .f32) (main_arg15 : FVec F S32x32 .f32) (main_arg16 : FVec F S32 .f32) (main_arg17 : FVec F S32x32 .f32) (main_arg18 : FVec F S32 .f32) (main_arg19 : FVec F S32x7 .f32) (main_arg20 : FVec F S7 .f32) (main_arg21 : FVec F S32x2 .f32) (main_arg22 : FVec F S2 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S2x32 .f32 := Host.absf main_arg5
  let main_cst_6 : FVec F S_ .f32 := constant S_ .f32 0x7F800000#32
  let main_v20 : FVec F S2x32 .f32 := broadcastInDim S2x32 ![] bcast_S_S2x32 main_cst_6
  let main_v21 : IVec S2x32 1 := cmpf .olt main_v19 main_v20
  let main_c_7 : IVec S_ 1 := constantI S_ 1 1#1
  let main_v22 : IVec S_ 1 := (fun x v => Host.reduce IntOp.andi x v reducesTo_S2x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg7
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg2 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S100000x7 .f32) (main_arg1 : FVec F S1600000x2 .f32) (main_arg2 : IVec S2x1600000 32) (main_arg3 : FVec F S7x32 .f32) (main_arg4 : FVec F S32 .f32) (main_arg5 : FVec F S2x32 .f32) (main_arg6 : FVec F S32 .f32) (main_arg7 : FVec F S32x32 .f32) (main_arg8 : FVec F S32 .f32) (main_arg9 : FVec F S64x32 .f32) (main_arg10 : FVec F S32 .f32) (main_arg11 : FVec F S32x32 .f32) (main_arg12 : FVec F S32 .f32) (main_arg13 : FVec F S32x32 .f32) (main_arg14 : FVec F S32 .f32) (main_arg15 : FVec F S32x32 .f32) (main_arg16 : FVec F S32 .f32) (main_arg17 : FVec F S32x32 .f32) (main_arg18 : FVec F S32 .f32) (main_arg19 : FVec F S32x7 .f32) (main_arg20 : FVec F S7 .f32) (main_arg21 : FVec F S32x2 .f32) (main_arg22 : FVec F S2 .f32) : IVec S_ 1 :=
  let main_v0 : FVec F S100000x7 .f32 := Host.absf main_arg0
  let main_cst : FVec F S_ .f32 := constant S_ .f32 0x7F800000#32
  let main_v1 : FVec F S100000x7 .f32 := broadcastInDim S100000x7 ![] bcast_S_S100000x7 main_cst
  let main_v2 : IVec S100000x7 1 := cmpf .olt main_v0 main_v1
  let main_c : IVec S_ 1 := constantI S_ 1 1#1
  let main_v3 : IVec S_ 1 := (fun x v => Host.reduce IntOp.andi x v reducesTo_S100000x7_S_d0_1 h_S_) main_v2 main_c
  let main_v4 : FVec F S1600000x2 .f32 := Host.absf main_arg1
  let main_cst_0 : FVec F S_ .f32 := constant S_ .f32 0x7F800000#32
  let main_v5 : FVec F S1600000x2 .f32 := broadcastInDim S1600000x2 ![] bcast_S_S1600000x2 main_cst_0
  let main_v6 : IVec S1600000x2 1 := cmpf .olt main_v4 main_v5
  let main_c_1 : IVec S_ 1 := constantI S_ 1 1#1
  let main_v7 : IVec S_ 1 := (fun x v => Host.reduce IntOp.andi x v reducesTo_S1600000x2_S_d0_1 h_S_) main_v6 main_c_1
  let main_v8 : IVec S_ 1 := andi main_v3 main_v7
  let main_v9 : FVec F S7x32 .f32 := Host.absf main_arg3
  let main_cst_2 : FVec F S_ .f32 := constant S_ .f32 0x7F800000#32
  let main_v10 : FVec F S7x32 .f32 := broadcastInDim S7x32 ![] bcast_S_S7x32 main_cst_2
  let main_v11 : IVec S7x32 1 := cmpf .olt main_v9 main_v10
  let main_c_3 : IVec S_ 1 := constantI S_ 1 1#1
  let main_v12 : IVec S_ 1 := (fun x v => Host.reduce IntOp.andi x v reducesTo_S7x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg2 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S100000x7 : Shape := ⟨2, ![100000, 7]⟩
abbrev S1600000x2 : Shape := ⟨2, ![1600000, 2]⟩
abbrev S2x1600000 : Shape := ⟨2, ![2, 1600000]⟩
abbrev S7x32 : Shape := ⟨2, ![7, 32]⟩
abbrev S32 : Shape := ⟨1, ![32]⟩
abbrev S2x32 : Shape := ⟨2, ![2, 32]⟩
abbrev S32x32 : Shape := ⟨2, ![32, 32]⟩
abbrev S64x32 : Shape := ⟨2, ![64, 32]⟩
abbrev S32x7 : Shape := ⟨2, ![32, 7]⟩
abbrev S7 : Shape := ⟨1, ![7]⟩
abbrev S32x2 : Shape := ⟨2, ![32, 2]⟩
abbrev S2 : Shape := ⟨1, ![2]⟩
abbrev S1x1600000 : Shape := ⟨2, ![1, 1600000]⟩
abbrev S1600000 : Shape := ⟨1, ![1600000]⟩
abbrev S100000x32 : Shape := ⟨2, ![100000, 32]⟩
abbrev S5000x7 : Shape := ⟨2, ![5000, 7]⟩
abbrev S5000x32 : Shape := ⟨2, ![5000, 32]⟩
abbrev S1x32 : Shape := ⟨2, ![1, 32]⟩
abbrev S1600000x32 : Shape := ⟨2, ![1600000, 32]⟩
abbrev S5000x2 : Shape := ⟨2, ![5000, 2]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S5000x64 : Shape := ⟨2, ![5000, 64]⟩
abbrev S1x7 : Shape := ⟨2, ![1, 7]⟩
abbrev S1x2 : Shape := ⟨2, ![1, 2]⟩

abbrev nBuf : Space → Nat
  | .hbm => 137
  | .vmem => 78
  | .smem => 0
  | _ => 0

abbrev hbmTy0_0 (i : Nat) : BufTy := match i % 128 with
  | 0 => ⟨S100000x7, .f32⟩
  | 1 => ⟨S1600000x2, .f32⟩
  | 2 => ⟨S2x1600000, .i32⟩
  | 3 => ⟨S7x32, .f32⟩
  | 4 => ⟨S32, .f32⟩
  | 5 => ⟨S2x32, .f32⟩
  | 6 => ⟨S32, .f32⟩
  | 7 => ⟨S32x32, .f32⟩
  | 8 => ⟨S32, .f32⟩
  | 9 => ⟨S64x32, .f32⟩
  | 10 => ⟨S32, .f32⟩
  | 11 => ⟨S32x32, .f32⟩
  | 12 => ⟨S32, .f32⟩
  | 13 => ⟨S32x32, .f32⟩
  | 14 => ⟨S32, .f32⟩
  | 15 => ⟨S32x32, .f32⟩
  | 16 => ⟨S32, .f32⟩
  | 17 => ⟨S32x32, .f32⟩
  | 18 => ⟨S32, .f32⟩
  | 19 => ⟨S32x7, .f32⟩
  | 20 => ⟨S7, .f32⟩
  | 21 => ⟨S32x2, .f32⟩
  | 22 => ⟨S2, .f32⟩
  | 23 => ⟨S1x1600000, .i32⟩
  | 24 => ⟨S1600000, .i32⟩
  | 25 => ⟨S1x1600000, .i32⟩
  | 26 => ⟨S1600000, .i32⟩
  | 27 => ⟨S100000x32, .f32⟩
  | 28 => ⟨S1600000x32, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1, .i32⟩
  | 38 => ⟨S_, .i32⟩
  | 39 => ⟨S1600000x1, .i32⟩
  | 40 => ⟨S1600000x1, .i1⟩
  | 41 => ⟨S1x1, .i32⟩
  | 42 => ⟨S1600000x1, .i32⟩
  | 43 => ⟨S1600000x1, .i1⟩
  | 44 => ⟨S1600000x1, .i1⟩
  | 45 => ⟨S_, .i1⟩
  | 46 => ⟨S1600000, .i1⟩
  | 47 => ⟨S1600000x32, .f32⟩
  | 48 => ⟨S1600000x32, .i1⟩
  | 49 => ⟨S_, .f32⟩
  | 50 => ⟨S1600000x32, .f32⟩
  | 51 => ⟨S1600000x32, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1, .i32⟩
  | 61 => ⟨S_, .i32⟩
  | 62 => ⟨S1600000x1, .i32⟩
  | 63 => ⟨S1600000x1, .i1⟩
  | 64 => ⟨S1x1, .i32⟩
  | 65 => ⟨S1600000x1, .i32⟩
  | 66 => ⟨S1600000x1, .i1⟩
  | 67 => ⟨S1600000x1, .i1⟩
  | 68 => ⟨S_, .i1⟩
  | 69 => ⟨S1600000, .i1⟩
  | 70 => ⟨S1600000x32, .f32⟩
  | 71 => ⟨S1600000x32, .i1⟩
  | 72 => ⟨S_, .f32⟩
  | 73 => ⟨S1600000x32, .f32⟩
  | 74 => ⟨S1600000x32, .f32⟩
  | 75 => ⟨S1600000x32, .f32⟩
  | 76 => ⟨S1600000x32, .f32⟩
  | 77 => ⟨S_, .f32⟩
  | 78 => ⟨S100000x32, .f32⟩
  | 79 => ⟨S1600000x1, .i32⟩
  | 80 => ⟨S100000x32, .f32⟩
  | 81 => ⟨S100000x32, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1, .i32⟩
  | 91 => ⟨S_, .i32⟩
  | 92 => ⟨S1600000x1, .i32⟩
  | 93 => ⟨S1600000x1, .i1⟩
  | 94 => ⟨S1x1, .i32⟩
  | 95 => ⟨S1600000x1, .i32⟩
  | 96 => ⟨S1600000x1, .i1⟩
  | 97 => ⟨S1600000x1, .i1⟩
  | 98 => ⟨S_, .i1⟩
  | 99 => ⟨S1600000, .i1⟩
  | 100 => ⟨S1600000x32, .f32⟩
  | 101 => ⟨S1600000x32, .i1⟩
  | 102 => ⟨S_, .f32⟩
  | 103 => ⟨S1600000x32, .f32⟩
  | 104 => ⟨S1600000x32, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1, .i32⟩
  | 114 => ⟨S_, .i32⟩
  | 115 => ⟨S1600000x1, .i32⟩
  | 116 => ⟨S1600000x1, .i1⟩
  | 117 => ⟨S1x1, .i32⟩
  | 118 => ⟨S1600000x1, .i32⟩
  | 119 => ⟨S1600000x1, .i1⟩
  | 120 => ⟨S1600000x1, .i1⟩
  | 121 => ⟨S_, .i1⟩
  | 122 => ⟨S1600000, .i1⟩
  | 123 => ⟨S1600000x32, .f32⟩
  | 124 => ⟨S1600000x32, .i1⟩
  | 125 => ⟨S_, .f32⟩
  | 126 => ⟨S1600000x32, .f32⟩
  | 127 => ⟨S1600000x32, .f32⟩
  | _ => ⟨S100000x7, .f32⟩

abbrev hbmTy0_1 (i : Nat) : BufTy := match i % 128 with
  | 0 => ⟨S1600000x32, .f32⟩
  | 1 => ⟨S1600000x32, .f32⟩
  | 2 => ⟨S_, .f32⟩
  | 3 => ⟨S100000x32, .f32⟩
  | 4 => ⟨S1600000x1, .i32⟩
  | 5 => ⟨S100000x32, .f32⟩
  | 6 => ⟨S100000x32, .f32⟩
  | 7 => ⟨S100000x7, .f32⟩
  | 8 => ⟨S1600000x2, .f32⟩
  | _ => ⟨S100000x7, .f32⟩

abbrev hbmTy (i : Nat) : BufTy := match i / 128 with
  | 0 => hbmTy0_0 i
  | 1 => hbmTy0_1 i
  | _ => ⟨S100000x7, .f32⟩

abbrev bufTy : (tb : Table) → Fin (tcTables nBuf tb) → BufTy
  | .hbm, ⟨i, _⟩ => hbmTy i
  | .local _ .vmem, ⟨0, _⟩ => ⟨S5000x7, .f32⟩
  | .local _ .vmem, ⟨1, _⟩ => ⟨S5000x7, .f32⟩
  | .local _ .vmem, ⟨2, _⟩ => ⟨S7x32, .f32⟩
  | .local _ .vmem, ⟨3, _⟩ => ⟨S32, .f32⟩
  | .local _ .vmem, ⟨4, _⟩ => ⟨S5000x32, .f32⟩
  | .local _ .vmem, ⟨5, _⟩ => ⟨S5000x32, .f32⟩
  | .local _ .vmem, ⟨6, _⟩ => ⟨S5000x2, .f32⟩
  | .local _ .vmem, ⟨7, _⟩ => ⟨S5000x2, .f32⟩
  | .local _ .vmem, ⟨8, _⟩ => ⟨S2x32, .f32⟩
  | .local _ .vmem, ⟨9, _⟩ => ⟨S32, .f32⟩
  | .local _ .vmem, ⟨10, _⟩ => ⟨S32x32, .f32⟩
  | .local _ .vmem, ⟨11, _⟩ => ⟨S32, .f32⟩
  | .local _ .vmem, ⟨12, _⟩ => ⟨S5000x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S5000x32, .f32⟩
  | .local _ .vmem, ⟨18, _⟩ => ⟨S5000x32, .f32⟩
  | .local _ .vmem, ⟨19, _⟩ => ⟨S5000x32, .f32⟩
  | .local _ .vmem, ⟨20, _⟩ => ⟨S64x32, .f32⟩
  | .local _ .vmem, ⟨21, _⟩ => ⟨S32, .f32⟩
  | .local _ .vmem, ⟨22, _⟩ => ⟨S32x32, .f32⟩
  | .local _ .vmem, ⟨23, _⟩ => ⟨S32, .f32⟩
  | .local _ .vmem, ⟨24, _⟩ => ⟨S32x32, .f32⟩
  | .local _ .vmem, ⟨25, _⟩ => ⟨S32, .f32⟩
  | .local _ .vmem, ⟨26, _⟩ => ⟨S5000x32, .f32⟩
  | .local _ .vmem, ⟨27, _⟩ => ⟨S5000x32, .f32⟩
  | .local _ .vmem, ⟨28, _⟩ => ⟨S5000x32, .f32⟩
  | .local _ .vmem, ⟨29, _⟩ => ⟨S5000x32, .f32⟩
  | .local _ .vmem, ⟨30, _⟩ => ⟨S5000x32, .f32⟩
  | .local _ .vmem, ⟨31, _⟩ => ⟨S5000x32, .f32⟩
  | .local _ .vmem, ⟨32, _⟩ => ⟨S5000x32, .f32⟩
  | .local _ .vmem, ⟨33, _⟩ => ⟨S5000x32, .f32⟩
  | .local _ .vmem, ⟨34, _⟩ => ⟨S32x32, .f32⟩
  | .local _ .vmem, ⟨35, _⟩ => ⟨S32, .f32⟩
  | .local _ .vmem, ⟨36, _⟩ => ⟨S32x32, .f32⟩
  | .local _ .vmem, ⟨37, _⟩ => ⟨S32, .f32⟩
  | .local _ .vmem, ⟨38, _⟩ => ⟨S5000x32, .f32⟩
  | .local _ .vmem, ⟨39, _⟩ => ⟨S5000x32, .f32⟩
  | .local _ .vmem, ⟨40, _⟩ => ⟨S5000x32, .f32⟩
  | .local _ .vmem, ⟨41, _⟩ => ⟨S5000x32, .f32⟩
  | .local _ .vmem, ⟨42, _⟩ => ⟨S5000x32, .f32⟩
  | .local _ .vmem, ⟨43, _⟩ => ⟨S5000x32, .f32⟩
  | .local _ .vmem, ⟨44, _⟩ => ⟨S5000x32, .f32⟩
  | .local _ .vmem, ⟨45, _⟩ => ⟨S5000x32, .f32⟩
  | .local _ .vmem, ⟨46, _⟩ => ⟨S64x32, .f32⟩
  | .local _ .vmem, ⟨47, _⟩ => ⟨S32, .f32⟩
  | .local _ .vmem, ⟨48, _⟩ => ⟨S32x32, .f32⟩
  | .local _ .vmem, ⟨49, _⟩ => ⟨S32, .f32⟩
  | .local _ .vmem, ⟨50, _⟩ => ⟨S32x32, .f32⟩
  | .local _ .vmem, ⟨51, _⟩ => ⟨S32, .f32⟩
  | .local _ .vmem, ⟨52, _⟩ => ⟨S5000x32, .f32⟩
  | .local _ .vmem, ⟨53, _⟩ => ⟨S5000x32, .f32⟩
  | .local _ .vmem, ⟨54, _⟩ => ⟨S5000x32, .f32⟩
  | .local _ .vmem, ⟨55, _⟩ => ⟨S5000x32, .f32⟩
  | .local _ .vmem, ⟨56, _⟩ => ⟨S5000x32, .f32⟩
  | .local _ .vmem, ⟨57, _⟩ => ⟨S5000x32, .f32⟩
  | .local _ .vmem, ⟨58, _⟩ => ⟨S5000x32, .f32⟩
  | .local _ .vmem, ⟨59, _⟩ => ⟨S5000x32, .f32⟩
  | .local _ .vmem, ⟨60, _⟩ => ⟨S32x32, .f32⟩
  | .local _ .vmem, ⟨61, _⟩ => ⟨S32, .f32⟩
  | .local _ .vmem, ⟨62, _⟩ => ⟨S32x32, .f32⟩
  | .local _ .vmem, ⟨63, _⟩ => ⟨S32, .f32⟩
  | .local _ .vmem, ⟨64, _⟩ => ⟨S5000x32, .f32⟩
  | .local _ .vmem, ⟨65, _⟩ => ⟨S5000x32, .f32⟩
  | .local _ .vmem, ⟨66, _⟩ => ⟨S5000x32, .f32⟩
  | .local _ .vmem, ⟨67, _⟩ => ⟨S5000x32, .f32⟩
  | .local _ .vmem, ⟨68, _⟩ => ⟨S32x7, .f32⟩
  | .local _ .vmem, ⟨69, _⟩ => ⟨S7, .f32⟩
  | .local _ .vmem, ⟨70, _⟩ => ⟨S5000x7, .f32⟩
  | .local _ .vmem, ⟨71, _⟩ => ⟨S5000x7, .f32⟩
  | .local _ .vmem, ⟨72, _⟩ => ⟨S5000x32, .f32⟩
  | .local _ .vmem, ⟨73, _⟩ => ⟨S5000x32, .f32⟩
  | .local _ .vmem, ⟨74, _⟩ => ⟨S32x2, .f32⟩
  | .local _ .vmem, ⟨75, _⟩ => ⟨S2, .f32⟩
  | .local _ .vmem, ⟨76, _⟩ => ⟨S5000x2, .f32⟩
  | .local _ .vmem, ⟨77, _⟩ => ⟨S5000x2, .f32⟩
  | _, _ => ⟨S100000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_call0_c : Ref sig .tc := ⟨.hbm, 29, rfl⟩
abbrev main_call0_v0 : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_c_1 : Ref sig .tc := ⟨.hbm, 37, rfl⟩
abbrev main_call0_c_2 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_3 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_call0_cst : Ref sig .tc := ⟨.hbm, 49, rfl⟩
abbrev main_call0_v15 : Ref sig .tc := ⟨.hbm, 50, rfl⟩
abbrev main_v6 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_call1_cst : Ref sig .tc := ⟨.hbm, 72, rfl⟩
abbrev main_call1_v15 : Ref sig .tc := ⟨.hbm, 73, rfl⟩
abbrev main_v7 : Ref sig .tc := ⟨.hbm, 74, rfl⟩
abbrev main_v8_0 : Ref sig .tc := ⟨.hbm, 75, rfl⟩
abbrev main_v8_1 : Ref sig .tc := ⟨.hbm, 76, rfl⟩
abbrev main_cst : Ref sig .tc := ⟨.hbm, 77, rfl⟩
abbrev main_v9 : Ref sig .tc := ⟨.hbm, 78, rfl⟩
abbrev main_v10 : Ref sig .tc := ⟨.hbm, 79, rfl⟩
abbrev main_v11 : Ref sig .tc := ⟨.hbm, 80, rfl⟩
abbrev main_v12 : Ref sig .tc := ⟨.hbm, 81, rfl⟩
abbrev main_call2_c : Ref sig .tc := ⟨.hbm, 82, rfl⟩
abbrev main_call2_v0 : Ref sig .tc := ⟨.hbm, 83, rfl⟩
abbrev main_call2_v1 : Ref sig .tc := ⟨.hbm, 84, rfl⟩
abbrev main_call2_c_0 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_c_1 : Ref sig .tc := ⟨.hbm, 90, rfl⟩
abbrev main_call2_c_2 : Ref sig .tc := ⟨.hbm, 91, rfl⟩
abbrev main_call2_v6 : Ref sig .tc := ⟨.hbm, 92, rfl⟩
abbrev main_call2_v7 : Ref sig .tc := ⟨.hbm, 93, rfl⟩
abbrev main_call2_v8 : Ref sig .tc := ⟨.hbm, 94, rfl⟩
abbrev main_call2_v9 : Ref sig .tc := ⟨.hbm, 95, rfl⟩
abbrev main_call2_v10 : Ref sig .tc := ⟨.hbm, 96, rfl⟩
abbrev main_call2_v11 : Ref sig .tc := ⟨.hbm, 97, rfl⟩
abbrev main_call2_c_3 : Ref sig .tc := ⟨.hbm, 98, rfl⟩
abbrev main_call2_v12 : Ref sig .tc := ⟨.hbm, 99, rfl⟩
abbrev main_call2_v13 : Ref sig .tc := ⟨.hbm, 100, rfl⟩
abbrev main_call2_v14 : Ref sig .tc := ⟨.hbm, 101, rfl⟩
abbrev main_call2_cst : Ref sig .tc := ⟨.hbm, 102, rfl⟩
abbrev main_call2_v15 : Ref sig .tc := ⟨.hbm, 103, rfl⟩
abbrev main_v13 : Ref sig .tc := ⟨.hbm, 104, rfl⟩
abbrev main_call3_c : Ref sig .tc := ⟨.hbm, 105, rfl⟩
abbrev main_call3_v0 : Ref sig .tc := ⟨.hbm, 106, rfl⟩
abbrev main_call3_v1 : Ref sig .tc := ⟨.hbm, 107, rfl⟩
abbrev main_call3_c_0 : Ref sig .tc := ⟨.hbm, 108, rfl⟩
abbrev main_call3_v2 : Ref sig .tc := ⟨.hbm, 109, rfl⟩
abbrev main_call3_v3 : Ref sig .tc := ⟨.hbm, 110, rfl⟩
abbrev main_call3_v4 : Ref sig .tc := ⟨.hbm, 111, rfl⟩
abbrev main_call3_v5 : Ref sig .tc := ⟨.hbm, 112, rfl⟩
abbrev main_call3_c_1 : Ref sig .tc := ⟨.hbm, 113, rfl⟩
abbrev main_call3_c_2 : Ref sig .tc := ⟨.hbm, 114, rfl⟩
abbrev main_call3_v6 : Ref sig .tc := ⟨.hbm, 115, rfl⟩
abbrev main_call3_v7 : Ref sig .tc := ⟨.hbm, 116, rfl⟩
abbrev main_call3_v8 : Ref sig .tc := ⟨.hbm, 117, rfl⟩
abbrev main_call3_v9 : Ref sig .tc := ⟨.hbm, 118, rfl⟩
abbrev main_call3_v10 : Ref sig .tc := ⟨.hbm, 119, rfl⟩
abbrev main_call3_v11 : Ref sig .tc := ⟨.hbm, 120, rfl⟩
abbrev main_call3_c_3 : Ref sig .tc := ⟨.hbm, 121, rfl⟩
abbrev main_call3_v12 : Ref sig .tc := ⟨.hbm, 122, rfl⟩
abbrev main_call3_v13 : Ref sig .tc := ⟨.hbm, 123, rfl⟩
abbrev main_call3_v14 : Ref sig .tc := ⟨.hbm, 124, rfl⟩
abbrev main_call3_cst : Ref sig .tc := ⟨.hbm, 125, rfl⟩
abbrev main_call3_v15 : Ref sig .tc := ⟨.hbm, 126, rfl⟩
abbrev main_v14 : Ref sig .tc := ⟨.hbm, 127, rfl⟩
abbrev main_v15_0 : Ref sig .tc := ⟨.hbm, 128, rfl⟩
abbrev main_v15_1 : Ref sig .tc := ⟨.hbm, 129, rfl⟩
abbrev main_cst_0 : Ref sig .tc := ⟨.hbm, 130, rfl⟩
abbrev main_v16 : Ref sig .tc := ⟨.hbm, 131, rfl⟩
abbrev main_v17 : Ref sig .tc := ⟨.hbm, 132, rfl⟩
abbrev main_v18 : Ref sig .tc := ⟨.hbm, 133, rfl⟩
abbrev main_v19 : Ref sig .tc := ⟨.hbm, 134, rfl⟩
abbrev main_v20 : Ref sig .tc := ⟨.hbm, 135, rfl⟩
abbrev main_v21 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg9_0 : Ref sig .tc := ⟨.vmem, 26, rfl⟩
abbrev cc2_stg9_1 : Ref sig .tc := ⟨.vmem, 27, rfl⟩
abbrev cc2_stg10_0 : Ref sig .tc := ⟨.vmem, 28, rfl⟩
abbrev cc2_stg10_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg2_1 : Ref sig .tc := ⟨.vmem, 45, rfl⟩
abbrev cc4_stg3_0 : Ref sig .tc := ⟨.vmem, 46, rfl⟩
abbrev cc4_stg4_0 : Ref sig .tc := ⟨.vmem, 47, rfl⟩
abbrev cc4_stg5_0 : Ref sig .tc := ⟨.vmem, 48, rfl⟩
abbrev cc4_stg6_0 : Ref sig .tc := ⟨.vmem, 49, rfl⟩
abbrev cc4_stg7_0 : Ref sig .tc := ⟨.vmem, 50, rfl⟩
abbrev cc4_stg8_0 : Ref sig .tc := ⟨.vmem, 51, rfl⟩
abbrev cc4_stg9_0 : Ref sig .tc := ⟨.vmem, 52, rfl⟩
abbrev cc4_stg9_1 : Ref sig .tc := ⟨.vmem, 53, rfl⟩
abbrev cc4_stg10_0 : Ref sig .tc := ⟨.vmem, 54, rfl⟩
abbrev cc4_stg10_1 : Ref sig .tc := ⟨.vmem, 55, rfl⟩
abbrev cc5_stg0_0 : Ref sig .tc := ⟨.vmem, 56, rfl⟩
abbrev cc5_stg0_1 : Ref sig .tc := ⟨.vmem, 57, rfl⟩
abbrev cc5_stg1_0 : Ref sig .tc := ⟨.vmem, 58, rfl⟩
abbrev cc5_stg1_1 : Ref sig .tc := ⟨.vmem, 59, rfl⟩
abbrev cc5_stg2_0 : Ref sig .tc := ⟨.vmem, 60, rfl⟩
abbrev cc5_stg3_0 : Ref sig .tc := ⟨.vmem, 61, rfl⟩
abbrev cc5_stg4_0 : Ref sig .tc := ⟨.vmem, 62, rfl⟩
abbrev cc5_stg5_0 : Ref sig .tc := ⟨.vmem, 63, rfl⟩
abbrev cc5_stg6_0 : Ref sig .tc := ⟨.vmem, 64, rfl⟩
abbrev cc5_stg6_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg2_0 : Ref sig .tc := ⟨.vmem, 69, rfl⟩
abbrev cc6_stg3_0 : Ref sig .tc := ⟨.vmem, 70, rfl⟩
abbrev cc6_stg3_1 : Ref sig .tc := ⟨.vmem, 71, rfl⟩
abbrev cc7_stg0_0 : Ref sig .tc := ⟨.vmem, 72, rfl⟩
abbrev cc7_stg0_1 : Ref sig .tc := ⟨.vmem, 73, rfl⟩
abbrev cc7_stg1_0 : Ref sig .tc := ⟨.vmem, 74, rfl⟩
abbrev cc7_stg2_0 : Ref sig .tc := ⟨.vmem, 75, rfl⟩
abbrev cc7_stg3_0 : Ref sig .tc := ⟨.vmem, 76, rfl⟩
abbrev cc7_stg3_1 : Ref sig .tc := ⟨.vmem, 77, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem8_0 : DmaSem sig := 25
abbrev cc2_sem9_0 : DmaSem sig := 26
abbrev cc2_sem9_1 : DmaSem sig := 27
abbrev cc2_sem10_0 : DmaSem sig := 28
abbrev cc2_sem10_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem2_1 : DmaSem sig := 45
abbrev cc4_sem3_0 : DmaSem sig := 46
abbrev cc4_sem4_0 : DmaSem sig := 47
abbrev cc4_sem5_0 : DmaSem sig := 48
abbrev cc4_sem6_0 : DmaSem sig := 49
abbrev cc4_sem7_0 : DmaSem sig := 50
abbrev cc4_sem8_0 : DmaSem sig := 51
abbrev cc4_sem9_0 : DmaSem sig := 52
abbrev cc4_sem9_1 : DmaSem sig := 53
abbrev cc4_sem10_0 : DmaSem sig := 54
abbrev cc4_sem10_1 : DmaSem sig := 55
abbrev cc5_sem0_0 : DmaSem sig := 56
abbrev cc5_sem0_1 : DmaSem sig := 57
abbrev cc5_sem1_0 : DmaSem sig := 58
abbrev cc5_sem1_1 : DmaSem sig := 59
abbrev cc5_sem2_0 : DmaSem sig := 60
abbrev cc5_sem3_0 : DmaSem sig := 61
abbrev cc5_sem4_0 : DmaSem sig := 62
abbrev cc5_sem5_0 : DmaSem sig := 63
abbrev cc5_sem6_0 : DmaSem sig := 64
abbrev cc5_sem6_1 : DmaSem sig := 65
abbrev cc6_sem0_0 : DmaSem sig := 66
abbrev cc6_sem0_1 : DmaSem sig := 67
abbrev cc6_sem1_0 : DmaSem sig := 68
abbrev cc6_sem2_0 : DmaSem sig := 69
abbrev cc6_sem3_0 : DmaSem sig := 70
abbrev cc6_sem3_1 : DmaSem sig := 71
abbrev cc7_sem0_0 : DmaSem sig := 72
abbrev cc7_sem0_1 : DmaSem sig := 73
abbrev cc7_sem1_0 : DmaSem sig := 74
abbrev cc7_sem2_0 : DmaSem sig := 75
abbrev cc7_sem3_0 : DmaSem sig := 76
abbrev cc7_sem3_1 : DmaSem sig := 77

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![320], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![320], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S32x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S32 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x32 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S5000x32 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S32x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S32x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x32 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![320], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S32x32 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S32 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S32x32 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S32 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S5000x32 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 2 → Memref sig .tc .vmem S5000x32 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S32x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S32x32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S32 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x32 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x7 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S7 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x7 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![320], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S32x2 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S2 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x2 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x7_S5000x7_0_0 : ∀ a, (![0, 0] : Fin 2 → Nat) a + S5000x7.size a ≤ S5000x7.size a
  h_S5000x7 : 0 < S5000x7.numel
  bitsLt_bf16_f32 : FTy.bits .bf16 < FTy.bits .f32
  inb_S7x32_S7x32_0_0 : ∀ a, (![0, 0] : Fin 2 → Nat) a + S7x32.size a ≤ S7x32.size a
  h_S7x32 : 0 < S7x32.numel
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  inb_S5000x2_S5000x2_0_0 : ∀ a, (![0, 0] : Fin 2 → Nat) a + S5000x2.size a ≤ S5000x2.size a
  h_S5000x2 : 0 < S5000x2.numel
  inb_S2x32_S2x32_0_0 : ∀ a, (![0, 0] : Fin 2 → Nat) a + S2x32.size a ≤ S2x32.size a
  h_S2x32 : 0 < S2x32.numel
  inb_S32x32_S32x32_0_0 : ∀ a, (![0, 0] : Fin 2 → Nat) a + S32x32.size a ≤ S32x32.size a
  h_S32x32 : 0 < S32x32.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x32_0 : S1600000.BroadcastsInDim S1600000x32 (![0] : Fin 1 → Fin S1600000x32.rank)
  bcast_S_S1600000x32 : S_.BroadcastsInDim S1600000x32 (![] : Fin 0 → Fin S1600000x32.rank)
  shapeCasts_S5000x32_S5000x32 : S5000x32.ShapeCasts S5000x32
  concatenates_S5000x32_S5000x32_S5000x64_d1 : Shape.Concatenates [S5000x32, S5000x32] S5000x64 1
  inb_S64x32_S64x32_0_0 : ∀ a, (![0, 0] : Fin 2 → Nat) a + S64x32.size a ≤ S64x32.size a
  h_S64x32 : 0 < S64x32.numel
  bcast_S_S100000x32 : S_.BroadcastsInDim S100000x32 (![] : Fin 0 → Fin S100000x32.rank)
  inb_S32x7_S32x7_0_0 : ∀ a, (![0, 0] : Fin 2 → Nat) a + S32x7.size a ≤ S32x7.size a
  h_S32x7 : 0 < S32x7.numel
  inb_S7_S7_0 : ∀ a, (![0] : Fin 1 → Nat) a + S7.size a ≤ S7.size a
  h_S7 : 0 < S7.numel
  shapeCasts_S7_S1x7 : S7.ShapeCasts S1x7
  broadcasts_S1x7_S5000x7 : S1x7.Broadcasts S5000x7
  inb_S32x2_S32x2_0_0 : ∀ a, (![0, 0] : Fin 2 → Nat) a + S32x2.size a ≤ S32x2.size a
  h_S32x2 : 0 < S32x2.numel
  inb_S2_S2_0 : ∀ a, (![0] : Fin 1 → Nat) a + S2.size a ≤ S2.size a
  h_S2 : 0 < S2.numel
  shapeCasts_S2_S1x2 : S2.ShapeCasts S1x2
  broadcasts_S1x2_S5000x2 : S1x2.Broadcasts S5000x2
  dot_S5000x7_S7x32_S5000x32_1_0_0_1_n_n_wf : DotDims.WF S5000x7 S7x32 S5000x32 [1] [0] [0] [1] [] []
  dot_S5000x2_S2x32_S5000x32_1_0_0_1_n_n_wf : DotDims.WF S5000x2 S2x32 S5000x32 [1] [0] [0] [1] [] []
  dot_S5000x32_S32x32_S5000x32_1_0_0_1_n_n_wf : DotDims.WF S5000x32 S32x32 S5000x32 [1] [0] [0] [1] [] []
  gather_S100000x32_S1600000x1_S1600000x32_1_0_n_n_0_1_132_wf : GatherDims.WF S100000x32 S1600000x1 S1600000x32 [1] [0] [] [0] [] 1 ![1, 32]
  dot_S5000x64_S64x32_S5000x32_1_0_0_1_n_n_wf : DotDims.WF S5000x64 S64x32 S5000x32 [1] [0] [0] [1] [] []
  scatter_S100000x32_S1600000x1_S1600000x32_1_0_0_1_wf : ScatterDims.WF S100000x32 S1600000x1 S1600000x32 [1] [0] [0] 1
  dot_S5000x32_S32x7_S5000x7_1_0_0_1_n_n_wf : DotDims.WF S5000x32 S32x7 S5000x7 [1] [0] [0] [1] [] []
  dot_S5000x32_S32x2_S5000x2_1_0_0_1_n_n_wf : DotDims.WF S5000x32 S32x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x7.size a ≤ S100000x7.size a
  hwx0_0 : ∀ i : grid0.Coords, EltTy.bits .f32 = 32 ∨ (Rect.block (s := S100000x7) S5000x7.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x32.size a ≤ S7x32.size a
  hwx0_1 : ∀ i : grid0.Coords, EltTy.bits .f32 = 32 ∨ (Rect.block (s := S7x32) S7x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S100000x32.size a
  hwx0_3 : ∀ i : grid0.Coords, EltTy.bits .f32 = 32 ∨ (Rect.block (s := S100000x32) S5000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x2.size a ≤ S1600000x2.size a
  hwx1_0 : ∀ i : grid1.Coords, EltTy.bits .f32 = 32 ∨ (Rect.block (s := S1600000x2) S5000x2.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x32.size a ≤ S2x32.size a
  hwx1_1 : ∀ i : grid1.Coords, EltTy.bits .f32 = 32 ∨ (Rect.block (s := S2x32) S2x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32.size a ≤ S32.size a
  hwx1_2 : ∀ i : grid1.Coords, EltTy.bits .f32 = 32 ∨ (Rect.block (s := S32) S32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32.size a ≤ S32.size a
  hwx1_4 : ∀ i : grid1.Coords, EltTy.bits .f32 = 32 ∨ (Rect.block (s := S32) S32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S1600000x32.size a
  hwx1_5 : ∀ i : grid1.Coords, EltTy.bits .f32 = 32 ∨ (Rect.block (s := S1600000x32) S5000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S1600000x32.size a
  hwx2_0 : ∀ i : grid2.Coords, EltTy.bits .f32 = 32 ∨ (Rect.block (s := S1600000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x32.size a ≤ S1600000x32.size a
  hwx2_1 : ∀ i : grid2.Coords, EltTy.bits .f32 = 32 ∨ (Rect.block (s := S1600000x32) S5000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S1600000x32.size a
  hwx2_2 : ∀ i : grid2.Coords, EltTy.bits .f32 = 32 ∨ (Rect.block (s := S1600000x32) S5000x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x32.size a ≤ S64x32.size a
  hwx2_3 : ∀ i : grid2.Coords, EltTy.bits .f32 = 32 ∨ (Rect.block (s := S64x32) S64x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32.size a ≤ S32.size a
  hwx2_4 : ∀ i : grid2.Coords, EltTy.bits .f32 = 32 ∨ (Rect.block (s := S32) S32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x32.size a ≤ S32x32.size a
  hwx2_5 : ∀ i : grid2.Coords, EltTy.bits .f32 = 32 ∨ (Rect.block (s := S32x32) S32x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S32.size a ≤ S32.size a
  hwx2_6 : ∀ i : grid2.Coords, EltTy.bits .f32 = 32 ∨ (Rect.block (s := S32) S32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S32x32.size a ≤ S32x32.size a
  hwx2_7 : ∀ i : grid2.Coords, EltTy.bits .f32 = 32 ∨ (Rect.block (s := S32x32) S32x32.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S32.size a ≤ S32.size a
  hwx2_8 : ∀ i : grid2.Coords, EltTy.bits .f32 = 32 ∨ (Rect.block (s := S32) S32.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x32.size a ≤ S1600000x32.size a
  hwx2_9 : ∀ i : grid2.Coords, EltTy.bits .f32 = 32 ∨ (Rect.block (s := S1600000x32) S5000x32.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S5000x32.size a ≤ S1600000x32.size a
  hwx2_10 : ∀ i : grid2.Coords, EltTy.bits .f32 = 32 ∨ (Rect.block (s := S1600000x32) S5000x32.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x32.size a ≤ S100000x32.size a
  hwx3_1 : ∀ i : grid3.Coords, EltTy.bits .f32 = 32 ∨ (Rect.block (s := S100000x32) S5000x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32x32.size a ≤ S32x32.size a
  hwx3_2 : ∀ i : grid3.Coords, EltTy.bits .f32 = 32 ∨ (Rect.block (s := S32x32) S32x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32.size a ≤ S32.size a
  hwx3_3 : ∀ i : grid3.Coords, EltTy.bits .f32 = 32 ∨ (Rect.block (s := S32) S32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S32x32.size a ≤ S32x32.size a
  hwx3_4 : ∀ i : grid3.Coords, EltTy.bits .f32 = 32 ∨ (Rect.block (s := S32x32) S32x32.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S32.size a ≤ S32.size a
  hwx3_5 : ∀ i : grid3.Coords, EltTy.bits .f32 = 32 ∨ (Rect.block (s := S32) S32.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x32.size a ≤ S100000x32.size a
  hwx3_6 : ∀ i : grid3.Coords, EltTy.bits .f32 = 32 ∨ (Rect.block (s := S100000x32) S5000x32.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S1600000x32.size a
  hwx4_0 : ∀ i : grid4.Coords, EltTy.bits .f32 = 32 ∨ (Rect.block (s := S1600000x32) S5000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x32.size a ≤ S1600000x32.size a
  hwx4_1 : ∀ i : grid4.Coords, EltTy.bits .f32 = 32 ∨ (Rect.block (s := S1600000x32) S5000x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x32.size a ≤ S1600000x32.size a
  hwx4_2 : ∀ i : grid4.Coords, EltTy.bits .f32 = 32 ∨ (Rect.block (s := S1600000x32) S5000x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x32.size a ≤ S64x32.size a
  hwx4_3 : ∀ i : grid4.Coords, EltTy.bits .f32 = 32 ∨ (Rect.block (s := S64x32) S64x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S32.size a ≤ S32.size a
  hwx4_4 : ∀ i : grid4.Coords, EltTy.bits .f32 = 32 ∨ (Rect.block (s := S32) S32.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S32x32.size a ≤ S32x32.size a
  hwx4_5 : ∀ i : grid4.Coords, EltTy.bits .f32 = 32 ∨ (Rect.block (s := S32x32) S32x32.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S32.size a ≤ S32.size a
  hwx4_6 : ∀ i : grid4.Coords, EltTy.bits .f32 = 32 ∨ (Rect.block (s := S32) S32.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S32x32.size a ≤ S32x32.size a
  hwx4_7 : ∀ i : grid4.Coords, EltTy.bits .f32 = 32 ∨ (Rect.block (s := S32x32) S32x32.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S32.size a ≤ S32.size a
  hwx4_8 : ∀ i : grid4.Coords, EltTy.bits .f32 = 32 ∨ (Rect.block (s := S32) S32.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S5000x32.size a ≤ S1600000x32.size a
  hwx4_9 : ∀ i : grid4.Coords, EltTy.bits .f32 = 32 ∨ (Rect.block (s := S1600000x32) S5000x32.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S5000x32.size a ≤ S1600000x32.size a
  hwx4_10 : ∀ i : grid4.Coords, EltTy.bits .f32 = 32 ∨ (Rect.block (s := S1600000x32) S5000x32.size (cc4_transform_10 i) (hinb4_10 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x32.size a ≤ S100000x32.size a
  hwx5_0 : ∀ i : grid5.Coords, EltTy.bits .f32 = 32 ∨ (Rect.block (s := S100000x32) S5000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x32.size a ≤ S100000x32.size a
  hwx5_1 : ∀ i : grid5.Coords, EltTy.bits .f32 = 32 ∨ (Rect.block (s := S100000x32) S5000x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S32x32.size a ≤ S32x32.size a
  hwx5_2 : ∀ i : grid5.Coords, EltTy.bits .f32 = 32 ∨ (Rect.block (s := S32x32) S32x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S32.size a ≤ S32.size a
  hwx5_3 : ∀ i : grid5.Coords, EltTy.bits .f32 = 32 ∨ (Rect.block (s := S32) S32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S32x32.size a ≤ S32x32.size a
  hwx5_4 : ∀ i : grid5.Coords, EltTy.bits .f32 = 32 ∨ (Rect.block (s := S32x32) S32x32.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S32.size a ≤ S32.size a
  hwx5_5 : ∀ i : grid5.Coords, EltTy.bits .f32 = 32 ∨ (Rect.block (s := S32) S32.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x32.size a ≤ S100000x32.size a
  hwx5_6 : ∀ i : grid5.Coords, EltTy.bits .f32 = 32 ∨ (Rect.block (s := S100000x32) S5000x32.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x32.size a ≤ S100000x32.size a
  hwx6_0 : ∀ i : grid6.Coords, EltTy.bits .f32 = 32 ∨ (Rect.block (s := S100000x32) S5000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x7.size a ≤ S32x7.size a
  hwx6_1 : ∀ i : grid6.Coords, EltTy.bits .f32 = 32 ∨ (Rect.block (s := S32x7) S32x7.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S7.size a ≤ S7.size a
  hwx6_2 : ∀ i : grid6.Coords, EltTy.bits .f32 = 32 ∨ (Rect.block (s := S7) S7.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x7.size a ≤ S100000x7.size a
  hwx6_3 : ∀ i : grid6.Coords, EltTy.bits .f32 = 32 ∨ (Rect.block (s := S100000x7) S5000x7.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x32.size a ≤ S1600000x32.size a
  hwx7_0 : ∀ i : grid7.Coords, EltTy.bits .f32 = 32 ∨ (Rect.block (s := S1600000x32) S5000x32.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S32x2.size a ≤ S32x2.size a
  hwx7_1 : ∀ i : grid7.Coords, EltTy.bits .f32 = 32 ∨ (Rect.block (s := S32x2) S32x2.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S2.size a ≤ S2.size a
  hwx7_2 : ∀ i : grid7.Coords, EltTy.bits .f32 = 32 ∨ (Rect.block (s := S2) S2.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x2.size a ≤ S1600000x2.size a
  hwx7_3 : ∀ i : grid7.Coords, EltTy.bits .f32 = 32 ∨ (Rect.block (s := S1600000x2) S5000x2.size (cc7_transform_3 i) (hinb7_3 i)).WholeWords (EltTy.packing .f32)

variable [Facts₀]

def dot_S5000x7_S7x32_S5000x32_1_0_0_1_n_n : DotDims S5000x7 S7x32 S5000x32 where
  lhsContracting := [1]
  rhsContracting := [0]
  lhsNonContracting := [0]
  rhsNonContracting := [1]
  lhsBatch := []
  rhsBatch := []
  wf := dot_S5000x7_S7x32_S5000x32_1_0_0_1_n_n_wf
def dot_S5000x2_S2x32_S5000x32_1_0_0_1_n_n : DotDims S5000x2 S2x32 S5000x32 where
  lhsContracting := [1]
  rhsContracting := [0]
  lhsNonContracting := [0]
  rhsNonContracting := [1]
  lhsBatch := []
  rhsBatch := []
  wf := dot_S5000x2_S2x32_S5000x32_1_0_0_1_n_n_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x7_S5000x7_1_0_0_1_n_n : DotDims S5000x32 S32x7 S5000x7 where
  lhsContracting := [1]
  rhsContracting := [0]
  lhsNonContracting := [0]
  rhsNonContracting := [1]
  lhsBatch := []
  rhsBatch := []
  wf := dot_S5000x32_S32x7_S5000x7_1_0_0_1_n_n_wf
def dot_S5000x32_S32x2_S5000x2_1_0_0_1_n_n : DotDims S5000x32 S32x2 S5000x2 where
  lhsContracting := [1]
  rhsContracting := [0]
  lhsNonContracting := [0]
  rhsNonContracting := [1]
  lhsBatch := []
  rhsBatch := []
  wf := dot_S5000x32_S32x2_S5000x2_1_0_0_1_n_n_wf

abbrev win0_0 : Pipeline.Window sig grid0 :=
  Pipeline.Window.ofSpec (Memref.whole main_arg0) S5000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S7x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S5000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S2x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v6) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S5000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S5000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S64x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S32x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg12) S32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg13) S32x32.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg14) S32.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v8_0) S5000x32.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v8_1) S5000x32.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v4) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11) S5000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg15) S32x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg16) S32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg17) S32x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg18) S32.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v12) S5000x32.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v13) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v14) S5000x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v8_0) S5000x32.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg9) S64x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg10) S32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg11) S32x32.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg12) S32.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg13) S32x32.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_arg14) S32.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v15_0) S5000x32.size cc4_transform_9 reads4_9 true false 2 stage4_9 sem4_9
    hrank4 hreads4_9 hinb4_9 nbuf4_9 (Memref.isWhole_whole _) hwx4_9 hstage4_9

abbrev win4_10 : Pipeline.Window sig grid4 :=
  Pipeline.Window.ofSpec (Memref.whole main_v15_1) S5000x32.size cc4_transform_10 reads4_10 true false 2 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

abbrev win5_0 : Pipeline.Window sig grid5 :=
  Pipeline.Window.ofSpec (Memref.whole main_v12) S5000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v18) S5000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg15) S32x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg16) S32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg17) S32x32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg18) S32.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v19) S5000x32.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v19) S5000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg19) S32x7.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg20) S7.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v20) S5000x7.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v15_0) S5000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg21) S32x2.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg22) S2.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v21) S5000x2.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x7 : Shape := ⟨2, ![100000, 7]⟩
abbrev S1600000x2 : Shape := ⟨2, ![1600000, 2]⟩
abbrev S2x1600000 : Shape := ⟨2, ![2, 1600000]⟩
abbrev S7x32 : Shape := ⟨2, ![7, 32]⟩
abbrev S32 : Shape := ⟨1, ![32]⟩
abbrev S2x32 : Shape := ⟨2, ![2, 32]⟩
abbrev S32x32 : Shape := ⟨2, ![32, 32]⟩
abbrev S64x32 : Shape := ⟨2, ![64, 32]⟩
abbrev S32x7 : Shape := ⟨2, ![32, 7]⟩
abbrev S7 : Shape := ⟨1, ![7]⟩
abbrev S32x2 : Shape := ⟨2, ![32, 2]⟩
abbrev S2 : Shape := ⟨1, ![2]⟩
abbrev S1x1600000 : Shape := ⟨2, ![1, 1600000]⟩
abbrev S1600000 : Shape := ⟨1, ![1600000]⟩
abbrev S100000x32 : Shape := ⟨2, ![100000, 32]⟩
abbrev S1x32 : Shape := ⟨2, ![1, 32]⟩
abbrev S1600000x32 : Shape := ⟨2, ![1600000, 32]⟩
abbrev S_ : Shape := ⟨0, ![]⟩
abbrev S1600000x1 : Shape := ⟨2, ![1600000, 1]⟩
abbrev S1600000x64 : Shape := ⟨2, ![1600000, 64]⟩
abbrev S1x7 : Shape := ⟨2, ![1, 7]⟩
abbrev S1x2 : Shape := ⟨2, ![1, 2]⟩

abbrev nBuf : Space → Nat
  | .hbm => 190
  | .vmem => 0
  | .smem => 0
  | _ => 0

abbrev hbmTy0_0 (i : Nat) : BufTy := match i % 128 with
  | 0 => ⟨S100000x7, .f32⟩
  | 1 => ⟨S1600000x2, .f32⟩
  | 2 => ⟨S2x1600000, .i32⟩
  | 3 => ⟨S7x32, .f32⟩
  | 4 => ⟨S32, .f32⟩
  | 5 => ⟨S2x32, .f32⟩
  | 6 => ⟨S32, .f32⟩
  | 7 => ⟨S32x32, .f32⟩
  | 8 => ⟨S32, .f32⟩
  | 9 => ⟨S64x32, .f32⟩
  | 10 => ⟨S32, .f32⟩
  | 11 => ⟨S32x32, .f32⟩
  | 12 => ⟨S32, .f32⟩
  | 13 => ⟨S32x32, .f32⟩
  | 14 => ⟨S32, .f32⟩
  | 15 => ⟨S32x32, .f32⟩
  | 16 => ⟨S32, .f32⟩
  | 17 => ⟨S32x32, .f32⟩
  | 18 => ⟨S32, .f32⟩
  | 19 => ⟨S32x7, .f32⟩
  | 20 => ⟨S7, .f32⟩
  | 21 => ⟨S32x2, .f32⟩
  | 22 => ⟨S2, .f32⟩
  | 23 => ⟨S1x1600000, .i32⟩
  | 24 => ⟨S1600000, .i32⟩
  | 25 => ⟨S1x1600000, .i32⟩
  | 26 => ⟨S1600000, .i32⟩
  | 27 => ⟨S100000x32, .f32⟩
  | 28 => ⟨S1x32, .f32⟩
  | 29 => ⟨S100000x32, .f32⟩
  | 30 => ⟨S100000x32, .f32⟩
  | 31 => ⟨S1600000x32, .f32⟩
  | 32 => ⟨S1x32, .f32⟩
  | 33 => ⟨S1600000x32, .f32⟩
  | 34 => ⟨S1600000x32, .f32⟩
  | 35 => ⟨S_, .f32⟩
  | 36 => ⟨S1600000x32, .f32⟩
  | 37 => ⟨S1600000x32, .f32⟩
  | 38 => ⟨S1600000x32, .f32⟩
  | 39 => ⟨S1x32, .f32⟩
  | 40 => ⟨S1600000x32, .f32⟩
  | 41 => ⟨S1600000x32, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x32, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x32, .f32⟩
  | 60 => ⟨S1600000x64, .f32⟩
  | 61 => ⟨S1600000x32, .f32⟩
  | 62 => ⟨S1x32, .f32⟩
  | 63 => ⟨S1600000x32, .f32⟩
  | 64 => ⟨S1600000x32, .f32⟩
  | 65 => ⟨S1600000x32, .f32⟩
  | 66 => ⟨S1x32, .f32⟩
  | 67 => ⟨S1600000x32, .f32⟩
  | 68 => ⟨S1600000x32, .f32⟩
  | 69 => ⟨S1600000x32, .f32⟩
  | 70 => ⟨S1x32, .f32⟩
  | 71 => ⟨S1600000x32, .f32⟩
  | 72 => ⟨S1600000x32, .f32⟩
  | 73 => ⟨S_, .f32⟩
  | 74 => ⟨S1600000x32, .f32⟩
  | 75 => ⟨S1600000x32, .f32⟩
  | 76 => ⟨S1600000x32, .f32⟩
  | 77 => ⟨S_, .f32⟩
  | 78 => ⟨S1600000x32, .f32⟩
  | 79 => ⟨S1600000x32, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x32, .f32⟩
  | 89 => ⟨S1600000x32, .f32⟩
  | 90 => ⟨S_, .f32⟩
  | 91 => ⟨S1600000x32, .f32⟩
  | 92 => ⟨S1600000x32, .f32⟩
  | 93 => ⟨S_, .f32⟩
  | 94 => ⟨S100000x32, .f32⟩
  | 95 => ⟨S1600000x1, .i32⟩
  | 96 => ⟨S100000x32, .f32⟩
  | 97 => ⟨S100000x32, .f32⟩
  | 98 => ⟨S100000x32, .f32⟩
  | 99 => ⟨S1x32, .f32⟩
  | 100 => ⟨S100000x32, .f32⟩
  | 101 => ⟨S100000x32, .f32⟩
  | 102 => ⟨S_, .f32⟩
  | 103 => ⟨S100000x32, .f32⟩
  | 104 => ⟨S100000x32, .f32⟩
  | 105 => ⟨S100000x32, .f32⟩
  | 106 => ⟨S1x32, .f32⟩
  | 107 => ⟨S100000x32, .f32⟩
  | 108 => ⟨S100000x32, .f32⟩
  | 109 => ⟨S_, .f32⟩
  | 110 => ⟨S100000x32, .f32⟩
  | 111 => ⟨S100000x32, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x32, .f32⟩
  | 121 => ⟨S_, .i32⟩
  | 122 => ⟨S1600000, .i32⟩
  | 123 => ⟨S1600000, .i1⟩
  | 124 => ⟨S_, .i32⟩
  | 125 => ⟨S1600000, .i32⟩
  | 126 => ⟨S1600000, .i32⟩
  | 127 => ⟨S1600000, .i32⟩
  | _ => ⟨S100000x7, .f32⟩

abbrev hbmTy0_1 (i : Nat) : BufTy := match i % 128 with
  | 0 => ⟨S1600000x1, .i32⟩
  | 1 => ⟨S1600000x32, .f32⟩
  | 2 => ⟨S1600000x64, .f32⟩
  | 3 => ⟨S1600000x32, .f32⟩
  | 4 => ⟨S1x32, .f32⟩
  | 5 => ⟨S1600000x32, .f32⟩
  | 6 => ⟨S1600000x32, .f32⟩
  | 7 => ⟨S1600000x32, .f32⟩
  | 8 => ⟨S1x32, .f32⟩
  | 9 => ⟨S1600000x32, .f32⟩
  | 10 => ⟨S1600000x32, .f32⟩
  | 11 => ⟨S1600000x32, .f32⟩
  | 12 => ⟨S1x32, .f32⟩
  | 13 => ⟨S1600000x32, .f32⟩
  | 14 => ⟨S1600000x32, .f32⟩
  | 15 => ⟨S_, .f32⟩
  | 16 => ⟨S1600000x32, .f32⟩
  | 17 => ⟨S1600000x32, .f32⟩
  | 18 => ⟨S1600000x32, .f32⟩
  | 19 => ⟨S_, .f32⟩
  | 20 => ⟨S1600000x32, .f32⟩
  | 21 => ⟨S1600000x32, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x32, .f32⟩
  | 31 => ⟨S1600000x32, .f32⟩
  | 32 => ⟨S_, .f32⟩
  | 33 => ⟨S1600000x32, .f32⟩
  | 34 => ⟨S1600000x32, .f32⟩
  | 35 => ⟨S_, .f32⟩
  | 36 => ⟨S100000x32, .f32⟩
  | 37 => ⟨S1600000x1, .i32⟩
  | 38 => ⟨S100000x32, .f32⟩
  | 39 => ⟨S100000x32, .f32⟩
  | 40 => ⟨S100000x32, .f32⟩
  | 41 => ⟨S1x32, .f32⟩
  | 42 => ⟨S100000x32, .f32⟩
  | 43 => ⟨S100000x32, .f32⟩
  | 44 => ⟨S_, .f32⟩
  | 45 => ⟨S100000x32, .f32⟩
  | 46 => ⟨S100000x32, .f32⟩
  | 47 => ⟨S100000x32, .f32⟩
  | 48 => ⟨S1x32, .f32⟩
  | 49 => ⟨S100000x32, .f32⟩
  | 50 => ⟨S100000x32, .f32⟩
  | 51 => ⟨S_, .f32⟩
  | 52 => ⟨S100000x32, .f32⟩
  | 53 => ⟨S100000x32, .f32⟩
  | 54 => ⟨S100000x7, .f32⟩
  | 55 => ⟨S1x7, .f32⟩
  | 56 => ⟨S100000x7, .f32⟩
  | 57 => ⟨S100000x7, .f32⟩
  | 58 => ⟨S1600000x2, .f32⟩
  | 59 => ⟨S1x2, .f32⟩
  | 60 => ⟨S1600000x2, .f32⟩
  | 61 => ⟨S1600000x2, .f32⟩
  | _ => ⟨S100000x7, .f32⟩

abbrev hbmTy (i : Nat) : BufTy := match i / 128 with
  | 0 => hbmTy0_0 i
  | 1 => hbmTy0_1 i
  | _ => ⟨S100000x7, .f32⟩

abbrev bufTy : (tb : Table) → Fin (tcTables nBuf tb) → BufTy
  | .hbm, ⟨i, _⟩ => hbmTy i
  | _, _ => ⟨S100000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_call0_cst : Ref sig .tc := ⟨.hbm, 35, rfl⟩
abbrev main_call0_v0 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_c : Ref sig .tc := ⟨.hbm, 42, rfl⟩
abbrev main_v17 : Ref sig .tc := ⟨.hbm, 43, rfl⟩
abbrev main_v18 : Ref sig .tc := ⟨.hbm, 44, rfl⟩
abbrev main_c_0 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c_1 : Ref sig .tc := ⟨.hbm, 51, rfl⟩
abbrev main_v24 : Ref sig .tc := ⟨.hbm, 52, rfl⟩
abbrev main_v25 : Ref sig .tc := ⟨.hbm, 53, rfl⟩
abbrev main_c_2 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_call1_cst : Ref sig .tc := ⟨.hbm, 77, rfl⟩
abbrev main_call1_v0 : Ref sig .tc := ⟨.hbm, 78, rfl⟩
abbrev main_v47 : Ref sig .tc := ⟨.hbm, 79, rfl⟩
abbrev main_c_3 : Ref sig .tc := ⟨.hbm, 80, rfl⟩
abbrev main_v48 : Ref sig .tc := ⟨.hbm, 81, rfl⟩
abbrev main_v49 : Ref sig .tc := ⟨.hbm, 82, rfl⟩
abbrev main_c_4 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_call2_cst : Ref sig .tc := ⟨.hbm, 90, rfl⟩
abbrev main_call2_v0 : Ref sig .tc := ⟨.hbm, 91, rfl⟩
abbrev main_v56 : Ref sig .tc := ⟨.hbm, 92, rfl⟩
abbrev main_cst_5 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_call3_cst : Ref sig .tc := ⟨.hbm, 102, rfl⟩
abbrev main_call3_v0 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_call4_cst : Ref sig .tc := ⟨.hbm, 109, rfl⟩
abbrev main_call4_v0 : Ref sig .tc := ⟨.hbm, 110, rfl⟩
abbrev main_v70 : Ref sig .tc := ⟨.hbm, 111, rfl⟩
abbrev main_c_6 : Ref sig .tc := ⟨.hbm, 112, rfl⟩
abbrev main_v71 : Ref sig .tc := ⟨.hbm, 113, rfl⟩
abbrev main_v72 : Ref sig .tc := ⟨.hbm, 114, rfl⟩
abbrev main_c_7 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_c_8 : Ref sig .tc := ⟨.hbm, 121, rfl⟩
abbrev main_v78 : Ref sig .tc := ⟨.hbm, 122, rfl⟩
abbrev main_v79 : Ref sig .tc := ⟨.hbm, 123, rfl⟩
abbrev main_c_9 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_cst_10 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_call5_cst : Ref sig .tc := ⟨.hbm, 147, rfl⟩
abbrev main_call5_v0 : Ref sig .tc := ⟨.hbm, 148, rfl⟩
abbrev main_v101 : Ref sig .tc := ⟨.hbm, 149, rfl⟩
abbrev main_c_11 : Ref sig .tc := ⟨.hbm, 150, rfl⟩
abbrev main_v102 : Ref sig .tc := ⟨.hbm, 151, rfl⟩
abbrev main_v103 : Ref sig .tc := ⟨.hbm, 152, rfl⟩
abbrev main_c_12 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_call6_cst : Ref sig .tc := ⟨.hbm, 160, rfl⟩
abbrev main_call6_v0 : Ref sig .tc := ⟨.hbm, 161, rfl⟩
abbrev main_v110 : Ref sig .tc := ⟨.hbm, 162, rfl⟩
abbrev main_cst_13 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_call7_cst : Ref sig .tc := ⟨.hbm, 172, rfl⟩
abbrev main_call7_v0 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_call8_cst : Ref sig .tc := ⟨.hbm, 179, rfl⟩
abbrev main_call8_v0 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1x32_S1600000x32_0_1 : S1x32.BroadcastsInDim S1600000x32 (![0, 1] : Fin 2 → Fin S1600000x32.rank)
  bcast_S_S1600000x32 : S_.BroadcastsInDim S1600000x32 (![] : Fin 0 → Fin S1600000x32.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x32_S1600000x32_S1600000x64_d1 : Shape.Concatenates [S1600000x32, S1600000x32] S1600000x64 1
  bcast_S_S100000x32 : S_.BroadcastsInDim S100000x32 (![] : Fin 0 → Fin S100000x32.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  bcast_S2_S1x2_1 : S2.BroadcastsInDim S1x2 (![1] : Fin 1 → Fin S1x2.rank)
  bcast_S1x2_S1600000x2_0_1 : S1x2.BroadcastsInDim S1600000x2 (![0, 1] : Fin 2 → Fin S1600000x2.rank)
  dot_S100000x7_S7x32_S100000x32_1_0_0_1_n_n_wf : DotDims.WF S100000x7 S7x32 S100000x32 [1] [0] [0] [1] [] []
  dot_S1600000x2_S2x32_S1600000x32_1_0_0_1_n_n_wf : DotDims.WF S1600000x2 S2x32 S1600000x32 [1] [0] [0] [1] [] []
  dot_S1600000x32_S32x32_S1600000x32_1_0_0_1_n_n_wf : DotDims.WF S1600000x32 S32x32 S1600000x32 [1] [0] [0] [1] [] []
  gather_S100000x32_S1600000x1_S1600000x32_1_0_n_n_0_1_132_wf : GatherDims.WF S100000x32 S1600000x1 S1600000x32 [1] [0] [] [0] [] 1 ![1, 32]
  dot_S1600000x64_S64x32_S1600000x32_1_0_0_1_n_n_wf : DotDims.WF S1600000x64 S64x32 S1600000x32 [1] [0] [0] [1] [] []
  scatter_S100000x32_S1600000x1_S1600000x32_1_0_0_1_wf : ScatterDims.WF S100000x32 S1600000x1 S1600000x32 [1] [0] [0] 1
  dot_S100000x32_S32x32_S100000x32_1_0_0_1_n_n_wf : DotDims.WF S100000x32 S32x32 S100000x32 [1] [0] [0] [1] [] []
  dot_S100000x32_S32x7_S100000x7_1_0_0_1_n_n_wf : DotDims.WF S100000x32 S32x7 S100000x7 [1] [0] [0] [1] [] []
  dot_S1600000x32_S32x2_S1600000x2_1_0_0_1_n_n_wf : DotDims.WF S1600000x32 S32x2 S1600000x2 [1] [0] [0] [1] [] []

variable [Facts₀]

def dot_S100000x7_S7x32_S100000x32_1_0_0_1_n_n : DotDims S100000x7 S7x32 S100000x32 where
  lhsContracting := [1]
  rhsContracting := [0]
  lhsNonContracting := [0]
  rhsNonContracting := [1]
  lhsBatch := []
  rhsBatch := []
  wf := dot_S100000x7_S7x32_S100000x32_1_0_0_1_n_n_wf
def dot_S1600000x2_S2x32_S1600000x32_1_0_0_1_n_n : DotDims S1600000x2 S2x32 S1600000x32 where
  lhsContracting := [1]
  rhsContracting := [0]
  lhsNonContracting := [0]
  rhsNonContracting := [1]
  lhsBatch := []
  rhsBatch := []
  wf := dot_S1600000x2_S2x32_S1600000x32_1_0_0_1_n_n_wf
def dot_S1600000x32_S32x32_S1600000x32_1_0_0_1_n_n : DotDims S1600000x32 S32x32 S1600000x32 where
  lhsContracting := [1]
  rhsContracting := [0]
  lhsNonContracting := [0]
  rhsNonContracting := [1]
  lhsBatch := []
  rhsBatch := []
  wf := dot_S1600000x32_S32x32_S1600000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S1600000x64_S64x32_S1600000x32_1_0_0_1_n_n : DotDims S1600000x64 S64x32 S1600000x32 where
  lhsContracting := [1]
  rhsContracting := [0]
  lhsNonContracting := [0]
  rhsNonContracting := [1]
  lhsBatch := []
  rhsBatch := []
  wf := dot_S1600000x64_S64x32_S1600000x32_1_0_0_1_n_n_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x7_S100000x7_1_0_0_1_n_n : DotDims S100000x32 S32x7 S100000x7 where
  lhsContracting := [1]
  rhsContracting := [0]
  lhsNonContracting := [0]
  rhsNonContracting := [1]
  lhsBatch := []
  rhsBatch := []
  wf := dot_S100000x32_S32x7_S100000x7_1_0_0_1_n_n_wf
def dot_S1600000x32_S32x2_S1600000x2_1_0_0_1_n_n : DotDims S1600000x32 S32x2 S1600000x2 where
  lhsContracting := [1]
  rhsContracting := [0]
  lhsNonContracting := [0]
  rhsNonContracting := [1]
  lhsBatch := []
  rhsBatch := []
  wf := dot_S1600000x32_S32x2_S1600000x2_1_0_0_1_n_n_wf

class Facts : Prop extends Facts₀ where

variable [Facts]
-- ==== Proof.LibDenseDefs.lean ====
import Idealize.ShloMosaic.PureOps.Ideal
import Idealize.ShloMosaic.Lib.ValueIdx

/-!
# Dense layers on rows of extended reals: the definitions

A dense layer sends the rows of an `M × K` array `x` to `x · w + b`: entry `(r, q)` is `∑ k, x[r, k] · w[k, q] + b[q]`
(`lin`). `relu x = max x 0`; `cat` joins two arrays along the columns. All at an arbitrary number of rows.
-/

noncomputable section

namespace Cert.LibDense

open Idealize.ShloMosaic Idealize.ShloMosaic.ValueIdx

/-- An `m × n` array of extended reals. -/
abbrev Mat (m n : Nat) := (⟨2, ![m, n]⟩ : Shape).Idx → EReal
/-- A vector of `n` extended reals. -/
abbrev Row (n : Nat) := (⟨1, ![n]⟩ : Shape).Idx → EReal

/-- `max x 0`. -/
def relu (x : EReal) : EReal := max x 0

/-- `relu` entry by entry, over any index type. -/
def reluM {ι : Type} (x : ι → EReal) : ι → EReal := fun i => relu (x i)

/-- The dense layer `x · w + b`: entry `(r, q)` is `∑ k, x[r, k] · w[k, q] + b[q]`. -/
def lin {M K N : Nat} (x : Mat M K) (w : Mat K N) (b : Row N) : Mat M N :=
  fun i => (∑ k : Fin K, x (ix2 (i 0) k) * w (ix2 k (i 1))) + b (ix1 (i 1))

/-- Two arrays side by side: columns `0 … A-1` are `s`'s, columns `A … A+B-1` are `d`'s. -/
def cat {M A B : Nat} (s : Mat M A) (d : Mat M B) : Mat M (A + B) :=
  fun i => if h : (i 1).val < A then s (ix2 (i 0) ⟨(i 1).val, h⟩)
    else d (ix2 (i 0) ⟨(i 1).val - A, by have := (i 1).isLt; change (i 1).val < A + B at this; omega⟩)

theorem lin_apply {M K N : Nat} (x : Mat M K) (w : Mat K N) (b : Row N) (r : Fin M) (q : Fin N) :
    lin x w b (ix2 r q) = (∑ k : Fin K, x (ix2 r k) * w (ix2 k q)) + b (ix1 q) := rfl

end Cert.LibDense

end
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.LibLayout.lean ====
import proofs.«410628_j75788992905488_1_alg».proof.Proof.LibDenseDefs
import Idealize.ShloMosaic.PureOps.Ideal.Laws
import Idealize.ShloMosaic.Lib.ValueLayout
import Idealize.ShloMosaic.Lib.Pipeline.Value
import Idealize.ShloMosaic.Lib.StableHlo.Predicate

/-!
# Bias, `relu` and the column join, in the host's spelling and in a kernel's, read at an entry

* the bias of a row vector, as the host spells it (`broadcast_in_dim` twice: `[N] → [1, N] → [M, N]`) and as a kernel
  spells it (`shape_cast` to `[1, N]`, `broadcast` to `[M, N]`): both are `b[q]` at `(p, q)`;
* `max · 0` against the zero splat, in the host's and in a kernel's spelling: `relu` entry by entry;
* `concatenate` of two arrays along the columns: `cat`.
-/

noncomputable section

namespace Cert.LibDense

open Idealize.ShloMosaic Idealize.ShloMosaic.ValueIdx

/-! ## The bias read at an entry -/

/-- The host's bias: a row vector broadcast `[N] → [1, N] → [M, N]` reads `b[q]` at `(p, q)`. -/
theorem hostBias_apply {α : Type} (M N : Nat) (h₁ : (⟨1, ![N]⟩ : Shape).BroadcastsInDim ⟨2, ![1, N]⟩ ![1])
    (h₂ : (⟨2, ![1, N]⟩ : Shape).BroadcastsInDim ⟨2, ![M, N]⟩ ![0, 1]) (b : (⟨1, ![N]⟩ : Shape).Idx → α) (p : Fin M) (q : Fin N) :
    broadcastInDim ⟨2, ![M, N]⟩ ![0, 1] h₂ (broadcastInDim ⟨2, ![1, N]⟩ ![1] h₁ b) (ix2 p q) = b (ix1 q) := by
  -- the two spellings of the index (p, q), and of the index q, are the same function of the coordinate
  have e2 : (ix2 p q : (⟨2, ![M, N]⟩ : Shape).Idx) = StableHlo.Predicate.ij p q := by
    funext a; match a with | ⟨0, _⟩ => rfl | ⟨1, _⟩ => rfl
  have e1 : (ix1 q : (⟨1, ![N]⟩ : Shape).Idx) = Shape.Idx.ofFin q := by
    funext a; match a with | ⟨0, _⟩ => rfl
  rw [e2, e1]
  exact StableHlo.Predicate.bcast_cols h₁ h₂ b p q

/-- A kernel's bias: a row vector shape-cast to `[1, N]` and broadcast to `[M, N]` reads `b[q]` at `(p, q)`. -/
theorem kernBias_apply {α : Type} (M N : Nat) (hc : (⟨1, ![N]⟩ : Shape).ShapeCasts ⟨2, ![1, N]⟩)
    (hb : (⟨2, ![1, N]⟩ : Shape).Broadcasts ⟨2, ![M, N]⟩) (b : (⟨1, ![N]⟩ : Shape).Idx → α) (p : Fin M) (q : Fin N) :
    broadcastTo ⟨2, ![M, N]⟩ (shapeCast ⟨2, ![1, N]⟩ b hc) hb (ix2 p q) = b (ix1 q) := by
  have hq := q.isLt
  -- the broadcast reads the [1, N] row at (0, q): axis 0 of the row is a unit axis, axis 1 keeps the column
  refine (broadcastTo_apply (shapeCast ⟨2, ![1, N]⟩ b hc) hb (ix2 p q) (ix2 (0 : Fin 1) q) ?_).trans ?_
  · intro a
    match a with
    | ⟨0, _⟩ => exact (if_pos rfl).symm
    | ⟨1, _⟩ =>
      show q.val = if N = 1 then 0 else q.val
      split
      · omega
      · rfl
  -- the shape cast keeps the row-major position: 0 * N + q = q
  · refine shapeCast_apply b hc (ix2 (0 : Fin 1) q) (ix1 q) ?_
    rw [Shape.rowMajor_val_one, Shape.rowMajor_val_two]
    show q.val = 0 * N + q.val
    omega

/-! ## `relu` in the two spellings -/

/-- The host's `maximum(x, broadcast(0.0))` is `relu` entry by entry. -/
theorem hostRelu_eq {s : Shape} (h : (⟨0, ![]⟩ : Shape).BroadcastsInDim s ![]) (x : FVec Ideal s .f32) :
    maximumf x (broadcastInDim s ![] h (constant (F := Ideal) (⟨0, ![]⟩ : Shape) .f32 0x00000000#32)) = reluM x := by
  funext i
  show max (x i) (broadcastInDim s ![] h (constant (F := Ideal) (⟨0, ![]⟩ : Shape) .f32 0x00000000#32) i) = relu (x i)
  rw [StableHlo.Predicate.bcast_scalar h (by decide) _ i, constant_apply, Ideal.ofBits_zero_f32]
  rfl

/-- A kernel's `maximumf(x, broadcast 0.0)` is `relu` entry by entry. -/
theorem kernRelu_eq {s : Shape} (x : FVec Ideal s .f32) :
    maximumf x (broadcast s (Scalar.ofBits (F := Ideal) .f32 0x00000000#32)) = reluM x := by
  funext i
  show max (x i) (Ideal.ofBits .f32 0x00000000#32) = relu (x i)
  rw [Ideal.ofBits_zero_f32]
  rfl

/-! ## The column join -/

/-- `concatenate` of two arrays along the columns is `cat`. -/
theorem concat_eq (M A B : Nat) (h : Shape.Concatenates [(⟨2, ![M, A]⟩ : Shape), (⟨2, ![M, B]⟩ : Shape)] (⟨2, ![M, A + B]⟩ : Shape) 1)
    (s : Mat M A) (d : Mat M B) :
    concatenate (⟨2, ![M, A + B]⟩ : Shape) 1 [⟨(⟨2, ![M, A]⟩ : Shape), s⟩, ⟨(⟨2, ![M, B]⟩ : Shape), d⟩] h = cat s d := by
  funext i
  have hi1 : (i 1).val < A + B := (i 1).isLt
  unfold cat
  by_cases hlt : (i 1).val < A
  -- a column below A lies in the first piece, at the same coordinates
  · rw [dif_pos hlt]
    refine concatenate_pair_apply_left (1 : Fin 2) s d h i rfl (ix2 (i 0) ⟨(i 1).val, hlt⟩) ?_
    intro b
    match b with
    | ⟨0, _⟩ => rfl
    | ⟨1, _⟩ => rfl
  -- a column at or past A lies in the second piece, A columns to the left
  · rw [dif_neg hlt]
    refine concatenate_pair_apply_right (1 : Fin 2) s d h i rfl rfl (ix2 (i 0) ⟨(i 1).val - A, by omega⟩) ?_ ?_
    · intro b hb
      match b, hb with
      | ⟨0, _⟩, _ => rfl
      | ⟨1, _⟩, hb => exact absurd rfl hb
    · show (i 1).val - A + A = (i 1).val
      omega

end Cert.LibDense

end
-- ==== Proof.LibDense.lean ====
import proofs.«410628_j75788992905488_1_alg».proof.Proof.LibDenseDefs
import proofs.«410628_j75788992905488_1_alg».proof.Proof.LibContract
import proofs.«410628_j75788992905488_1_alg».proof.Proof.LibLayout

/-!
# Dense layers on rows of extended reals, and the two spellings a program has for them

The dense layer `lin x w b = x · w + b` acts row by row: an entry of row `r` depends on row `r` of `x` only (`lin_rows`),
so the same definition at a block of rows and at the whole array is one function. The host's
`dot_general(x, w) + broadcast(b)` and a kernel's `matmul(bf16 x, bf16 w, 0) + broadcast(shape_cast b)` are both `lin x w b`
on the extended reals, where a change of float format is the identity.
-/

noncomputable section

namespace Cert.LibDense

open Idealize.ShloMosaic Idealize.ShloMosaic.ValueIdx

/-- An entry of row `r` of `x · w + b` is a function of row `r` of `x`, column `q` of `w` and `b[q]`. -/
theorem lin_rows {M M' K N : Nat} (x : Mat M K) (x' : Mat M' K) (w w' : Mat K N) (b b' : Row N) (r : Fin M) (r' : Fin M')
    (q : Fin N) (hx : ∀ k : Fin K, x (ix2 r k) = x' (ix2 r' k)) (hw : ∀ k : Fin K, w (ix2 k q) = w' (ix2 k q))
    (hb : b (ix1 q) = b' (ix1 q)) : lin x w b (ix2 r q) = lin x' w' b' (ix2 r' q) := by
  rw [lin_apply, lin_apply, hb]
  congr 1
  exact Finset.sum_congr rfl fun k _ => by rw [hx k, hw k]

/-- Row `r` of the join is row `r` of each part. -/
theorem cat_rows {M M' A B : Nat} (s : Mat M A) (d : Mat M B) (s' : Mat M' A) (d' : Mat M' B) (r : Fin M) (r' : Fin M')
    (hs : ∀ k : Fin A, s (ix2 r k) = s' (ix2 r' k)) (hd : ∀ k : Fin B, d (ix2 r k) = d' (ix2 r' k)) (k : Fin (A + B)) :
    cat s d (ix2 r k) = cat s' d' (ix2 r' k) := by
  by_cases h : k.val < A
  · have e : cat s d (ix2 r k) = s (ix2 r ⟨k.val, h⟩) := dif_pos h
    have e' : cat s' d' (ix2 r' k) = s' (ix2 r' ⟨k.val, h⟩) := dif_pos h
    rw [e, e']
    exact hs _
  · have e : cat s d (ix2 r k) = d (ix2 r ⟨k.val - A, by have := k.isLt; omega⟩) := dif_neg h
    have e' : cat s' d' (ix2 r' k) = d' (ix2 r' ⟨k.val - A, by have := k.isLt; omega⟩) := dif_neg h
    rw [e, e']
    exact hd _

/-! ## The printed layer is `lin` -/

/-- The host's `dot_general(x, w) + broadcast(b)` is `lin x w b`. -/
theorem hostLin_eq (M K N : Nat) (prec : Option ContractPrecision) (h₁ : (⟨1, ![N]⟩ : Shape).BroadcastsInDim ⟨2, ![1, N]⟩ ![1])
    (h₂ : (⟨2, ![1, N]⟩ : Shape).BroadcastsInDim ⟨2, ![M, N]⟩ ![0, 1])
    (x : FVec Ideal (⟨2, ![M, K]⟩ : Shape) .f32) (w : FVec Ideal (⟨2, ![K, N]⟩ : Shape) .f32) (b : FVec Ideal (⟨1, ![N]⟩ : Shape) .f32) :
    addf (Host.dotGeneral (DotDims.plain M K N) prec x w)
        (broadcastInDim ⟨2, ![M, N]⟩ ![0, 1] h₂ (broadcastInDim ⟨2, ![1, N]⟩ ![1] h₁ b))
      = lin x w b := by
  funext i
  obtain ⟨p, q, rfl⟩ : ∃ (p : Fin M) (q : Fin N), i = ix2 p q := ⟨i 0, i 1, eq_ix2 i⟩
  refine (addf_apply _ _ _).trans ?_
  rw [dotGeneral_plain_apply, hostBias_apply, lin_apply]

/-- A kernel's `matmul(bf16 x, bf16 w, 0) + broadcast(shape_cast b)` is `lin x w b`: at the extended reals the change of
    format is the identity. -/
theorem kernLin_eq (M K N : Nat) (prec : Option ContractPrecision) (hc : (⟨1, ![N]⟩ : Shape).ShapeCasts ⟨2, ![1, N]⟩)
    (hb : (⟨2, ![1, N]⟩ : Shape).Broadcasts ⟨2, ![M, N]⟩) (ht : FTy.bf16.bits < FTy.f32.bits)
    (x : FVec Ideal (⟨2, ![M, K]⟩ : Shape) .f32) (w : FVec Ideal (⟨2, ![K, N]⟩ : Shape) .f32) (b : FVec Ideal (⟨1, ![N]⟩ : Shape) .f32) :
    addf (matmul (DotDims.plain M K N) prec (truncf .bf16 x ht) (truncf .bf16 w ht)
          (constant (F := Ideal) (⟨2, ![M, N]⟩ : Shape) .f32 0x00000000#32))
        (broadcastTo ⟨2, ![M, N]⟩ (shapeCast ⟨2, ![1, N]⟩ b hc) hb)
      = lin x w b := by
  funext i
  obtain ⟨p, q, rfl⟩ : ∃ (p : Fin M) (q : Fin N), i = ix2 p q := ⟨i 0, i 1, eq_ix2 i⟩
  refine (addf_apply _ _ _).trans ?_
  rw [matmul_plain_zero_apply, kernBias_apply, lin_apply]
  rfl

end Cert.LibDense

end
-- ==== Proof.Spec.lean ====
import proofs.«410628_j75788992905488_1_alg».proof.Proof.LibDense

/-!
# The message-passing network as functions of its arrays

Every stage acts on rows, so each is given at an arbitrary number of rows `M`: a block of 5000 rows and the whole array
of 100000 or 1600000 rows are instances of ONE function, and a stage's row `r` depends on row `r` of its row-wise
operands only (the `_rows` lemmas). Values are extended reals. The one float literal, the factor `1.0` on the attention
output, stays the word it is printed as.
-/

noncomputable section

namespace Cert.Spec

open Idealize.ShloMosaic Idealize.ShloMosaic.ValueIdx Cert.LibDense

/-- A vector of `n` 32-bit integer words. -/
abbrev Ids (n : Nat) := IVec (⟨1, ![n]⟩ : Shape) 32

/-- Two layers with a `relu` between them: `relu (x · w₁ + b₁) · w₂ + b₂`. -/
def mlp2 {M K : Nat} (x : Mat M K) (w₁ : Mat K 32) (b₁ : Row 32) (w₂ : Mat 32 32) (b₂ : Row 32) : Mat M 32 :=
  lin (reluM (lin x w₁ b₁)) w₂ b₂

/-- The attention output of an edge: three dense layers on the joined end-point features. -/
def attn {M : Nat} (s d : Mat M 32) (apw : Mat 64 32) (apb : Row 32) (wv : Mat 32 32) (bv : Row 32)
    (wo : Mat 32 32) (bo : Row 32) : Mat M 32 :=
  lin (lin (lin (cat s d) apw apb) wv bv) wo bo

/-- The edge features after a round: `relu (ef + 1.0 · attn)`. -/
def edgeNew {M : Nat} (s d ef : Mat M 32) (apw : Mat 64 32) (apb : Row 32) (wv : Mat 32 32) (bv : Row 32)
    (wo : Mat 32 32) (bo : Row 32) : Mat M 32 :=
  fun i => relu (ef i + Ideal.ofBits .f32 0x3F800000#32 * attn s d apw apb wv bv wo bo i)

/-- The message an edge sends: `relu (source features + new edge features)`. -/
def edgeMsg {M : Nat} (s ef' : Mat M 32) : Mat M 32 := fun i => relu (s i + ef' i)

/-- The node update: `relu (relu ((nf + agg) · w₁ + b₁) · w₂ + b₂)`. -/
def nodeUpd {M : Nat} (nf agg : Mat M 32) (w₁ : Mat 32 32) (b₁ : Row 32) (w₂ : Mat 32 32) (b₂ : Row 32) : Mat M 32 :=
  reluM (lin (reluM (lin (fun i => nf i + agg i) w₁ b₁)) w₂ b₂)

/-! ## Rows -/

theorem mlp2_rows {M M' K : Nat} (x : Mat M K) (x' : Mat M' K) (w₁ : Mat K 32) (b₁ : Row 32) (w₂ : Mat 32 32) (b₂ : Row 32)
    (r : Fin M) (r' : Fin M') (q : Fin 32) (hx : ∀ k : Fin K, x (ix2 r k) = x' (ix2 r' k)) :
    mlp2 x w₁ b₁ w₂ b₂ (ix2 r q) = mlp2 x' w₁ b₁ w₂ b₂ (ix2 r' q) := by
  -- the outer layer reads row `r` of `relu (x · w₁ + b₁)`, whose entries read row `r` of `x`
  unfold mlp2
  refine lin_rows _ _ w₂ w₂ b₂ b₂ r r' q (fun k => ?_) (fun _ => rfl) rfl
  show relu (lin x w₁ b₁ (ix2 r k)) = relu (lin x' w₁ b₁ (ix2 r' k))
  exact congrArg relu (lin_rows x x' w₁ w₁ b₁ b₁ r r' k hx (fun _ => rfl) rfl)

theorem edgeNew_rows {M M' : Nat} (s d ef : Mat M 32) (s' d' ef' : Mat M' 32) (apw : Mat 64 32) (apb : Row 32)
    (wv : Mat 32 32) (bv : Row 32) (wo : Mat 32 32) (bo : Row 32) (r : Fin M) (r' : Fin M') (q : Fin 32)
    (hs : ∀ k : Fin 32, s (ix2 r k) = s' (ix2 r' k)) (hd : ∀ k : Fin 32, d (ix2 r k) = d' (ix2 r' k))
    (he : ef (ix2 r q) = ef' (ix2 r' q)) :
    edgeNew s d ef apw apb wv bv wo bo (ix2 r q) = edgeNew s' d' ef' apw apb wv bv wo bo (ix2 r' q) := by
  -- the attention output at `(r, q)`: three dense layers over the join of rows `r` of `s` and `d`
  have hattn : attn s d apw apb wv bv wo bo (ix2 r q) = attn s' d' apw apb wv bv wo bo (ix2 r' q) := by
    unfold attn
    refine lin_rows _ _ wo wo bo bo r r' q (fun k₁ => ?_) (fun _ => rfl) rfl
    refine lin_rows _ _ wv wv bv bv r r' k₁ (fun k₂ => ?_) (fun _ => rfl) rfl
    refine lin_rows _ _ apw apw apb apb r r' k₂ (fun k₃ => ?_) (fun _ => rfl) rfl
    exact cat_rows s d s' d' r r' hs hd k₃
  show relu (ef (ix2 r q) + Ideal.ofBits .f32 0x3F800000#32 * attn s d apw apb wv bv wo bo (ix2 r q))
      = relu (ef' (ix2 r' q) + Ideal.ofBits .f32 0x3F800000#32 * attn s' d' apw apb wv bv wo bo (ix2 r' q))
  rw [he, hattn]

theorem nodeUpd_rows {M M' : Nat} (nf agg : Mat M 32) (nf' agg' : Mat M' 32) (w₁ : Mat 32 32) (b₁ : Row 32)
    (w₂ : Mat 32 32) (b₂ : Row 32) (r : Fin M) (r' : Fin M') (q : Fin 32)
    (hn : ∀ k : Fin 32, nf (ix2 r k) = nf' (ix2 r' k)) (ha : ∀ k : Fin 32, agg (ix2 r k) = agg' (ix2 r' k)) :
    nodeUpd nf agg w₁ b₁ w₂ b₂ (ix2 r q) = nodeUpd nf' agg' w₁ b₁ w₂ b₂ (ix2 r' q) := by
  -- from the outside in: `relu`, a dense layer, `relu`, a dense layer, and the entrywise sum of rows `r`
  show relu (lin (reluM (lin (fun i => nf i + agg i) w₁ b₁)) w₂ b₂ (ix2 r q))
      = relu (lin (reluM (lin (fun i => nf' i + agg' i) w₁ b₁)) w₂ b₂ (ix2 r' q))
  refine congrArg relu (lin_rows _ _ w₂ w₂ b₂ b₂ r r' q (fun k₁ => ?_) (fun _ => rfl) rfl)
  show relu (lin (fun i => nf i + agg i) w₁ b₁ (ix2 r k₁)) = relu (lin (fun i => nf' i + agg' i) w₁ b₁ (ix2 r' k₁))
  refine congrArg relu (lin_rows _ _ w₁ w₁ b₁ b₁ r r' k₁ (fun k₂ => ?_) (fun _ => rfl) rfl)
  show nf (ix2 r k₂) + agg (ix2 r k₂) = nf' (ix2 r' k₂) + agg' (ix2 r' k₂)
  rw [hn k₂, ha k₂]

/-! ## The program's inputs and its stages in order -/

/-- The arrays the network is applied to: node and edge logits, the two rows of the edge list, and the weights. -/
structure Inputs where
  x0 : Mat 100000 7
  x1 : Mat 1600000 2
  src : Ids 1600000
  dst : Ids 1600000
  nipw : Mat 7 32
  nipb : Row 32
  emw1 : Mat 2 32
  emb1 : Row 32
  emw2 : Mat 32 32
  emb2 : Row 32
  apw : Mat 64 32
  apb : Row 32
  wv : Mat 32 32
  bv : Row 32
  wo : Mat 32 32
  bo : Row 32
  gw1 : Mat 32 32
  gb1 : Row 32
  gw2 : Mat 32 32
  gb2 : Row 32
  nchw : Mat 32 7
  nchb : Row 7
  echw : Mat 32 2
  echb : Row 2

section Stages

variable (take : Mat 100000 32 → Ids 1600000 → Mat 1600000 32) (seg : Mat 1600000 32 → Ids 1600000 → Mat 100000 32)
  (I : Inputs)

/-- Node features before the first round: the initial projection of the node logits. -/
def nf0 : Mat 100000 32 := lin I.x0 I.nipw I.nipb
/-- Edge features before the first round: the edge network applied to the edge logits. -/
def ef0 : Mat 1600000 32 := mlp2 I.x1 I.emw1 I.emb1 I.emw2 I.emb2
/-- Edge features after the first round. -/
def ef1 : Mat 1600000 32 := edgeNew (take (nf0 I) I.src) (take (nf0 I) I.dst) (ef0 I) I.apw I.apb I.wv I.bv I.wo I.bo
/-- The first round's messages. -/
def msg1 : Mat 1600000 32 := edgeMsg (take (nf0 I) I.src) (ef1 take I)
/-- Node features after the first round. -/
def nf1 : Mat 100000 32 := nodeUpd (nf0 I) (seg (msg1 take I) I.dst) I.gw1 I.gb1 I.gw2 I.gb2
/-- Edge features after the second round. -/
def ef2 : Mat 1600000 32 :=
  edgeNew (take (nf1 take seg I) I.src) (take (nf1 take seg I) I.dst) (ef1 take I) I.apw I.apb I.wv I.bv I.wo I.bo
/-- The second round's messages. -/
def msg2 : Mat 1600000 32 := edgeMsg (take (nf1 take seg I) I.src) (ef2 take seg I)
/-- Node features after the second round. -/
def nf2 : Mat 100000 32 := nodeUpd (nf1 take seg I) (seg (msg2 take seg I) I.dst) I.gw1 I.gb1 I.gw2 I.gb2
/-- The refined node logits: the node head on the final node features. -/
def outNodes : Mat 100000 7 := lin (nf2 take seg I) I.nchw I.nchb
/-- The refined edge logits: the edge head on the final edge features. -/
def outEdges : Mat 1600000 2 := lin (ef2 take seg I) I.echw I.echb

end Stages

end Cert.Spec

end
-- ==== Proof.Region0.lean ====
import proofs.«410628_j75788992905488_1_alg».proof.Proof.Gen.KernelIdeal.Frame
import proofs.«410628_j75788992905488_1_alg».proof.Proof.Spec

/-!
# Pallas call 0: the initial projection of the node logits

The call's grid walks the rows in blocks of 5000; at a point the body multiplies the block by the resident weights and adds
the bias, so the block it writes back is the same rows of `lin` of the whole array, and the blocks fill the result.
-/

set_option maxRecDepth 16384

noncomputable section

namespace Cert.KernelIdeal.RegionVal

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibDense Cert.Spec

-- the TensorCore's buffer contents when the region is entered
variable (V : (c : Dev nD) → (b : Ref sig .tc) → Buf (Elt Ideal) ((c : Thread nD τ).loc b))

/-- The body's stored value is the dense layer of its loaded blocks. -/
theorem pay0 (v0 : Vec Ideal S5000x7 .f32) (v2 : Vec Ideal S7x32 .f32) (v5 : Vec Ideal S32 .f32) :
    k0_pay1 (F := Ideal) v0 v2 v5 = lin v0 v2 v5 := by
  unfold k0_pay1
  exact kernLin_eq 5000 7 32 none shapeCasts_S32_S1x32 broadcasts_S1x32_S5000x32 bitsLt_bf16_f32 v0 v2 v5

/-! ## Where a block sits in its array -/

/-- The body reads and writes each staging buffer whole: its accesses start at offset zero on every axis. -/
theorem nodeProj_zero2 : (![0, 0] : Fin 2 → Nat) = fun _ => 0 :=
  funext fun a => by match a with | ⟨0, _⟩ => rfl | ⟨1, _⟩ => rfl

theorem nodeProj_zero1 : (![0] : Fin 1 → Nat) = fun _ => 0 :=
  funext fun a => by match a with | ⟨0, _⟩ => rfl

/-- The block indices at a grid point: the logits' and the result's blocks are block `t` of the rows and the only block
    of the columns; the weights and the bias are one block each, the same at every point. -/
theorem nodeProj_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row `p` of block `t` is a row of the array: `20` blocks of `5000` rows are its `100000` rows. -/
theorem nodeProj_row_lt (t : Fin cfg0.N) (p : Fin 5000) : t.val * 5000 + p.val < 100000 := by
  have ht : t.val < 20 := Nat.lt_of_lt_of_eq t.isLt N_0
  have hp : p.val < 5000 := p.isLt
  omega

/-- The logits' block at point `t` holds rows `5000 t … 5000 t + 4999` of the logits. -/
theorem nodeProj_rows (c : Dev nD) (t : Fin cfg0.N) (p : Fin 5000) (k : Fin 7) :
    iblk0 (F := Ideal) V c 0 t (ix2 p k) = V c main_arg0 (ix2 ⟨t.val * 5000 + p.val, nodeProj_row_lt t p⟩ k) := by
  obtain ⟨e0, e1, -⟩ := nodeProj_index t
  show V c main_arg0 (((cfg0.win 0).blk t).view.emb (ix2 p k)) = _
  refine congrArg (V c main_arg0) ?_
  funext a; apply Fin.ext
  match a with
  | ⟨0, _⟩ => show win0_0.index t (0 : Fin 2) * 5000 + 1 * p.val = t.val * 5000 + p.val; rw [e0]; omega
  | ⟨1, _⟩ => show win0_0.index t (1 : Fin 2) * 7 + 1 * k.val = k.val; rw [e1]; omega

/-- The weights' block is the weights, at every point. -/
theorem nodeProj_weights (c : Dev nD) (t : Fin cfg0.N) (k : Fin 7) (q : Fin 32) :
    iblk0 (F := Ideal) V c 1 t (ix2 k q) = V c main_arg3 (ix2 k q) := by
  obtain ⟨-, -, e2, e3, -⟩ := nodeProj_index t
  show V c main_arg3 (((cfg0.win 1).blk t).view.emb (ix2 k q)) = _
  refine congrArg (V c main_arg3) ?_
  funext a; apply Fin.ext
  match a with
  | ⟨0, _⟩ => show win0_1.index t (0 : Fin 2) * 7 + 1 * k.val = k.val; rw [e2]; omega
  | ⟨1, _⟩ => show win0_1.index t (1 : Fin 2) * 32 + 1 * q.val = q.val; rw [e3]; omega

/-- The bias's block is the bias, at every point. -/
theorem nodeProj_bias (c : Dev nD) (t : Fin cfg0.N) (q : Fin 32) :
    iblk0 (F := Ideal) V c 2 t (ix1 q) = V c main_arg4 (ix1 q) := by
  obtain ⟨-, -, -, -, e4, -⟩ := nodeProj_index t
  show V c main_arg4 (((cfg0.win 2).blk t).view.emb (ix1 q)) = _
  refine congrArg (V c main_arg4) ?_
  funext a; apply Fin.ext
  match a with
  | ⟨0, _⟩ => show win0_2.index t (0 : Fin 1) * 32 + 1 * q.val = q.val; rw [e4]; omega

/-! ## What a point writes back -/

/-- Entry `(p, q)` of the dense layer of the blocks at point `t` is entry `(5000 t + p, q)` of the dense layer of the whole
    arrays: a row of `x · w + b` is a function of the same row of `x`. -/
theorem nodeProj_entry (c : Dev nD) (t : Fin cfg0.N) (p : Fin 5000) (q : Fin 32) :
    lin (iblk0 (F := Ideal) V c 0 t) (iblk0 (F := Ideal) V c 1 t) (iblk0 (F := Ideal) V c 2 t) (ix2 p q)
      = lin (V c main_arg0) (V c main_arg3) (V c main_arg4) (ix2 ⟨t.val * 5000 + p.val, nodeProj_row_lt t p⟩ q) := by
  refine lin_rows (M := 5000) (M' := 100000) (K := 7) (N := 32) _ _ _ _ _ _ p _ q ?_ ?_ ?_
  · exact fun k => nodeProj_rows V c t p k
  · exact fun k => nodeProj_weights V c t k q
  · exact nodeProj_bias V c t q

/-- What point `t` writes back is block `t` of the dense layer of the whole arrays. -/
theorem nodeProj_written (c : Dev nD) (t : Fin cfg0.N) :
    (dat0 (F := Ideal) V c).flushed 3 t
      = ((cfg0.win 3).blk t).view.read (Elt Ideal) (lin (V c main_arg0) (V c main_arg3) (V c main_arg4)) := by
  show (cfg0.win 3).cut (grid0.coords t) ((dat0 V c).after 3 t) = _
  rw [after0_3]
  unfold out0_3
  rw [View.canon_unit_zero nodeProj_zero2]
  simp only [View.ld_unit_zero (S := S5000x7) nodeProj_zero2, View.ld_unit_zero (S := S7x32) nodeProj_zero2,
    View.ld_unit_zero (S := S32) nodeProj_zero1]
  rw [pay0]
  obtain ⟨-, -, -, -, -, e5, e6⟩ := nodeProj_index t
  funext j
  obtain ⟨p, q, rfl⟩ : ∃ (p : Fin 5000) (q : Fin 32), j = ix2 p q := ⟨j 0, j 1, eq_ix2 j⟩
  show lin (iblk0 (F := Ideal) V c 0 t) (iblk0 (F := Ideal) V c 1 t) (iblk0 (F := Ideal) V c 2 t) (ix2 p q)
    = lin (V c main_arg0) (V c main_arg3) (V c main_arg4) (((cfg0.win 3).blk t).view.emb (ix2 p q))
  refine (nodeProj_entry V c t p q).trans (congrArg (lin (V c main_arg0) (V c main_arg3) (V c main_arg4)) ?_)
  funext a; apply Fin.ext
  match a with
  | ⟨0, _⟩ => show t.val * 5000 + p.val = win0_3.index t (0 : Fin 2) * 5000 + 1 * p.val; rw [e5]; omega
  | ⟨1, _⟩ => show q.val = win0_3.index t (1 : Fin 2) * 32 + 1 * q.val; rw [e6]; omega

/-! ## The blocks fill the result -/

/-- An entry of the result is in point `t`'s block iff each coordinate is in the block's range on its axis. -/
theorem nodeProj_mem (t : Fin cfg0.N) (i : S100000x32.Idx) :
    i ∈ ((cfg0.win 3).blk t).view.set ↔ ∀ a : Fin 2, win0_3.index t a * S5000x32.size a ≤ (i a).val
      ∧ (i a).val < win0_3.index t a * S5000x32.size a + S5000x32.size a := by
  show i ∈ ((View.whole main_v4).slice (win0_3.rect t)).set ↔ _
  rw [View.set_slice_whole, Rect.mem_set_unit]
  exact Iff.rfl

/-- Row `r` of the result is written by point `r / 5000`. -/
theorem nodeProj_cover (i : S100000x32.Idx) :
    ∃ t : Fin cfg0.N, (cfg0.win 3).flush t = true ∧ i ∈ ((cfg0.win 3).blk t).view.set := by
  have hi0 : (i 0).val < 100000 := (i 0).isLt
  have hi1 : (i 1).val < 32 := (i 1).isLt
  obtain ⟨t, ht⟩ : ∃ t : Fin cfg0.N, t.val = (i 0).val / 5000 :=
    ⟨⟨(i 0).val / 5000, Nat.lt_of_lt_of_eq (by omega : (i 0).val / 5000 < 20) N_0.symm⟩, rfl⟩
  obtain ⟨-, -, -, -, -, e5, e6⟩ := nodeProj_index t
  refine ⟨t, flush0_3 t, ?_⟩
  rw [nodeProj_mem]
  intro a
  match a with
  | ⟨0, _⟩ =>
    show win0_3.index t (0 : Fin 2) * 5000 ≤ (i 0).val ∧ (i 0).val < win0_3.index t (0 : Fin 2) * 5000 + 5000
    rw [e5]; omega
  | ⟨1, _⟩ =>
    show win0_3.index t (1 : Fin 2) * 32 ≤ (i 1).val ∧ (i 1).val < win0_3.index t (1 : Fin 2) * 32 + 32
    rw [e6]; omega

/-- After the call the result array is the dense layer of the arrays the call found. -/
theorem region0_value (c : Dev nD) :
    (dat0 (F := Ideal) V c).arrAt 3 cfg0.N = lin (V c main_arg0) (V c main_arg3) (V c main_arg4) :=
  (dat0 (F := Ideal) V c).arrAt_eq_of_cover 3 (lin (V c main_arg0) (V c main_arg3) (V c main_arg4))
    (fun t _ => nodeProj_written V c t) nodeProj_cover

end Cert.KernelIdeal.RegionVal

end
-- ==== Proof.Region1.lean ====
import proofs.«410628_j75788992905488_1_alg».proof.Proof.Gen.KernelIdeal.Frame
import proofs.«410628_j75788992905488_1_alg».proof.Proof.Spec

/-!
# Pallas call 1: the edge network on the edge logits

At a grid point the body applies two dense layers with a `relu` between them to a block of 5000 rows; the block it
writes back is the same rows of `mlp2` of the whole array, and the blocks fill the result.
-/

set_option maxRecDepth 16384

noncomputable section

namespace Cert.KernelIdeal.RegionVal

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibDense Cert.Spec

-- the TensorCore's buffer contents when the region is entered
variable (V : (c : Dev nD) → (b : Ref sig .tc) → Buf (Elt Ideal) ((c : Thread nD τ).loc b))

/-! ## The body's value -/

/-- The body's stored value is the two-layer network of its loaded blocks: each `matmul` of the operands narrowed to
    bf16 on a zero accumulator, plus the broadcast bias, is a dense layer (on the extended reals the narrowing is the
    identity), and the `max` against the zero splat between them is `relu`. -/
theorem pay1 (v0 : Vec Ideal S5000x2 .f32) (v2 : Vec Ideal S2x32 .f32) (v5 : Vec Ideal S32 .f32) (v11 : Vec Ideal S32x32 .f32)
    (v15 : Vec Ideal S32 .f32) : k1_pay1 (F := Ideal) v0 v2 v5 v11 v15 = mlp2 v0 v2 v5 v11 v15 := by
  show addf (F := Ideal) (matmul (F := Ideal) (DotDims.plain 5000 32 32) none
        (truncf (F := Ideal) (φ := .f32) .bf16 (maximumf (F := Ideal) (addf (F := Ideal) (matmul (F := Ideal) (DotDims.plain 5000 2 32) none
              (truncf (F := Ideal) (φ := .f32) .bf16 v0 _) (truncf (F := Ideal) (φ := .f32) .bf16 v2 _)
              (constant (F := Ideal) (⟨2, ![5000, 32]⟩ : Shape) .f32 0x00000000#32))
            (broadcastTo ⟨2, ![5000, 32]⟩ (shapeCast ⟨2, ![1, 32]⟩ v5 _) _))
          (broadcast ⟨2, ![5000, 32]⟩ (Scalar.ofBits (F := Ideal) .f32 0x00000000#32))) _)
        (truncf (F := Ideal) (φ := .f32) .bf16 v11 _) (constant (F := Ideal) (⟨2, ![5000, 32]⟩ : Shape) .f32 0x00000000#32))
      (broadcastTo ⟨2, ![5000, 32]⟩ (shapeCast ⟨2, ![1, 32]⟩ v15 _) _)
    = lin (reluM (lin v0 v2 v5)) v11 v15
  rw [kernLin_eq 5000 2 32, kernRelu_eq, kernLin_eq 5000 32 32]

/-! ## The blocks of a grid point -/

theorem zero2_r1 : (![0, 0] : Fin 2 → Nat) = fun _ => 0 := funext fun a => by fin_cases a <;> rfl

theorem zero1_r1 : (![0] : Fin 1 → Nat) = fun _ => 0 := funext fun a => by fin_cases a <;> rfl

/-- The index maps, decided over the 320 grid points: at point `t` the logits' window and the result's window are at
    block `(t, 0)`, every weight's window at block `(0, 0)` or `(0)`. -/
theorem blockIndex_r1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Row `p` of the logits' block at point `t` is row `5000 t + p` of the logits. -/
theorem logitRows_r1 (c : Dev nD) (t : Fin cfg1.N) (p : Fin 5000) (k : Fin 2) (h : t.val * 5000 + p.val < 1600000) :
    (iblk1 (F := Ideal) V c 0 t : Vec Ideal S5000x2 .f32) (ix2 p k)
      = (V c main_arg1 : Mat 1600000 2) (ix2 ⟨t.val * 5000 + p.val, h⟩ k) := by
  obtain ⟨e0, e1, -⟩ := blockIndex_r1 t
  unfold iblk1
  show V c main_arg1 (((cfg1.win 0).blk t).view.emb (ix2 p k)) = V c main_arg1 (ix2 ⟨t.val * 5000 + p.val, h⟩ k)
  congr 1
  funext a
  apply Fin.ext
  match a with
  | ⟨0, _⟩ => show win1_0.index t (0 : Fin 2) * 5000 + 1 * p.val = t.val * 5000 + p.val; omega
  | ⟨1, _⟩ => show win1_0.index t (1 : Fin 2) * 2 + 1 * k.val = k.val; omega

/-- The first layer's weight block is the whole weight array at every point. -/
theorem w1_whole_r1 (c : Dev nD) (t : Fin cfg1.N) :
    (iblk1 (F := Ideal) V c 1 t : Vec Ideal S2x32 .f32) = (V c main_arg5 : Mat 2 32) := by
  obtain ⟨-, -, e0, e1, -⟩ := blockIndex_r1 t
  funext y
  unfold iblk1
  show V c main_arg5 (((cfg1.win 1).blk t).view.emb y) = V c main_arg5 y
  congr 1
  funext a
  apply Fin.ext
  match a with
  | ⟨0, _⟩ => show win1_1.index t (0 : Fin 2) * 2 + 1 * (y 0).val = (y 0).val; omega
  | ⟨1, _⟩ => show win1_1.index t (1 : Fin 2) * 32 + 1 * (y 1).val = (y 1).val; omega

/-- The first layer's bias block is the whole bias at every point. -/
theorem b1_whole_r1 (c : Dev nD) (t : Fin cfg1.N) :
    (iblk1 (F := Ideal) V c 2 t : Vec Ideal S32 .f32) = (V c main_arg6 : Row 32) := by
  obtain ⟨-, -, -, -, e0, -⟩ := blockIndex_r1 t
  funext y
  unfold iblk1
  show V c main_arg6 (((cfg1.win 2).blk t).view.emb y) = V c main_arg6 y
  congr 1
  funext a
  apply Fin.ext
  match a with
  | ⟨0, _⟩ => show win1_2.index t (0 : Fin 1) * 32 + 1 * (y 0).val = (y 0).val; omega

/-- The second layer's weight block is the whole weight array at every point. -/
theorem w2_whole_r1 (c : Dev nD) (t : Fin cfg1.N) :
    (iblk1 (F := Ideal) V c 3 t : Vec Ideal S32x32 .f32) = (V c main_arg7 : Mat 32 32) := by
  obtain ⟨-, -, -, -, -, e0, e1, -⟩ := blockIndex_r1 t
  funext y
  unfold iblk1
  show V c main_arg7 (((cfg1.win 3).blk t).view.emb y) = V c main_arg7 y
  congr 1
  funext a
  apply Fin.ext
  match a with
  | ⟨0, _⟩ => show win1_3.index t (0 : Fin 2) * 32 + 1 * (y 0).val = (y 0).val; omega
  | ⟨1, _⟩ => show win1_3.index t (1 : Fin 2) * 32 + 1 * (y 1).val = (y 1).val; omega

/-- The second layer's bias block is the whole bias at every point. -/
theorem b2_whole_r1 (c : Dev nD) (t : Fin cfg1.N) :
    (iblk1 (F := Ideal) V c 4 t : Vec Ideal S32 .f32) = (V c main_arg8 : Row 32) := by
  obtain ⟨-, -, -, -, -, -, -, e0, -⟩ := blockIndex_r1 t
  funext y
  unfold iblk1
  show V c main_arg8 (((cfg1.win 4).blk t).view.emb y) = V c main_arg8 y
  congr 1
  funext a
  apply Fin.ext
  match a with
  | ⟨0, _⟩ => show win1_4.index t (0 : Fin 1) * 32 + 1 * (y 0).val = (y 0).val; omega

/-- Entry `(p, q)` of the result's block at point `t` sits at `(5000 t + p, q)` of the result. -/
theorem outRow_r1 (t : Fin cfg1.N) (p : Fin 5000) (q : Fin 32) (h : t.val * 5000 + p.val < 1600000) :
    ((cfg1.win 5).blk t).view.emb (ix2 p q : S5000x32.Idx) = (ix2 ⟨t.val * 5000 + p.val, h⟩ q : S1600000x32.Idx) := by
  obtain ⟨-, -, -, -, -, -, -, -, e0, e1⟩ := blockIndex_r1 t
  funext a
  apply Fin.ext
  match a with
  | ⟨0, _⟩ => show win1_5.index t (0 : Fin 2) * 5000 + 1 * p.val = t.val * 5000 + p.val; omega
  | ⟨1, _⟩ => show win1_5.index t (1 : Fin 2) * 32 + 1 * q.val = q.val; omega

/-- The network of the blocks at point `t`, at `(p, q)`, is the network of the whole arrays at `(5000 t + p, q)`: the
    weights' blocks are the weights, and a row of the network depends on the same row of the logits only. -/
theorem blockRows_r1 (c : Dev nD) (t : Fin cfg1.N) (p : Fin 5000) (q : Fin 32) (h : t.val * 5000 + p.val < 1600000) :
    mlp2 (iblk1 (F := Ideal) V c 0 t : Vec Ideal S5000x2 .f32) (iblk1 (F := Ideal) V c 1 t : Vec Ideal S2x32 .f32)
        (iblk1 (F := Ideal) V c 2 t : Vec Ideal S32 .f32) (iblk1 (F := Ideal) V c 3 t : Vec Ideal S32x32 .f32)
        (iblk1 (F := Ideal) V c 4 t : Vec Ideal S32 .f32) (ix2 p q)
      = mlp2 (V c main_arg1) (V c main_arg5) (V c main_arg6) (V c main_arg7) (V c main_arg8)
          (ix2 ⟨t.val * 5000 + p.val, h⟩ q) := by
  rw [w1_whole_r1 V c t, b1_whole_r1 V c t, w2_whole_r1 V c t, b2_whole_r1 V c t]
  exact mlp2_rows _ _ _ _ _ _ p ⟨t.val * 5000 + p.val, h⟩ q fun k => logitRows_r1 V c t p k h

/-! ## From the blocks to the array -/

/-- What point `t` writes back is block `t` of the network of the arrays the call found. -/
theorem written_r1 (c : Dev nD) (t : Fin cfg1.N) :
    (dat1 (F := Ideal) V c).flushed 5 t = ((cfg1.win 5).blk t).view.read (Elt Ideal)
      (mlp2 (V c main_arg1) (V c main_arg5) (V c main_arg6) (V c main_arg7) (V c main_arg8)) := by
  show (cfg1.win 5).cut (grid1.coords t) ((dat1 (F := Ideal) V c).after 5 t) = _
  rw [after1_5]
  unfold out1_5
  rw [View.canon_unit_zero zero2_r1]
  simp only [View.ld_unit_zero (S := S5000x2) zero2_r1, View.ld_unit_zero (S := S2x32) zero2_r1,
    View.ld_unit_zero (S := S32x32) zero2_r1, View.ld_unit_zero (S := S32) zero1_r1]
  rw [pay1]
  funext j
  obtain ⟨p, q, rfl⟩ : ∃ (p : Fin 5000) (q : Fin 32), j = ix2 p q := ⟨j 0, j 1, eq_ix2 j⟩
  have hN : cfg1.N = 320 := N_1
  have h : t.val * 5000 + p.val < 1600000 := by
    have ht : t.val < cfg1.N := t.isLt
    have hp : p.val < 5000 := p.isLt
    omega
  refine (blockRows_r1 V c t p q h).trans ?_
  exact congrArg (mlp2 (V c main_arg1) (V c main_arg5) (V c main_arg6) (V c main_arg7) (V c main_arg8))
    (outRow_r1 t p q h).symm

/-- An index of the result is in point `t`'s block iff each coordinate is in the block's range on its axis. -/
theorem mem_rows_r1 (t : Fin cfg1.N) (i : S1600000x32.Idx) :
    i ∈ ((cfg1.win 5).blk t).view.set ↔ ∀ a : Fin 2, win1_5.index t a * S5000x32.size a ≤ (i a).val
      ∧ (i a).val < win1_5.index t a * S5000x32.size a + S5000x32.size a := by
  show i ∈ ((View.whole main_v5).slice (win1_5.rect t)).set ↔ _
  rw [View.set_slice_whole, Rect.mem_set_unit]
  exact Iff.rfl

/-- Every index of the result is in some point's block: row `r` is in the block of point `r / 5000`. -/
theorem rows_cover_r1 (i : S1600000x32.Idx) :
    ∃ t : Fin cfg1.N, (cfg1.win 5).flush t = true ∧ i ∈ ((cfg1.win 5).blk t).view.set := by
  have hi0 : (i 0).val < 1600000 := (i 0).isLt
  have hi1 : (i 1).val < 32 := (i 1).isLt
  have hN : cfg1.N = 320 := N_1
  obtain ⟨t, ht⟩ : ∃ t : Fin cfg1.N, t.val = (i 0).val / 5000 := ⟨⟨(i 0).val / 5000, by rw [hN]; omega⟩, rfl⟩
  obtain ⟨-, -, -, -, -, -, -, -, e0, e1⟩ := blockIndex_r1 t
  refine ⟨t, flush1_5 t, ?_⟩
  rw [mem_rows_r1]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 32 ≤ (i 1).val ∧ (i 1).val < win1_5.index t (1 : Fin 2) * 32 + 32
    omega

/-- After the call the result array is the two-layer network of the arrays the call found. -/
theorem region1_value (c : Dev nD) :
    (dat1 (F := Ideal) V c).arrAt 5 cfg1.N
      = mlp2 (V c main_arg1) (V c main_arg5) (V c main_arg6) (V c main_arg7) (V c main_arg8) :=
  (dat1 (F := Ideal) V c).arrAt_eq_of_cover 5
    (mlp2 (V c main_arg1) (V c main_arg5) (V c main_arg6) (V c main_arg7) (V c main_arg8))
    (fun t _ => written_r1 V c t) rows_cover_r1

end Cert.KernelIdeal.RegionVal

end
-- ==== Proof.Region2.lean ====
import proofs.«410628_j75788992905488_1_alg».proof.Proof.Gen.KernelIdeal.Frame
import proofs.«410628_j75788992905488_1_alg».proof.Proof.Spec
import Idealize.ShloMosaic.Lib.Pipeline.Value
import Idealize.ShloMosaic.Lib.ValueIdx

/-!
# Pallas call 2: the edge update

At a grid point the body joins the blocks of source and target features, applies the three attention layers, adds the
result (times the literal 1.0) to the block of edge features and clamps at zero (the new edge features), and clamps the
sum of the source block and the new edge features at zero (the messages). Both written blocks are the same rows of
`edgeNew` / `edgeMsg` of the whole arrays, and the blocks fill both results.
-/

set_option maxRecDepth 16384

noncomputable section

namespace Cert.KernelIdeal.RegionVal

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibDense Cert.Spec

-- the TensorCore's buffer contents when the region is entered
variable (V : (c : Dev nD) → (b : Ref sig .tc) → Buf (Elt Ideal) ((c : Thread nD τ).loc b))

namespace Edge2

/-! ## The body's layers as whole-block functions -/

/-- The join of two 32-column blocks along the columns. -/
theorem joined (s d : FVec Ideal S5000x32 .f32) :
    concatenate S5000x64 1 [⟨S5000x32, s⟩, ⟨S5000x32, d⟩] concatenates_S5000x32_S5000x32_S5000x64_d1 = cat (M := 5000) (A := 32) (B := 32) s d :=
  concat_eq 5000 32 32 concatenates_S5000x32_S5000x32_S5000x64_d1 s d

/-- The first attention layer, on the 64 joined columns: `x · w + b`. -/
theorem layer64 (x : FVec Ideal S5000x64 .f32) (w : FVec Ideal S64x32 .f32) (b : FVec Ideal S32 .f32) :
    addf (matmul dot_S5000x64_S64x32_S5000x32_1_0_0_1_n_n none (truncf .bf16 x bitsLt_bf16_f32) (truncf .bf16 w bitsLt_bf16_f32)
          (constant (F := Ideal) S5000x32 .f32 0x00000000#32))
        (broadcastTo S5000x32 (shapeCast S1x32 b shapeCasts_S32_S1x32) broadcasts_S1x32_S5000x32)
      = lin (M := 5000) (K := 64) (N := 32) x w b :=
  kernLin_eq 5000 64 32 none shapeCasts_S32_S1x32 broadcasts_S1x32_S5000x32 bitsLt_bf16_f32 x w b

/-- A 32-column dense layer: `x · w + b`. -/
theorem layer32 (x : FVec Ideal S5000x32 .f32) (w : FVec Ideal S32x32 .f32) (b : FVec Ideal S32 .f32) :
    addf (matmul dot_S5000x32_S32x32_S5000x32_1_0_0_1_n_n none (truncf .bf16 x bitsLt_bf16_f32) (truncf .bf16 w bitsLt_bf16_f32)
          (constant (F := Ideal) S5000x32 .f32 0x00000000#32))
        (broadcastTo S5000x32 (shapeCast S1x32 b shapeCasts_S32_S1x32) broadcasts_S1x32_S5000x32)
      = lin (M := 5000) (K := 32) (N := 32) x w b :=
  kernLin_eq 5000 32 32 none shapeCasts_S32_S1x32 broadcasts_S1x32_S5000x32 bitsLt_bf16_f32 x w b

end Edge2

/-- The value stored to the first output is the new edge features of the loaded blocks. -/
theorem pay2_ef (v0 v2 v4 : Vec Ideal S5000x32 .f32) (v8 : Vec Ideal S64x32 .f32) (v11 : Vec Ideal S32 .f32)
    (v15 : Vec Ideal S32x32 .f32) (v19 : Vec Ideal S32 .f32) (v23 : Vec Ideal S32x32 .f32) (v27 : Vec Ideal S32 .f32) :
    k2_pay3 (F := Ideal) v0 v2 v4 v8 v11 v15 v19 v23 v27 = edgeNew v0 v2 v4 v8 v11 v15 v19 v23 v27 := by
  unfold k2_pay3 k2_pay2
  simp only [shapeCast_self]
  rw [Edge2.joined, Edge2.layer64, Edge2.layer32, Edge2.layer32, kernRelu_eq]
  simp only [shapeCast_self]
  rfl

/-- The value stored to the second output is the messages of the loaded blocks. -/
theorem pay2_msg (v0 v2 v4 : Vec Ideal S5000x32 .f32) (v8 : Vec Ideal S64x32 .f32) (v11 : Vec Ideal S32 .f32)
    (v15 : Vec Ideal S32x32 .f32) (v19 : Vec Ideal S32 .f32) (v23 : Vec Ideal S32x32 .f32) (v27 : Vec Ideal S32 .f32) :
    k2_pay1 (F := Ideal) (k2_pay4 v0 v2 v4 v8 v11 v15 v19 v23 v27) (k2_pay5 (F := Ideal))
      = edgeMsg v0 (edgeNew v0 v2 v4 v8 v11 v15 v19 v23 v27) := by
  unfold k2_pay1 k2_pay4 k2_pay5 k2_pay2
  simp only [shapeCast_self]
  rw [pay2_ef, kernRelu_eq]
  rfl

namespace Edge2

/-! ## The index maps over the grid -/

theorem zeros2 : (![0, 0] : Fin 2 → Nat) = fun _ => 0 := funext fun a => by fin_cases a <;> rfl

theorem zeros1 : (![0] : Fin 1 → Nat) = fun _ => 0 := funext fun a => by fin_cases a <;> rfl

/-- The five row-blocked windows (three inputs, two outputs) are at block `(t, 0)` at point `t`. -/
theorem idx_rows : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_9.index t (0 : Fin 2) = t.val ∧ win2_9.index t (1 : Fin 2) = 0
    ∧ win2_10.index t (0 : Fin 2) = t.val ∧ win2_10.index t (1 : Fin 2) = 0 :=
  (by decide +kernel : ∀ t : Fin grid2.N, _)

/-- The six weight windows stay at block zero. -/
theorem idx_weights : ∀ t : Fin cfg2.N,
    win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 1) = 0
    ∧ win2_7.index t (0 : Fin 2) = 0 ∧ win2_7.index t (1 : Fin 2) = 0
    ∧ win2_8.index t (0 : Fin 1) = 0 :=
  (by decide +kernel : ∀ t : Fin grid2.N, _)

/-! ## The blocks as rows of the arrays -/

/-- Row `p` of the source block at point `t` is row `5000 t + p` of the source features. -/
theorem read_src (c : Dev nD) (t : Fin cfg2.N) (x : S5000x32.Idx) (y : S1600000x32.Idx)
    (h0 : (y 0).val = t.val * 5000 + (x 0).val) (h1 : (y 1).val = (x 1).val) :
    (iblk2 (F := Ideal) V c 0 t : Vec Ideal S5000x32 .f32) x = (V c main_v6 : Vec Ideal S1600000x32 .f32) y := by
  obtain ⟨e0, e1, -⟩ := idx_rows t
  show V c main_v6 (((cfg2.win 0).blk t).view.emb x) = V c main_v6 y
  refine congrArg (V c main_v6) ?_
  funext a
  apply Fin.ext
  match a with
  | ⟨0, _⟩ => show win2_0.index t (0 : Fin 2) * 5000 + 1 * (x 0).val = (y 0).val; rw [e0, h0]; omega
  | ⟨1, _⟩ => show win2_0.index t (1 : Fin 2) * 32 + 1 * (x 1).val = (y 1).val; rw [e1, h1]; omega

/-- The same for the target block. -/
theorem read_dst (c : Dev nD) (t : Fin cfg2.N) (x : S5000x32.Idx) (y : S1600000x32.Idx)
    (h0 : (y 0).val = t.val * 5000 + (x 0).val) (h1 : (y 1).val = (x 1).val) :
    (iblk2 (F := Ideal) V c 1 t : Vec Ideal S5000x32 .f32) x = (V c main_v7 : Vec Ideal S1600000x32 .f32) y := by
  obtain ⟨-, -, e0, e1, -⟩ := idx_rows t
  show V c main_v7 (((cfg2.win 1).blk t).view.emb x) = V c main_v7 y
  refine congrArg (V c main_v7) ?_
  funext a
  apply Fin.ext
  match a with
  | ⟨0, _⟩ => show win2_1.index t (0 : Fin 2) * 5000 + 1 * (x 0).val = (y 0).val; rw [e0, h0]; omega
  | ⟨1, _⟩ => show win2_1.index t (1 : Fin 2) * 32 + 1 * (x 1).val = (y 1).val; rw [e1, h1]; omega

/-- The same for the block of edge features. -/
theorem read_ef (c : Dev nD) (t : Fin cfg2.N) (x : S5000x32.Idx) (y : S1600000x32.Idx)
    (h0 : (y 0).val = t.val * 5000 + (x 0).val) (h1 : (y 1).val = (x 1).val) :
    (iblk2 (F := Ideal) V c 2 t : Vec Ideal S5000x32 .f32) x = (V c main_v5 : Vec Ideal S1600000x32 .f32) y := by
  obtain ⟨-, -, -, -, e0, e1, -⟩ := idx_rows t
  show V c main_v5 (((cfg2.win 2).blk t).view.emb x) = V c main_v5 y
  refine congrArg (V c main_v5) ?_
  funext a
  apply Fin.ext
  match a with
  | ⟨0, _⟩ => show win2_2.index t (0 : Fin 2) * 5000 + 1 * (x 0).val = (y 0).val; rw [e0, h0]; omega
  | ⟨1, _⟩ => show win2_2.index t (1 : Fin 2) * 32 + 1 * (x 1).val = (y 1).val; rw [e1, h1]; omega

/-- A weight window's one block is its whole array: the first layer's matrix, -/
theorem whole_apw (c : Dev nD) (t : Fin cfg2.N) :
    (iblk2 (F := Ideal) V c 3 t : Vec Ideal S64x32 .f32) = (V c main_arg9 : Vec Ideal S64x32 .f32) := by
  obtain ⟨e0, e1, -⟩ := idx_weights t
  funext y
  show V c main_arg9 (((cfg2.win 3).blk t).view.emb y) = V c main_arg9 y
  refine congrArg (V c main_arg9) ?_
  funext a
  apply Fin.ext
  match a with
  | ⟨0, _⟩ => show win2_3.index t (0 : Fin 2) * 64 + 1 * (y 0).val = (y 0).val; rw [e0]; omega
  | ⟨1, _⟩ => show win2_3.index t (1 : Fin 2) * 32 + 1 * (y 1).val = (y 1).val; rw [e1]; omega

/-- its bias, -/
theorem whole_apb (c : Dev nD) (t : Fin cfg2.N) :
    (iblk2 (F := Ideal) V c 4 t : Vec Ideal S32 .f32) = (V c main_arg10 : Vec Ideal S32 .f32) := by
  obtain ⟨-, -, e0, -⟩ := idx_weights t
  funext y
  show V c main_arg10 (((cfg2.win 4).blk t).view.emb y) = V c main_arg10 y
  refine congrArg (V c main_arg10) ?_
  funext a
  apply Fin.ext
  match a with
  | ⟨0, _⟩ => show win2_4.index t (0 : Fin 1) * 32 + 1 * (y 0).val = (y 0).val; rw [e0]; omega

/-- the second layer's matrix, -/
theorem whole_wv (c : Dev nD) (t : Fin cfg2.N) :
    (iblk2 (F := Ideal) V c 5 t : Vec Ideal S32x32 .f32) = (V c main_arg11 : Vec Ideal S32x32 .f32) := by
  obtain ⟨-, -, -, e0, e1, -⟩ := idx_weights t
  funext y
  show V c main_arg11 (((cfg2.win 5).blk t).view.emb y) = V c main_arg11 y
  refine congrArg (V c main_arg11) ?_
  funext a
  apply Fin.ext
  match a with
  | ⟨0, _⟩ => show win2_5.index t (0 : Fin 2) * 32 + 1 * (y 0).val = (y 0).val; rw [e0]; omega
  | ⟨1, _⟩ => show win2_5.index t (1 : Fin 2) * 32 + 1 * (y 1).val = (y 1).val; rw [e1]; omega

/-- its bias, -/
theorem whole_bv (c : Dev nD) (t : Fin cfg2.N) :
    (iblk2 (F := Ideal) V c 6 t : Vec Ideal S32 .f32) = (V c main_arg12 : Vec Ideal S32 .f32) := by
  obtain ⟨-, -, -, -, -, e0, -⟩ := idx_weights t
  funext y
  show V c main_arg12 (((cfg2.win 6).blk t).view.emb y) = V c main_arg12 y
  refine congrArg (V c main_arg12) ?_
  funext a
  apply Fin.ext
  match a with
  | ⟨0, _⟩ => show win2_6.index t (0 : Fin 1) * 32 + 1 * (y 0).val = (y 0).val; rw [e0]; omega

/-- the third layer's matrix, -/
theorem whole_wo (c : Dev nD) (t : Fin cfg2.N) :
    (iblk2 (F := Ideal) V c 7 t : Vec Ideal S32x32 .f32) = (V c main_arg13 : Vec Ideal S32x32 .f32) := by
  obtain ⟨-, -, -, -, -, -, e0, e1, -⟩ := idx_weights t
  funext y
  show V c main_arg13 (((cfg2.win 7).blk t).view.emb y) = V c main_arg13 y
  refine congrArg (V c main_arg13) ?_
  funext a
  apply Fin.ext
  match a with
  | ⟨0, _⟩ => show win2_7.index t (0 : Fin 2) * 32 + 1 * (y 0).val = (y 0).val; rw [e0]; omega
  | ⟨1, _⟩ => show win2_7.index t (1 : Fin 2) * 32 + 1 * (y 1).val = (y 1).val; rw [e1]; omega

/-- and its bias. -/
theorem whole_bo (c : Dev nD) (t : Fin cfg2.N) :
    (iblk2 (F := Ideal) V c 8 t : Vec Ideal S32 .f32) = (V c main_arg14 : Vec Ideal S32 .f32) := by
  obtain ⟨-, -, -, -, -, -, -, -, e0⟩ := idx_weights t
  funext y
  show V c main_arg14 (((cfg2.win 8).blk t).view.emb y) = V c main_arg14 y
  refine congrArg (V c main_arg14) ?_
  funext a
  apply Fin.ext
  match a with
  | ⟨0, _⟩ => show win2_8.index t (0 : Fin 1) * 32 + 1 * (y 0).val = (y 0).val; rw [e0]; omega

/-! ## A row of a block's stage is the same row of the arrays' stage -/

/-- Row `p` of the new edge features of blocks whose rows `p` are rows `r` of the arrays, the weights the same. -/
theorem edgeNew_point {M : Nat} (s d ef : Mat 5000 32) (S D E : Mat M 32)
    (apw apw' : Mat 64 32) (apb apb' : Row 32) (wv wv' : Mat 32 32) (bv bv' : Row 32) (wo wo' : Mat 32 32) (bo bo' : Row 32)
    (p : Fin 5000) (r : Fin M) (q : Fin 32)
    (hs : ∀ k : Fin 32, s (ix2 p k) = S (ix2 r k)) (hd : ∀ k : Fin 32, d (ix2 p k) = D (ix2 r k))
    (he : ef (ix2 p q) = E (ix2 r q))
    (h3 : apw = apw') (h4 : apb = apb') (h5 : wv = wv') (h6 : bv = bv') (h7 : wo = wo') (h8 : bo = bo') :
    edgeNew s d ef apw apb wv bv wo bo (ix2 p q) = edgeNew S D E apw' apb' wv' bv' wo' bo' (ix2 r q) := by
  subst h3 h4 h5 h6 h7 h8
  exact edgeNew_rows s d ef S D E apw apb wv bv wo bo p r q hs hd he

/-- The messages at an entry, from the two entries they are made of. -/
theorem edgeMsg_point {M : Nat} (s e : Mat 5000 32) (S E : Mat M 32) (i : (⟨2, ![5000, 32]⟩ : Shape).Idx) (i' : (⟨2, ![M, 32]⟩ : Shape).Idx)
    (hs : s i = S i') (he : e i = E i') : edgeMsg s e i = edgeMsg S E i' := by
  show relu (s i + e i) = relu (S i' + E i')
  rw [hs, he]

/-- At point `t`, row `p` of the new edge features of the blocks is row `5000 t + p` of those of the arrays. -/
theorem ef_at (c : Dev nD) (t : Fin cfg2.N) (p : Fin 5000) (q : Fin 32) (hb : t.val * 5000 + p.val < 1600000) :
    edgeNew (M := 5000) (iblk2 (F := Ideal) V c 0 t) (iblk2 (F := Ideal) V c 1 t) (iblk2 (F := Ideal) V c 2 t) (iblk2 (F := Ideal) V c 3 t) (iblk2 (F := Ideal) V c 4 t)
        (iblk2 (F := Ideal) V c 5 t) (iblk2 (F := Ideal) V c 6 t) (iblk2 (F := Ideal) V c 7 t) (iblk2 (F := Ideal) V c 8 t) (ix2 p q)
      = edgeNew (M := 1600000) (V c main_v6) (V c main_v7) (V c main_v5) (V c main_arg9) (V c main_arg10) (V c main_arg11) (V c main_arg12)
          (V c main_arg13) (V c main_arg14) (ix2 ⟨t.val * 5000 + p.val, hb⟩ q) :=
  edgeNew_point (M := 1600000) (iblk2 (F := Ideal) V c 0 t) (iblk2 (F := Ideal) V c 1 t) (iblk2 (F := Ideal) V c 2 t) (V c main_v6) (V c main_v7) (V c main_v5)
    (iblk2 (F := Ideal) V c 3 t) (V c main_arg9) (iblk2 (F := Ideal) V c 4 t) (V c main_arg10) (iblk2 (F := Ideal) V c 5 t) (V c main_arg11)
    (iblk2 (F := Ideal) V c 6 t) (V c main_arg12) (iblk2 (F := Ideal) V c 7 t) (V c main_arg13) (iblk2 (F := Ideal) V c 8 t) (V c main_arg14)
    p ⟨t.val * 5000 + p.val, hb⟩ q
    (fun k => read_src V c t (ix2 p k) (ix2 ⟨t.val * 5000 + p.val, hb⟩ k) rfl rfl)
    (fun k => read_dst V c t (ix2 p k) (ix2 ⟨t.val * 5000 + p.val, hb⟩ k) rfl rfl)
    (read_ef V c t (ix2 p q) (ix2 ⟨t.val * 5000 + p.val, hb⟩ q) rfl rfl)
    (whole_apw V c t) (whole_apb V c t) (whole_wv V c t) (whole_bv V c t) (whole_wo V c t) (whole_bo V c t)

/-- The rows a point covers stay inside the array. -/
theorem row_lt (t : Fin cfg2.N) (p : Fin 5000) : t.val * 5000 + p.val < 1600000 := by
  have ht : t.val < 320 := Nat.lt_of_lt_of_eq t.isLt N_2
  have hp : p.val < 5000 := p.isLt
  omega

/-! ## What a point writes back -/

/-- Where entry `(p, q)` of the first output's block at point `t` sits in its array. -/
theorem emb_ef (t : Fin cfg2.N) (p : Fin 5000) (q : Fin 32) :
    ((cfg2.win 9).blk t).view.emb (ix2 p q) = (ix2 ⟨t.val * 5000 + p.val, row_lt t p⟩ q : S1600000x32.Idx) := by
  obtain ⟨-, -, -, -, -, -, e0, e1, -⟩ := idx_rows t
  funext a
  apply Fin.ext
  match a with
  | ⟨0, _⟩ => show win2_9.index t (0 : Fin 2) * 5000 + 1 * p.val = t.val * 5000 + p.val; rw [e0]; omega
  | ⟨1, _⟩ => show win2_9.index t (1 : Fin 2) * 32 + 1 * q.val = q.val; rw [e1]; omega

/-- The same for the second output. -/
theorem emb_msg (t : Fin cfg2.N) (p : Fin 5000) (q : Fin 32) :
    ((cfg2.win 10).blk t).view.emb (ix2 p q) = (ix2 ⟨t.val * 5000 + p.val, row_lt t p⟩ q : S1600000x32.Idx) := by
  obtain ⟨-, -, -, -, -, -, -, -, e0, e1⟩ := idx_rows t
  funext a
  apply Fin.ext
  match a with
  | ⟨0, _⟩ => show win2_10.index t (0 : Fin 2) * 5000 + 1 * p.val = t.val * 5000 + p.val; rw [e0]; omega
  | ⟨1, _⟩ => show win2_10.index t (1 : Fin 2) * 32 + 1 * q.val = q.val; rw [e1]; omega

/-- Point `t` writes back block `t` of the new edge features of the arrays. -/
theorem flushed_ef (c : Dev nD) (t : Fin cfg2.N) :
    (dat2 (F := Ideal) V c).flushed 9 t = ((cfg2.win 9).blk t).view.read (Elt Ideal)
      (edgeNew (M := 1600000) (V c main_v6) (V c main_v7) (V c main_v5) (V c main_arg9) (V c main_arg10) (V c main_arg11) (V c main_arg12)
        (V c main_arg13) (V c main_arg14)) := by
  show (cfg2.win 9).cut (grid2.coords t) ((dat2 (F := Ideal) V c).after 9 t) = _
  rw [after2_9]
  unfold out2_9
  rw [View.canon_unit_zero zeros2]
  simp only [View.ld_unit_zero (S := S5000x32) zeros2, View.ld_unit_zero (S := S64x32) zeros2,
    View.ld_unit_zero (S := S32x32) zeros2, View.ld_unit_zero (S := S32) zeros1]
  rw [pay2_ef]
  funext j
  obtain ⟨p, q, rfl⟩ : ∃ (p : Fin 5000) (q : Fin 32), j = ix2 p q := ⟨j 0, j 1, eq_ix2 j⟩
  refine (ef_at V c t p q (row_lt t p)).trans ?_
  exact congrArg (edgeNew (M := 1600000) (V c main_v6) (V c main_v7) (V c main_v5) (V c main_arg9) (V c main_arg10) (V c main_arg11) (V c main_arg12)
    (V c main_arg13) (V c main_arg14)) (emb_ef t p q).symm

/-- Point `t` writes back block `t` of the messages of the arrays. -/
theorem flushed_msg (c : Dev nD) (t : Fin cfg2.N) :
    (dat2 (F := Ideal) V c).flushed 10 t = ((cfg2.win 10).blk t).view.read (Elt Ideal)
      (edgeMsg (M := 1600000) (V c main_v6) (edgeNew (M := 1600000) (V c main_v6) (V c main_v7) (V c main_v5) (V c main_arg9) (V c main_arg10) (V c main_arg11) (V c main_arg12)
        (V c main_arg13) (V c main_arg14))) := by
  show (cfg2.win 10).cut (grid2.coords t) ((dat2 (F := Ideal) V c).after 10 t) = _
  rw [after2_10]
  unfold out2_10
  rw [View.canon_unit_zero zeros2]
  simp only [View.ld_unit_zero (S := S5000x32) zeros2, View.ld_unit_zero (S := S64x32) zeros2,
    View.ld_unit_zero (S := S32x32) zeros2, View.ld_unit_zero (S := S32) zeros1]
  rw [pay2_msg]
  funext j
  obtain ⟨p, q, rfl⟩ : ∃ (p : Fin 5000) (q : Fin 32), j = ix2 p q := ⟨j 0, j 1, eq_ix2 j⟩
  refine (edgeMsg_point (M := 1600000) (iblk2 (F := Ideal) V c 0 t)
    (edgeNew (M := 5000) (iblk2 (F := Ideal) V c 0 t) (iblk2 (F := Ideal) V c 1 t) (iblk2 (F := Ideal) V c 2 t) (iblk2 (F := Ideal) V c 3 t) (iblk2 (F := Ideal) V c 4 t)
      (iblk2 (F := Ideal) V c 5 t) (iblk2 (F := Ideal) V c 6 t) (iblk2 (F := Ideal) V c 7 t) (iblk2 (F := Ideal) V c 8 t))
    (V c main_v6)
    (edgeNew (M := 1600000) (V c main_v6) (V c main_v7) (V c main_v5) (V c main_arg9) (V c main_arg10) (V c main_arg11) (V c main_arg12) (V c main_arg13) (V c main_arg14))
    (ix2 p q) (ix2 ⟨t.val * 5000 + p.val, row_lt t p⟩ q)
    (read_src V c t (ix2 p q) (ix2 ⟨t.val * 5000 + p.val, row_lt t p⟩ q) rfl rfl)
    (ef_at V c t p q (row_lt t p))).trans ?_
  exact congrArg (edgeMsg (M := 1600000) (V c main_v6) (edgeNew (M := 1600000) (V c main_v6) (V c main_v7) (V c main_v5) (V c main_arg9) (V c main_arg10) (V c main_arg11) (V c main_arg12)
    (V c main_arg13) (V c main_arg14))) (emb_msg t p q).symm

/-! ## The blocks fill the arrays -/

/-- An index of the first result is in point `t`'s block iff each coordinate is in the block's range on its axis. -/
theorem mem_blk_ef (t : Fin cfg2.N) (i : S1600000x32.Idx) :
    i ∈ ((cfg2.win 9).blk t).view.set ↔ ∀ a : Fin 2, win2_9.index t a * S5000x32.size a ≤ (i a).val ∧ (i a).val < win2_9.index t a * S5000x32.size a + S5000x32.size a := by
  show i ∈ ((View.whole main_v8_0).slice (win2_9.rect t)).set ↔ _
  rw [View.set_slice_whole, Rect.mem_set_unit]
  exact Iff.rfl

/-- The same for the second result. -/
theorem mem_blk_msg (t : Fin cfg2.N) (i : S1600000x32.Idx) :
    i ∈ ((cfg2.win 10).blk t).view.set ↔ ∀ a : Fin 2, win2_10.index t a * S5000x32.size a ≤ (i a).val ∧ (i a).val < win2_10.index t a * S5000x32.size a + S5000x32.size a := by
  show i ∈ ((View.whole main_v8_1).slice (win2_10.rect t)).set ↔ _
  rw [View.set_slice_whole, Rect.mem_set_unit]
  exact Iff.rfl

/-- Row `r` of the first result is in the block of point `r / 5000`, which writes back. -/
theorem cover_ef (i : S1600000x32.Idx) :
    ∃ t : Fin cfg2.N, (cfg2.win 9).flush t = true ∧ i ∈ ((cfg2.win 9).blk t).view.set := by
  have hi0 : (i 0).val < 1600000 := (i 0).isLt
  have hi1 : (i 1).val < 32 := (i 1).isLt
  have hN : (i 0).val / 5000 < cfg2.N := Nat.lt_of_lt_of_eq (show (i 0).val / 5000 < 320 by omega) N_2.symm
  obtain ⟨t, ht⟩ : ∃ t : Fin cfg2.N, t.val = (i 0).val / 5000 := ⟨⟨(i 0).val / 5000, hN⟩, rfl⟩
  obtain ⟨-, -, -, -, -, -, e0, e1, -⟩ := idx_rows t
  refine ⟨t, flush2_9 t, ?_⟩
  rw [mem_blk_ef]
  intro a
  match a with
  | ⟨0, _⟩ =>
    show win2_9.index t (0 : Fin 2) * 5000 ≤ (i 0).val ∧ (i 0).val < win2_9.index t (0 : Fin 2) * 5000 + 5000
    rw [e0, ht]; omega
  | ⟨1, _⟩ =>
    show win2_9.index t (1 : Fin 2) * 32 ≤ (i 1).val ∧ (i 1).val < win2_9.index t (1 : Fin 2) * 32 + 32
    rw [e1]; omega

/-- The same for the second result. -/
theorem cover_msg (i : S1600000x32.Idx) :
    ∃ t : Fin cfg2.N, (cfg2.win 10).flush t = true ∧ i ∈ ((cfg2.win 10).blk t).view.set := by
  have hi0 : (i 0).val < 1600000 := (i 0).isLt
  have hi1 : (i 1).val < 32 := (i 1).isLt
  have hN : (i 0).val / 5000 < cfg2.N := Nat.lt_of_lt_of_eq (show (i 0).val / 5000 < 320 by omega) N_2.symm
  obtain ⟨t, ht⟩ : ∃ t : Fin cfg2.N, t.val = (i 0).val / 5000 := ⟨⟨(i 0).val / 5000, hN⟩, rfl⟩
  obtain ⟨-, -, -, -, -, -, -, -, e0, e1⟩ := idx_rows t
  refine ⟨t, flush2_10 t, ?_⟩
  rw [mem_blk_msg]
  intro a
  match a with
  | ⟨0, _⟩ =>
    show win2_10.index t (0 : Fin 2) * 5000 ≤ (i 0).val ∧ (i 0).val < win2_10.index t (0 : Fin 2) * 5000 + 5000
    rw [e0, ht]; omega
  | ⟨1, _⟩ =>
    show win2_10.index t (1 : Fin 2) * 32 ≤ (i 1).val ∧ (i 1).val < win2_10.index t (1 : Fin 2) * 32 + 32
    rw [e1]; omega

end Edge2

/-- After the call the first result array is the new edge features of the arrays the call found. -/
theorem region2_ef (c : Dev nD) :
    (dat2 (F := Ideal) V c).arrAt 9 cfg2.N
      = edgeNew (V c main_v6) (V c main_v7) (V c main_v5) (V c main_arg9) (V c main_arg10) (V c main_arg11) (V c main_arg12)
          (V c main_arg13) (V c main_arg14) :=
  (dat2 (F := Ideal) V c).arrAt_eq_of_cover 9 _ (fun t _ => Edge2.flushed_ef V c t) fun i => Edge2.cover_ef i

/-- After the call the second result array is the messages. -/
theorem region2_msg (c : Dev nD) :
    (dat2 (F := Ideal) V c).arrAt 10 cfg2.N
      = edgeMsg (V c main_v6) (edgeNew (V c main_v6) (V c main_v7) (V c main_v5) (V c main_arg9) (V c main_arg10) (V c main_arg11)
          (V c main_arg12) (V c main_arg13) (V c main_arg14)) :=
  (dat2 (F := Ideal) V c).arrAt_eq_of_cover 10 _ (fun t _ => Edge2.flushed_msg V c t) fun i => Edge2.cover_msg i

end Cert.KernelIdeal.RegionVal

end
-- ==== Proof.Region3.lean ====
import proofs.«410628_j75788992905488_1_alg».proof.Proof.Gen.KernelIdeal.Frame
import proofs.«410628_j75788992905488_1_alg».proof.Proof.Spec

/-!
# The node update of the first round

At a grid point the body adds the blocks of node features and aggregated messages and applies two dense layers, each
clamped at zero; the block it writes back is the same rows of `nodeUpd` of the whole arrays, and the blocks fill the result.
-/

set_option maxRecDepth 16384

noncomputable section

namespace Cert.KernelIdeal.RegionVal

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibDense Cert.Spec

-- the contents of every array when the call begins
variable (V : (c : Dev nD) → (b : Ref sig .tc) → Buf (Elt Ideal) ((c : Thread nD τ).loc b))

/-! ## The body's value -/

/-- One dense layer clamped at zero, in the body's spelling (both operands narrowed, a zero accumulator, the bias row
    repeated down the rows, the maximum with the zero splat), is `relu (x · w + b)`. -/
theorem layer3_eq (ht : FTy.bf16.bits < FTy.f32.bits) (hc : S32.ShapeCasts S1x32) (hb : S1x32.Broadcasts S5000x32)
    (x : FVec Ideal S5000x32 .f32) (w : FVec Ideal S32x32 .f32) (b : FVec Ideal S32 .f32) :
    maximumf (addf (matmul dot_S5000x32_S32x32_S5000x32_1_0_0_1_n_n none (truncf .bf16 x ht) (truncf .bf16 w ht)
            (constant (F := Ideal) S5000x32 .f32 0x00000000#32))
          (broadcastTo S5000x32 (shapeCast S1x32 b hc) hb))
        (broadcast S5000x32 (Scalar.ofBits (F := Ideal) .f32 0x00000000#32))
      = reluM (lin x w b) := by
  have e := kernLin_eq 5000 32 32 none hc hb ht x w b
  have r := kernRelu_eq (s := S5000x32) (lin x w b)
  exact (congrArg (fun a => maximumf a (broadcast S5000x32 (Scalar.ofBits (F := Ideal) .f32 0x00000000#32))) e).trans r

/-- The body's stored value is the node update of its loaded blocks. -/
theorem pay3 (v0 v2 : Vec Ideal S5000x32 .f32) (v6 : Vec Ideal S32x32 .f32) (v9 : Vec Ideal S32 .f32)
    (v15 : Vec Ideal S32x32 .f32) (v19 : Vec Ideal S32 .f32) :
    k3_pay1 (F := Ideal) v0 v2 v6 v9 v15 v19 = nodeUpd v0 v2 v6 v9 v15 v19 := by
  unfold k3_pay1
  show maximumf (addf (matmul dot_S5000x32_S32x32_S5000x32_1_0_0_1_n_n none
          (truncf .bf16 (maximumf (addf (matmul dot_S5000x32_S32x32_S5000x32_1_0_0_1_n_n none
                  (truncf .bf16 (addf (shapeCast S5000x32 v0 shapeCasts_S5000x32_S5000x32)
                      (shapeCast S5000x32 v2 shapeCasts_S5000x32_S5000x32)) bitsLt_bf16_f32)
                  (truncf .bf16 v6 bitsLt_bf16_f32) (constant (F := Ideal) S5000x32 .f32 0x00000000#32))
                (broadcastTo S5000x32 (shapeCast S1x32 v9 shapeCasts_S32_S1x32) broadcasts_S1x32_S5000x32))
              (broadcast S5000x32 (Scalar.ofBits (F := Ideal) .f32 0x00000000#32))) bitsLt_bf16_f32)
          (truncf .bf16 v15 bitsLt_bf16_f32) (constant (F := Ideal) S5000x32 .f32 0x00000000#32))
        (broadcastTo S5000x32 (shapeCast S1x32 v19 shapeCasts_S32_S1x32) broadcasts_S1x32_S5000x32))
      (broadcast S5000x32 (Scalar.ofBits (F := Ideal) .f32 0x00000000#32)) = _
  rw [layer3_eq, layer3_eq, shapeCast_self, shapeCast_self]
  rfl

/-! ## The windows' block indices -/

theorem zeros3_2 : (![0, 0] : Fin 2 → Nat) = fun _ => 0 :=
  funext fun a => by match a with | ⟨0, _⟩ => rfl | ⟨1, _⟩ => rfl

theorem zeros3_1 : (![0] : Fin 1 → Nat) = fun _ => 0 :=
  funext fun a => by match a with | ⟨0, _⟩ => rfl

/-- At point `t` the three row-streamed windows sit at block `(t, 0)` and the four weight windows at block zero. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 1) = 0
    ∧ win3_6.index t (0 : Fin 2) = t.val ∧ win3_6.index t (1 : Fin 2) = 0 :=
  (by decide +kernel : ∀ t : Fin grid3.N, _)

/-- Twenty points of 5000 rows stay inside the 100000 rows. -/
theorem row3_lt (t : Fin cfg3.N) (p : Fin 5000) : t.val * 5000 + p.val < 100000 := by
  have ht : t.val < 20 := Nat.lt_of_lt_of_eq t.isLt N_3
  have hp : p.val < 5000 := p.isLt
  omega

/-! ## The blocks the body loads, as entries of the arrays -/

/-- The node-feature block at point `t` is rows `5000 t …` of the node features. -/
theorem nfBlock3 (c : Dev nD) (t : Fin cfg3.N) (p : Fin 5000) (k : Fin 32) :
    (iblk3 V c 0 t : Vec Ideal S5000x32 .f32) (ix2 p k)
      = (V c main_v4 : Vec Ideal S100000x32 .f32) (ix2 (⟨t.val * 5000 + p.val, row3_lt t p⟩ : Fin 100000) k) := by
  obtain ⟨h0, h1, -⟩ := idx3 t
  show V c main_v4 (((cfg3.win 0).blk t).view.emb (ix2 p k))
    = V c main_v4 (ix2 (⟨t.val * 5000 + p.val, row3_lt t p⟩ : Fin 100000) k)
  refine congrArg (V c main_v4) ?_
  funext a; apply Fin.ext
  match a with
  | ⟨0, _⟩ => show win3_0.index t (0 : Fin 2) * 5000 + 1 * p.val = t.val * 5000 + p.val; omega
  | ⟨1, _⟩ => show win3_0.index t (1 : Fin 2) * 32 + 1 * k.val = k.val; omega

/-- The aggregated-message block at point `t` is rows `5000 t …` of the aggregated messages. -/
theorem aggBlock3 (c : Dev nD) (t : Fin cfg3.N) (p : Fin 5000) (k : Fin 32) :
    (iblk3 V c 1 t : Vec Ideal S5000x32 .f32) (ix2 p k)
      = (V c main_v11 : Vec Ideal S100000x32 .f32) (ix2 (⟨t.val * 5000 + p.val, row3_lt t p⟩ : Fin 100000) k) := by
  obtain ⟨-, -, h0, h1, -⟩ := idx3 t
  show V c main_v11 (((cfg3.win 1).blk t).view.emb (ix2 p k))
    = V c main_v11 (ix2 (⟨t.val * 5000 + p.val, row3_lt t p⟩ : Fin 100000) k)
  refine congrArg (V c main_v11) ?_
  funext a; apply Fin.ext
  match a with
  | ⟨0, _⟩ => show win3_1.index t (0 : Fin 2) * 5000 + 1 * p.val = t.val * 5000 + p.val; omega
  | ⟨1, _⟩ => show win3_1.index t (1 : Fin 2) * 32 + 1 * k.val = k.val; omega

/-- The first layer's weight window holds the whole weight array at every point. -/
theorem w1Block3 (c : Dev nD) (t : Fin cfg3.N) (a b : Fin 32) :
    (iblk3 V c 2 t : Vec Ideal S32x32 .f32) (ix2 a b) = (V c main_arg15 : Vec Ideal S32x32 .f32) (ix2 a b) := by
  obtain ⟨-, -, -, -, h0, h1, -⟩ := idx3 t
  show V c main_arg15 (((cfg3.win 2).blk t).view.emb (ix2 a b)) = V c main_arg15 (ix2 a b)
  refine congrArg (V c main_arg15) ?_
  funext d; apply Fin.ext
  match d with
  | ⟨0, _⟩ => show win3_2.index t (0 : Fin 2) * 32 + 1 * a.val = a.val; omega
  | ⟨1, _⟩ => show win3_2.index t (1 : Fin 2) * 32 + 1 * b.val = b.val; omega

/-- The first layer's bias window holds the whole bias at every point. -/
theorem b1Block3 (c : Dev nD) (t : Fin cfg3.N) (a : Fin 32) :
    (iblk3 V c 3 t : Vec Ideal S32 .f32) (ix1 a) = (V c main_arg16 : Vec Ideal S32 .f32) (ix1 a) := by
  obtain ⟨-, -, -, -, -, -, h0, -⟩ := idx3 t
  show V c main_arg16 (((cfg3.win 3).blk t).view.emb (ix1 a)) = V c main_arg16 (ix1 a)
  refine congrArg (V c main_arg16) ?_
  funext d; apply Fin.ext
  match d with
  | ⟨0, _⟩ => show win3_3.index t (0 : Fin 1) * 32 + 1 * a.val = a.val; omega

/-- The second layer's weight window holds the whole weight array at every point. -/
theorem w2Block3 (c : Dev nD) (t : Fin cfg3.N) (a b : Fin 32) :
    (iblk3 V c 4 t : Vec Ideal S32x32 .f32) (ix2 a b) = (V c main_arg17 : Vec Ideal S32x32 .f32) (ix2 a b) := by
  obtain ⟨-, -, -, -, -, -, -, h0, h1, -⟩ := idx3 t
  show V c main_arg17 (((cfg3.win 4).blk t).view.emb (ix2 a b)) = V c main_arg17 (ix2 a b)
  refine congrArg (V c main_arg17) ?_
  funext d; apply Fin.ext
  match d with
  | ⟨0, _⟩ => show win3_4.index t (0 : Fin 2) * 32 + 1 * a.val = a.val; omega
  | ⟨1, _⟩ => show win3_4.index t (1 : Fin 2) * 32 + 1 * b.val = b.val; omega

/-- The second layer's bias window holds the whole bias at every point. -/
theorem b2Block3 (c : Dev nD) (t : Fin cfg3.N) (a : Fin 32) :
    (iblk3 V c 5 t : Vec Ideal S32 .f32) (ix1 a) = (V c main_arg18 : Vec Ideal S32 .f32) (ix1 a) := by
  obtain ⟨-, -, -, -, -, -, -, -, -, h0, -⟩ := idx3 t
  show V c main_arg18 (((cfg3.win 5).blk t).view.emb (ix1 a)) = V c main_arg18 (ix1 a)
  refine congrArg (V c main_arg18) ?_
  funext d; apply Fin.ext
  match d with
  | ⟨0, _⟩ => show win3_5.index t (0 : Fin 1) * 32 + 1 * a.val = a.val; omega

/-! ## A block of the node update is the same rows of the node update of the arrays -/

/-- Row `p` of the node update of blocks whose rows `p` are rows `r` of the arrays, under weights that agree entry by
    entry, is row `r` of the node update of the arrays. -/
theorem nodeUpd_block3 (nf agg : Mat 5000 32) (w₁ : Mat 32 32) (b₁ : Row 32) (w₂ : Mat 32 32) (b₂ : Row 32)
    (NF AGG : Mat 100000 32) (W₁ : Mat 32 32) (B₁ : Row 32) (W₂ : Mat 32 32) (B₂ : Row 32)
    (p : Fin 5000) (r : Fin 100000) (q : Fin 32)
    (hn : ∀ k : Fin 32, nf (ix2 p k) = NF (ix2 r k)) (ha : ∀ k : Fin 32, agg (ix2 p k) = AGG (ix2 r k))
    (hw1 : ∀ a b : Fin 32, w₁ (ix2 a b) = W₁ (ix2 a b)) (hb1 : ∀ a : Fin 32, b₁ (ix1 a) = B₁ (ix1 a))
    (hw2 : ∀ a b : Fin 32, w₂ (ix2 a b) = W₂ (ix2 a b)) (hb2 : ∀ a : Fin 32, b₂ (ix1 a) = B₂ (ix1 a)) :
    nodeUpd nf agg w₁ b₁ w₂ b₂ (ix2 p q) = nodeUpd NF AGG W₁ B₁ W₂ B₂ (ix2 r q) := by
  have e1 : w₁ = W₁ := funext fun i => (congrArg w₁ (eq_ix2 i)).trans ((hw1 (i 0) (i 1)).trans (congrArg W₁ (eq_ix2 i).symm))
  have e2 : b₁ = B₁ := funext fun i => (congrArg b₁ (eq_ix1 i)).trans ((hb1 (i 0)).trans (congrArg B₁ (eq_ix1 i).symm))
  have e3 : w₂ = W₂ := funext fun i => (congrArg w₂ (eq_ix2 i)).trans ((hw2 (i 0) (i 1)).trans (congrArg W₂ (eq_ix2 i).symm))
  have e4 : b₂ = B₂ := funext fun i => (congrArg b₂ (eq_ix1 i)).trans ((hb2 (i 0)).trans (congrArg B₂ (eq_ix1 i).symm))
  subst e1 e2 e3 e4
  exact nodeUpd_rows nf agg NF AGG w₁ b₁ w₂ b₂ p r q hn ha

/-! ## From the blocks to the array -/

/-- What point `t` writes back is block `t` of the node update of the arrays the call found. -/
theorem flushed3 (c : Dev nD) (t : Fin cfg3.N) :
    (dat3 (F := Ideal) V c).flushed 6 t
      = ((cfg3.win 6).blk t).view.read (Elt Ideal)
          (nodeUpd (V c main_v4) (V c main_v11) (V c main_arg15) (V c main_arg16) (V c main_arg17) (V c main_arg18)) := by
  show (cfg3.win 6).cut (grid3.coords t) ((dat3 V c).after 6 t) = _
  rw [after3_6]
  unfold out3_6
  rw [View.canon_unit_zero zeros3_2]
  simp only [View.ld_unit_zero (S := S5000x32) zeros3_2, View.ld_unit_zero (S := S32x32) zeros3_2,
    View.ld_unit_zero (S := S32) zeros3_1]
  rw [pay3]
  funext j
  obtain ⟨p, q, rfl⟩ : ∃ (p : Fin 5000) (q : Fin 32), j = ix2 p q := ⟨j 0, j 1, eq_ix2 j⟩
  have hemb : ((cfg3.win 6).blk t).view.emb (ix2 p q)
      = (ix2 (⟨t.val * 5000 + p.val, row3_lt t p⟩ : Fin 100000) q : S100000x32.Idx) := by
    obtain ⟨-, -, -, -, -, -, -, -, -, -, h0, h1⟩ := idx3 t
    funext a; apply Fin.ext
    match a with
    | ⟨0, _⟩ => show win3_6.index t (0 : Fin 2) * 5000 + 1 * p.val = t.val * 5000 + p.val; omega
    | ⟨1, _⟩ => show win3_6.index t (1 : Fin 2) * 32 + 1 * q.val = q.val; omega
  show nodeUpd (iblk3 V c 0 t) (iblk3 V c 1 t) (iblk3 V c 2 t) (iblk3 V c 3 t) (iblk3 V c 4 t) (iblk3 V c 5 t) (ix2 p q)
    = nodeUpd (V c main_v4) (V c main_v11) (V c main_arg15) (V c main_arg16) (V c main_arg17) (V c main_arg18)
        (((cfg3.win 6).blk t).view.emb (ix2 p q))
  rw [hemb]
  exact nodeUpd_block3 (iblk3 V c 0 t) (iblk3 V c 1 t) (iblk3 V c 2 t) (iblk3 V c 3 t) (iblk3 V c 4 t) (iblk3 V c 5 t)
    (V c main_v4) (V c main_v11) (V c main_arg15) (V c main_arg16) (V c main_arg17) (V c main_arg18)
    p (⟨t.val * 5000 + p.val, row3_lt t p⟩ : Fin 100000) q
    (fun k => nfBlock3 V c t p k) (fun k => aggBlock3 V c t p k) (fun a b => w1Block3 V c t a b) (fun a => b1Block3 V c t a)
    (fun a b => w2Block3 V c t a b) (fun a => b2Block3 V c t a)

/-- An entry of the result array is in point `t`'s block iff each coordinate is in the block's range on its axis. -/
theorem mem_blk3 (t : Fin cfg3.N) (i : S100000x32.Idx) :
    i ∈ ((cfg3.win 6).blk t).view.set
      ↔ ∀ a : Fin 2, win3_6.index t a * S5000x32.size a ≤ (i a).val
          ∧ (i a).val < win3_6.index t a * S5000x32.size a + S5000x32.size a := by
  show i ∈ ((View.whole main_v12).slice (win3_6.rect t)).set ↔ _
  rw [View.set_slice_whole, Rect.mem_set_unit]
  exact Iff.rfl

/-- Every entry of the result array is written back by the point its row's block of 5000 belongs to. -/
theorem cover3 (i : S100000x32.Idx) :
    ∃ t : Fin cfg3.N, (cfg3.win 6).flush t = true ∧ i ∈ ((cfg3.win 6).blk t).view.set := by
  have hi0 : (i 0).val < 100000 := (i 0).isLt
  have hi1 : (i 1).val < 32 := (i 1).isLt
  have ht : (i 0).val / 5000 < cfg3.N := Nat.lt_of_lt_of_eq (by omega : (i 0).val / 5000 < 20) N_3.symm
  obtain ⟨-, -, -, -, -, -, -, -, -, -, h0, h1⟩ := idx3 ⟨(i 0).val / 5000, ht⟩
  have e0 : win3_6.index ⟨(i 0).val / 5000, ht⟩ (0 : Fin 2) = (i 0).val / 5000 := h0
  have e1 : win3_6.index ⟨(i 0).val / 5000, ht⟩ (1 : Fin 2) = 0 := h1
  refine ⟨⟨(i 0).val / 5000, ht⟩, flush3_6 _, ?_⟩
  rw [mem_blk3]
  intro a
  match a with
  | ⟨0, _⟩ =>
    show win3_6.index ⟨(i 0).val / 5000, ht⟩ (0 : Fin 2) * 5000 ≤ (i 0).val
      ∧ (i 0).val < win3_6.index ⟨(i 0).val / 5000, ht⟩ (0 : Fin 2) * 5000 + 5000
    rw [e0]; omega
  | ⟨1, _⟩ =>
    show win3_6.index ⟨(i 0).val / 5000, ht⟩ (1 : Fin 2) * 32 ≤ (i 1).val
      ∧ (i 1).val < win3_6.index ⟨(i 0).val / 5000, ht⟩ (1 : Fin 2) * 32 + 32
    rw [e1]; omega

/-- After the call the result array is the node update of the arrays the call found. -/
theorem region3_value (c : Dev nD) :
    (dat3 (F := Ideal) V c).arrAt 6 cfg3.N
      = nodeUpd (V c main_v4) (V c main_v11) (V c main_arg15) (V c main_arg16) (V c main_arg17) (V c main_arg18) :=
  (dat3 (F := Ideal) V c).arrAt_eq_of_cover 6
    (nodeUpd (V c main_v4) (V c main_v11) (V c main_arg15) (V c main_arg16) (V c main_arg17) (V c main_arg18))
    (fun t _ => flushed3 V c t) cover3

end Cert.KernelIdeal.RegionVal

end
-- ==== Proof.Region4.lean ====
import proofs.«410628_j75788992905488_1_alg».proof.Proof.Gen.KernelIdeal.Frame
import proofs.«410628_j75788992905488_1_alg».proof.Proof.Spec
import Idealize.ShloMosaic.Lib.Pipeline.Value
import Idealize.ShloMosaic.Lib.ValueIdx

/-!
# Pallas call 4: the edge update

At a grid point the body joins the blocks of source and target features, applies the three attention layers, adds the
result (times the literal 1.0) to the block of edge features and clamps at zero (the new edge features), and clamps the
sum of the source block and the new edge features at zero (the messages). Both written blocks are the same rows of
`edgeNew` / `edgeMsg` of the whole arrays, and the blocks fill both results.
-/

set_option maxRecDepth 16384

noncomputable section

namespace Cert.KernelIdeal.RegionVal

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibDense Cert.Spec

-- the TensorCore's buffer contents when the region is entered
variable (V : (c : Dev nD) → (b : Ref sig .tc) → Buf (Elt Ideal) ((c : Thread nD τ).loc b))

namespace Edge4

/-! ## The body's layers as whole-block functions -/

/-- The join of two 32-column blocks along the columns. -/
theorem joined (s d : FVec Ideal S5000x32 .f32) :
    concatenate S5000x64 1 [⟨S5000x32, s⟩, ⟨S5000x32, d⟩] concatenates_S5000x32_S5000x32_S5000x64_d1 = cat (M := 5000) (A := 32) (B := 32) s d :=
  concat_eq 5000 32 32 concatenates_S5000x32_S5000x32_S5000x64_d1 s d

/-- The first attention layer, on the 64 joined columns: `x · w + b`. -/
theorem layer64 (x : FVec Ideal S5000x64 .f32) (w : FVec Ideal S64x32 .f32) (b : FVec Ideal S32 .f32) :
    addf (matmul dot_S5000x64_S64x32_S5000x32_1_0_0_1_n_n none (truncf .bf16 x bitsLt_bf16_f32) (truncf .bf16 w bitsLt_bf16_f32)
          (constant (F := Ideal) S5000x32 .f32 0x00000000#32))
        (broadcastTo S5000x32 (shapeCast S1x32 b shapeCasts_S32_S1x32) broadcasts_S1x32_S5000x32)
      = lin (M := 5000) (K := 64) (N := 32) x w b :=
  kernLin_eq 5000 64 32 none shapeCasts_S32_S1x32 broadcasts_S1x32_S5000x32 bitsLt_bf16_f32 x w b

/-- A 32-column dense layer: `x · w + b`. -/
theorem layer32 (x : FVec Ideal S5000x32 .f32) (w : FVec Ideal S32x32 .f32) (b : FVec Ideal S32 .f32) :
    addf (matmul dot_S5000x32_S32x32_S5000x32_1_0_0_1_n_n none (truncf .bf16 x bitsLt_bf16_f32) (truncf .bf16 w bitsLt_bf16_f32)
          (constant (F := Ideal) S5000x32 .f32 0x00000000#32))
        (broadcastTo S5000x32 (shapeCast S1x32 b shapeCasts_S32_S1x32) broadcasts_S1x32_S5000x32)
      = lin (M := 5000) (K := 32) (N := 32) x w b :=
  kernLin_eq 5000 32 32 none shapeCasts_S32_S1x32 broadcasts_S1x32_S5000x32 bitsLt_bf16_f32 x w b

end Edge4

/-- The value stored to the first output is the new edge features of the loaded blocks. -/
theorem pay4_ef (v0 v2 v4 : Vec Ideal S5000x32 .f32) (v8 : Vec Ideal S64x32 .f32) (v11 : Vec Ideal S32 .f32)
    (v15 : Vec Ideal S32x32 .f32) (v19 : Vec Ideal S32 .f32) (v23 : Vec Ideal S32x32 .f32) (v27 : Vec Ideal S32 .f32) :
    k4_pay3 (F := Ideal) v0 v2 v4 v8 v11 v15 v19 v23 v27 = edgeNew v0 v2 v4 v8 v11 v15 v19 v23 v27 := by
  unfold k4_pay3 k4_pay2
  simp only [shapeCast_self]
  rw [Edge4.joined, Edge4.layer64, Edge4.layer32, Edge4.layer32, kernRelu_eq]
  simp only [shapeCast_self]
  rfl

/-- The value stored to the second output is the messages of the loaded blocks. -/
theorem pay4_msg (v0 v2 v4 : Vec Ideal S5000x32 .f32) (v8 : Vec Ideal S64x32 .f32) (v11 : Vec Ideal S32 .f32)
    (v15 : Vec Ideal S32x32 .f32) (v19 : Vec Ideal S32 .f32) (v23 : Vec Ideal S32x32 .f32) (v27 : Vec Ideal S32 .f32) :
    k4_pay1 (F := Ideal) (k4_pay4 v0 v2 v4 v8 v11 v15 v19 v23 v27) (k4_pay5 (F := Ideal))
      = edgeMsg v0 (edgeNew v0 v2 v4 v8 v11 v15 v19 v23 v27) := by
  unfold k4_pay1 k4_pay4 k4_pay5 k4_pay2
  simp only [shapeCast_self]
  rw [pay4_ef, kernRelu_eq]
  rfl

namespace Edge4

/-! ## The index maps over the grid -/

theorem zeros2 : (![0, 0] : Fin 2 → Nat) = fun _ => 0 := funext fun a => by fin_cases a <;> rfl

theorem zeros1 : (![0] : Fin 1 → Nat) = fun _ => 0 := funext fun a => by fin_cases a <;> rfl

/-- The five row-blocked windows (three inputs, two outputs) are at block `(t, 0)` at point `t`. -/
theorem idx_rows : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_9.index t (0 : Fin 2) = t.val ∧ win4_9.index t (1 : Fin 2) = 0
    ∧ win4_10.index t (0 : Fin 2) = t.val ∧ win4_10.index t (1 : Fin 2) = 0 :=
  (by decide +kernel : ∀ t : Fin grid4.N, _)

/-- The six weight windows stay at block zero. -/
theorem idx_weights : ∀ t : Fin cfg4.N,
    win4_3.index t (0 : Fin 2) = 0 ∧ win4_3.index t (1 : Fin 2) = 0
    ∧ win4_4.index t (0 : Fin 1) = 0
    ∧ win4_5.index t (0 : Fin 2) = 0 ∧ win4_5.index t (1 : Fin 2) = 0
    ∧ win4_6.index t (0 : Fin 1) = 0
    ∧ win4_7.index t (0 : Fin 2) = 0 ∧ win4_7.index t (1 : Fin 2) = 0
    ∧ win4_8.index t (0 : Fin 1) = 0 :=
  (by decide +kernel : ∀ t : Fin grid4.N, _)

/-! ## The blocks as rows of the arrays -/

/-- Row `p` of the source block at point `t` is row `5000 t + p` of the source features. -/
theorem read_src (c : Dev nD) (t : Fin cfg4.N) (x : S5000x32.Idx) (y : S1600000x32.Idx)
    (h0 : (y 0).val = t.val * 5000 + (x 0).val) (h1 : (y 1).val = (x 1).val) :
    (iblk4 (F := Ideal) V c 0 t : Vec Ideal S5000x32 .f32) x = (V c main_v13 : Vec Ideal S1600000x32 .f32) y := by
  obtain ⟨e0, e1, -⟩ := idx_rows t
  show V c main_v13 (((cfg4.win 0).blk t).view.emb x) = V c main_v13 y
  refine congrArg (V c main_v13) ?_
  funext a
  apply Fin.ext
  match a with
  | ⟨0, _⟩ => show win4_0.index t (0 : Fin 2) * 5000 + 1 * (x 0).val = (y 0).val; rw [e0, h0]; omega
  | ⟨1, _⟩ => show win4_0.index t (1 : Fin 2) * 32 + 1 * (x 1).val = (y 1).val; rw [e1, h1]; omega

/-- The same for the target block. -/
theorem read_dst (c : Dev nD) (t : Fin cfg4.N) (x : S5000x32.Idx) (y : S1600000x32.Idx)
    (h0 : (y 0).val = t.val * 5000 + (x 0).val) (h1 : (y 1).val = (x 1).val) :
    (iblk4 (F := Ideal) V c 1 t : Vec Ideal S5000x32 .f32) x = (V c main_v14 : Vec Ideal S1600000x32 .f32) y := by
  obtain ⟨-, -, e0, e1, -⟩ := idx_rows t
  show V c main_v14 (((cfg4.win 1).blk t).view.emb x) = V c main_v14 y
  refine congrArg (V c main_v14) ?_
  funext a
  apply Fin.ext
  match a with
  | ⟨0, _⟩ => show win4_1.index t (0 : Fin 2) * 5000 + 1 * (x 0).val = (y 0).val; rw [e0, h0]; omega
  | ⟨1, _⟩ => show win4_1.index t (1 : Fin 2) * 32 + 1 * (x 1).val = (y 1).val; rw [e1, h1]; omega

/-- The same for the block of edge features. -/
theorem read_ef (c : Dev nD) (t : Fin cfg4.N) (x : S5000x32.Idx) (y : S1600000x32.Idx)
    (h0 : (y 0).val = t.val * 5000 + (x 0).val) (h1 : (y 1).val = (x 1).val) :
    (iblk4 (F := Ideal) V c 2 t : Vec Ideal S5000x32 .f32) x = (V c main_v8_0 : Vec Ideal S1600000x32 .f32) y := by
  obtain ⟨-, -, -, -, e0, e1, -⟩ := idx_rows t
  show V c main_v8_0 (((cfg4.win 2).blk t).view.emb x) = V c main_v8_0 y
  refine congrArg (V c main_v8_0) ?_
  funext a
  apply Fin.ext
  match a with
  | ⟨0, _⟩ => show win4_2.index t (0 : Fin 2) * 5000 + 1 * (x 0).val = (y 0).val; rw [e0, h0]; omega
  | ⟨1, _⟩ => show win4_2.index t (1 : Fin 2) * 32 + 1 * (x 1).val = (y 1).val; rw [e1, h1]; omega

/-- A weight window's one block is its whole array: the first layer's matrix, -/
theorem whole_apw (c : Dev nD) (t : Fin cfg4.N) :
    (iblk4 (F := Ideal) V c 3 t : Vec Ideal S64x32 .f32) = (V c main_arg9 : Vec Ideal S64x32 .f32) := by
  obtain ⟨e0, e1, -⟩ := idx_weights t
  funext y
  show V c main_arg9 (((cfg4.win 3).blk t).view.emb y) = V c main_arg9 y
  refine congrArg (V c main_arg9) ?_
  funext a
  apply Fin.ext
  match a with
  | ⟨0, _⟩ => show win4_3.index t (0 : Fin 2) * 64 + 1 * (y 0).val = (y 0).val; rw [e0]; omega
  | ⟨1, _⟩ => show win4_3.index t (1 : Fin 2) * 32 + 1 * (y 1).val = (y 1).val; rw [e1]; omega

/-- its bias, -/
theorem whole_apb (c : Dev nD) (t : Fin cfg4.N) :
    (iblk4 (F := Ideal) V c 4 t : Vec Ideal S32 .f32) = (V c main_arg10 : Vec Ideal S32 .f32) := by
  obtain ⟨-, -, e0, -⟩ := idx_weights t
  funext y
  show V c main_arg10 (((cfg4.win 4).blk t).view.emb y) = V c main_arg10 y
  refine congrArg (V c main_arg10) ?_
  funext a
  apply Fin.ext
  match a with
  | ⟨0, _⟩ => show win4_4.index t (0 : Fin 1) * 32 + 1 * (y 0).val = (y 0).val; rw [e0]; omega

/-- the second layer's matrix, -/
theorem whole_wv (c : Dev nD) (t : Fin cfg4.N) :
    (iblk4 (F := Ideal) V c 5 t : Vec Ideal S32x32 .f32) = (V c main_arg11 : Vec Ideal S32x32 .f32) := by
  obtain ⟨-, -, -, e0, e1, -⟩ := idx_weights t
  funext y
  show V c main_arg11 (((cfg4.win 5).blk t).view.emb y) = V c main_arg11 y
  refine congrArg (V c main_arg11) ?_
  funext a
  apply Fin.ext
  match a with
  | ⟨0, _⟩ => show win4_5.index t (0 : Fin 2) * 32 + 1 * (y 0).val = (y 0).val; rw [e0]; omega
  | ⟨1, _⟩ => show win4_5.index t (1 : Fin 2) * 32 + 1 * (y 1).val = (y 1).val; rw [e1]; omega

/-- its bias, -/
theorem whole_bv (c : Dev nD) (t : Fin cfg4.N) :
    (iblk4 (F := Ideal) V c 6 t : Vec Ideal S32 .f32) = (V c main_arg12 : Vec Ideal S32 .f32) := by
  obtain ⟨-, -, -, -, -, e0, -⟩ := idx_weights t
  funext y
  show V c main_arg12 (((cfg4.win 6).blk t).view.emb y) = V c main_arg12 y
  refine congrArg (V c main_arg12) ?_
  funext a
  apply Fin.ext
  match a with
  | ⟨0, _⟩ => show win4_6.index t (0 : Fin 1) * 32 + 1 * (y 0).val = (y 0).val; rw [e0]; omega

/-- the third layer's matrix, -/
theorem whole_wo (c : Dev nD) (t : Fin cfg4.N) :
    (iblk4 (F := Ideal) V c 7 t : Vec Ideal S32x32 .f32) = (V c main_arg13 : Vec Ideal S32x32 .f32) := by
  obtain ⟨-, -, -, -, -, -, e0, e1, -⟩ := idx_weights t
  funext y
  show V c main_arg13 (((cfg4.win 7).blk t).view.emb y) = V c main_arg13 y
  refine congrArg (V c main_arg13) ?_
  funext a
  apply Fin.ext
  match a with
  | ⟨0, _⟩ => show win4_7.index t (0 : Fin 2) * 32 + 1 * (y 0).val = (y 0).val; rw [e0]; omega
  | ⟨1, _⟩ => show win4_7.index t (1 : Fin 2) * 32 + 1 * (y 1).val = (y 1).val; rw [e1]; omega

/-- and its bias. -/
theorem whole_bo (c : Dev nD) (t : Fin cfg4.N) :
    (iblk4 (F := Ideal) V c 8 t : Vec Ideal S32 .f32) = (V c main_arg14 : Vec Ideal S32 .f32) := by
  obtain ⟨-, -, -, -, -, -, -, -, e0⟩ := idx_weights t
  funext y
  show V c main_arg14 (((cfg4.win 8).blk t).view.emb y) = V c main_arg14 y
  refine congrArg (V c main_arg14) ?_
  funext a
  apply Fin.ext
  match a with
  | ⟨0, _⟩ => show win4_8.index t (0 : Fin 1) * 32 + 1 * (y 0).val = (y 0).val; rw [e0]; omega

/-! ## A row of a block's stage is the same row of the arrays' stage -/

/-- Row `p` of the new edge features of blocks whose rows `p` are rows `r` of the arrays, the weights the same. -/
theorem edgeNew_point {M : Nat} (s d ef : Mat 5000 32) (S D E : Mat M 32)
    (apw apw' : Mat 64 32) (apb apb' : Row 32) (wv wv' : Mat 32 32) (bv bv' : Row 32) (wo wo' : Mat 32 32) (bo bo' : Row 32)
    (p : Fin 5000) (r : Fin M) (q : Fin 32)
    (hs : ∀ k : Fin 32, s (ix2 p k) = S (ix2 r k)) (hd : ∀ k : Fin 32, d (ix2 p k) = D (ix2 r k))
    (he : ef (ix2 p q) = E (ix2 r q))
    (h3 : apw = apw') (h4 : apb = apb') (h5 : wv = wv') (h6 : bv = bv') (h7 : wo = wo') (h8 : bo = bo') :
    edgeNew s d ef apw apb wv bv wo bo (ix2 p q) = edgeNew S D E apw' apb' wv' bv' wo' bo' (ix2 r q) := by
  subst h3 h4 h5 h6 h7 h8
  exact edgeNew_rows s d ef S D E apw apb wv bv wo bo p r q hs hd he

/-- The messages at an entry, from the two entries they are made of. -/
theorem edgeMsg_point {M : Nat} (s e : Mat 5000 32) (S E : Mat M 32) (i : (⟨2, ![5000, 32]⟩ : Shape).Idx) (i' : (⟨2, ![M, 32]⟩ : Shape).Idx)
    (hs : s i = S i') (he : e i = E i') : edgeMsg s e i = edgeMsg S E i' := by
  show relu (s i + e i) = relu (S i' + E i')
  rw [hs, he]

/-- At point `t`, row `p` of the new edge features of the blocks is row `5000 t + p` of those of the arrays. -/
theorem ef_at (c : Dev nD) (t : Fin cfg4.N) (p : Fin 5000) (q : Fin 32) (hb : t.val * 5000 + p.val < 1600000) :
    edgeNew (M := 5000) (iblk4 (F := Ideal) V c 0 t) (iblk4 (F := Ideal) V c 1 t) (iblk4 (F := Ideal) V c 2 t) (iblk4 (F := Ideal) V c 3 t) (iblk4 (F := Ideal) V c 4 t)
        (iblk4 (F := Ideal) V c 5 t) (iblk4 (F := Ideal) V c 6 t) (iblk4 (F := Ideal) V c 7 t) (iblk4 (F := Ideal) V c 8 t) (ix2 p q)
      = edgeNew (M := 1600000) (V c main_v13) (V c main_v14) (V c main_v8_0) (V c main_arg9) (V c main_arg10) (V c main_arg11) (V c main_arg12)
          (V c main_arg13) (V c main_arg14) (ix2 ⟨t.val * 5000 + p.val, hb⟩ q) :=
  edgeNew_point (M := 1600000) (iblk4 (F := Ideal) V c 0 t) (iblk4 (F := Ideal) V c 1 t) (iblk4 (F := Ideal) V c 2 t) (V c main_v13) (V c main_v14) (V c main_v8_0)
    (iblk4 (F := Ideal) V c 3 t) (V c main_arg9) (iblk4 (F := Ideal) V c 4 t) (V c main_arg10) (iblk4 (F := Ideal) V c 5 t) (V c main_arg11)
    (iblk4 (F := Ideal) V c 6 t) (V c main_arg12) (iblk4 (F := Ideal) V c 7 t) (V c main_arg13) (iblk4 (F := Ideal) V c 8 t) (V c main_arg14)
    p ⟨t.val * 5000 + p.val, hb⟩ q
    (fun k => read_src V c t (ix2 p k) (ix2 ⟨t.val * 5000 + p.val, hb⟩ k) rfl rfl)
    (fun k => read_dst V c t (ix2 p k) (ix2 ⟨t.val * 5000 + p.val, hb⟩ k) rfl rfl)
    (read_ef V c t (ix2 p q) (ix2 ⟨t.val * 5000 + p.val, hb⟩ q) rfl rfl)
    (whole_apw V c t) (whole_apb V c t) (whole_wv V c t) (whole_bv V c t) (whole_wo V c t) (whole_bo V c t)

/-- The rows a point covers stay inside the array. -/
theorem row_lt (t : Fin cfg4.N) (p : Fin 5000) : t.val * 5000 + p.val < 1600000 := by
  have ht : t.val < 320 := Nat.lt_of_lt_of_eq t.isLt N_4
  have hp : p.val < 5000 := p.isLt
  omega

/-! ## What a point writes back -/

/-- Where entry `(p, q)` of the first output's block at point `t` sits in its array. -/
theorem emb_ef (t : Fin cfg4.N) (p : Fin 5000) (q : Fin 32) :
    ((cfg4.win 9).blk t).view.emb (ix2 p q) = (ix2 ⟨t.val * 5000 + p.val, row_lt t p⟩ q : S1600000x32.Idx) := by
  obtain ⟨-, -, -, -, -, -, e0, e1, -⟩ := idx_rows t
  funext a
  apply Fin.ext
  match a with
  | ⟨0, _⟩ => show win4_9.index t (0 : Fin 2) * 5000 + 1 * p.val = t.val * 5000 + p.val; rw [e0]; omega
  | ⟨1, _⟩ => show win4_9.index t (1 : Fin 2) * 32 + 1 * q.val = q.val; rw [e1]; omega

/-- The same for the second output. -/
theorem emb_msg (t : Fin cfg4.N) (p : Fin 5000) (q : Fin 32) :
    ((cfg4.win 10).blk t).view.emb (ix2 p q) = (ix2 ⟨t.val * 5000 + p.val, row_lt t p⟩ q : S1600000x32.Idx) := by
  obtain ⟨-, -, -, -, -, -, -, -, e0, e1⟩ := idx_rows t
  funext a
  apply Fin.ext
  match a with
  | ⟨0, _⟩ => show win4_10.index t (0 : Fin 2) * 5000 + 1 * p.val = t.val * 5000 + p.val; rw [e0]; omega
  | ⟨1, _⟩ => show win4_10.index t (1 : Fin 2) * 32 + 1 * q.val = q.val; rw [e1]; omega

/-- Point `t` writes back block `t` of the new edge features of the arrays. -/
theorem flushed_ef (c : Dev nD) (t : Fin cfg4.N) :
    (dat4 (F := Ideal) V c).flushed 9 t = ((cfg4.win 9).blk t).view.read (Elt Ideal)
      (edgeNew (M := 1600000) (V c main_v13) (V c main_v14) (V c main_v8_0) (V c main_arg9) (V c main_arg10) (V c main_arg11) (V c main_arg12)
        (V c main_arg13) (V c main_arg14)) := by
  show (cfg4.win 9).cut (grid4.coords t) ((dat4 (F := Ideal) V c).after 9 t) = _
  rw [after4_9]
  unfold out4_9
  rw [View.canon_unit_zero zeros2]
  simp only [View.ld_unit_zero (S := S5000x32) zeros2, View.ld_unit_zero (S := S64x32) zeros2,
    View.ld_unit_zero (S := S32x32) zeros2, View.ld_unit_zero (S := S32) zeros1]
  rw [pay4_ef]
  funext j
  obtain ⟨p, q, rfl⟩ : ∃ (p : Fin 5000) (q : Fin 32), j = ix2 p q := ⟨j 0, j 1, eq_ix2 j⟩
  refine (ef_at V c t p q (row_lt t p)).trans ?_
  exact congrArg (edgeNew (M := 1600000) (V c main_v13) (V c main_v14) (V c main_v8_0) (V c main_arg9) (V c main_arg10) (V c main_arg11) (V c main_arg12)
    (V c main_arg13) (V c main_arg14)) (emb_ef t p q).symm

/-- Point `t` writes back block `t` of the messages of the arrays. -/
theorem flushed_msg (c : Dev nD) (t : Fin cfg4.N) :
    (dat4 (F := Ideal) V c).flushed 10 t = ((cfg4.win 10).blk t).view.read (Elt Ideal)
      (edgeMsg (M := 1600000) (V c main_v13) (edgeNew (M := 1600000) (V c main_v13) (V c main_v14) (V c main_v8_0) (V c main_arg9) (V c main_arg10) (V c main_arg11) (V c main_arg12)
        (V c main_arg13) (V c main_arg14))) := by
  show (cfg4.win 10).cut (grid4.coords t) ((dat4 (F := Ideal) V c).after 10 t) = _
  rw [after4_10]
  unfold out4_10
  rw [View.canon_unit_zero zeros2]
  simp only [View.ld_unit_zero (S := S5000x32) zeros2, View.ld_unit_zero (S := S64x32) zeros2,
    View.ld_unit_zero (S := S32x32) zeros2, View.ld_unit_zero (S := S32) zeros1]
  rw [pay4_msg]
  funext j
  obtain ⟨p, q, rfl⟩ : ∃ (p : Fin 5000) (q : Fin 32), j = ix2 p q := ⟨j 0, j 1, eq_ix2 j⟩
  refine (edgeMsg_point (M := 1600000) (iblk4 (F := Ideal) V c 0 t)
    (edgeNew (M := 5000) (iblk4 (F := Ideal) V c 0 t) (iblk4 (F := Ideal) V c 1 t) (iblk4 (F := Ideal) V c 2 t) (iblk4 (F := Ideal) V c 3 t) (iblk4 (F := Ideal) V c 4 t)
      (iblk4 (F := Ideal) V c 5 t) (iblk4 (F := Ideal) V c 6 t) (iblk4 (F := Ideal) V c 7 t) (iblk4 (F := Ideal) V c 8 t))
    (V c main_v13)
    (edgeNew (M := 1600000) (V c main_v13) (V c main_v14) (V c main_v8_0) (V c main_arg9) (V c main_arg10) (V c main_arg11) (V c main_arg12) (V c main_arg13) (V c main_arg14))
    (ix2 p q) (ix2 ⟨t.val * 5000 + p.val, row_lt t p⟩ q)
    (read_src V c t (ix2 p q) (ix2 ⟨t.val * 5000 + p.val, row_lt t p⟩ q) rfl rfl)
    (ef_at V c t p q (row_lt t p))).trans ?_
  exact congrArg (edgeMsg (M := 1600000) (V c main_v13) (edgeNew (M := 1600000) (V c main_v13) (V c main_v14) (V c main_v8_0) (V c main_arg9) (V c main_arg10) (V c main_arg11) (V c main_arg12)
    (V c main_arg13) (V c main_arg14))) (emb_msg t p q).symm

/-! ## The blocks fill the arrays -/

/-- An index of the first result is in point `t`'s block iff each coordinate is in the block's range on its axis. -/
theorem mem_blk_ef (t : Fin cfg4.N) (i : S1600000x32.Idx) :
    i ∈ ((cfg4.win 9).blk t).view.set ↔ ∀ a : Fin 2, win4_9.index t a * S5000x32.size a ≤ (i a).val ∧ (i a).val < win4_9.index t a * S5000x32.size a + S5000x32.size a := by
  show i ∈ ((View.whole main_v15_0).slice (win4_9.rect t)).set ↔ _
  rw [View.set_slice_whole, Rect.mem_set_unit]
  exact Iff.rfl

/-- The same for the second result. -/
theorem mem_blk_msg (t : Fin cfg4.N) (i : S1600000x32.Idx) :
    i ∈ ((cfg4.win 10).blk t).view.set ↔ ∀ a : Fin 2, win4_10.index t a * S5000x32.size a ≤ (i a).val ∧ (i a).val < win4_10.index t a * S5000x32.size a + S5000x32.size a := by
  show i ∈ ((View.whole main_v15_1).slice (win4_10.rect t)).set ↔ _
  rw [View.set_slice_whole, Rect.mem_set_unit]
  exact Iff.rfl

/-- Row `r` of the first result is in the block of point `r / 5000`, which writes back. -/
theorem cover_ef (i : S1600000x32.Idx) :
    ∃ t : Fin cfg4.N, (cfg4.win 9).flush t = true ∧ i ∈ ((cfg4.win 9).blk t).view.set := by
  have hi0 : (i 0).val < 1600000 := (i 0).isLt
  have hi1 : (i 1).val < 32 := (i 1).isLt
  have hN : (i 0).val / 5000 < cfg4.N := Nat.lt_of_lt_of_eq (show (i 0).val / 5000 < 320 by omega) N_4.symm
  obtain ⟨t, ht⟩ : ∃ t : Fin cfg4.N, t.val = (i 0).val / 5000 := ⟨⟨(i 0).val / 5000, hN⟩, rfl⟩
  obtain ⟨-, -, -, -, -, -, e0, e1, -⟩ := idx_rows t
  refine ⟨t, flush4_9 t, ?_⟩
  rw [mem_blk_ef]
  intro a
  match a with
  | ⟨0, _⟩ =>
    show win4_9.index t (0 : Fin 2) * 5000 ≤ (i 0).val ∧ (i 0).val < win4_9.index t (0 : Fin 2) * 5000 + 5000
    rw [e0, ht]; omega
  | ⟨1, _⟩ =>
    show win4_9.index t (1 : Fin 2) * 32 ≤ (i 1).val ∧ (i 1).val < win4_9.index t (1 : Fin 2) * 32 + 32
    rw [e1]; omega

/-- The same for the second result. -/
theorem cover_msg (i : S1600000x32.Idx) :
    ∃ t : Fin cfg4.N, (cfg4.win 10).flush t = true ∧ i ∈ ((cfg4.win 10).blk t).view.set := by
  have hi0 : (i 0).val < 1600000 := (i 0).isLt
  have hi1 : (i 1).val < 32 := (i 1).isLt
  have hN : (i 0).val / 5000 < cfg4.N := Nat.lt_of_lt_of_eq (show (i 0).val / 5000 < 320 by omega) N_4.symm
  obtain ⟨t, ht⟩ : ∃ t : Fin cfg4.N, t.val = (i 0).val / 5000 := ⟨⟨(i 0).val / 5000, hN⟩, rfl⟩
  obtain ⟨-, -, -, -, -, -, -, -, e0, e1⟩ := idx_rows t
  refine ⟨t, flush4_10 t, ?_⟩
  rw [mem_blk_msg]
  intro a
  match a with
  | ⟨0, _⟩ =>
    show win4_10.index t (0 : Fin 2) * 5000 ≤ (i 0).val ∧ (i 0).val < win4_10.index t (0 : Fin 2) * 5000 + 5000
    rw [e0, ht]; omega
  | ⟨1, _⟩ =>
    show win4_10.index t (1 : Fin 2) * 32 ≤ (i 1).val ∧ (i 1).val < win4_10.index t (1 : Fin 2) * 32 + 32
    rw [e1]; omega

end Edge4

/-- After the call the first result array is the new edge features of the arrays the call found. -/
theorem region4_ef (c : Dev nD) :
    (dat4 (F := Ideal) V c).arrAt 9 cfg4.N
      = edgeNew (V c main_v13) (V c main_v14) (V c main_v8_0) (V c main_arg9) (V c main_arg10) (V c main_arg11) (V c main_arg12)
          (V c main_arg13) (V c main_arg14) :=
  (dat4 (F := Ideal) V c).arrAt_eq_of_cover 9 _ (fun t _ => Edge4.flushed_ef V c t) fun i => Edge4.cover_ef i

/-- After the call the second result array is the messages. -/
theorem region4_msg (c : Dev nD) :
    (dat4 (F := Ideal) V c).arrAt 10 cfg4.N
      = edgeMsg (V c main_v13) (edgeNew (V c main_v13) (V c main_v14) (V c main_v8_0) (V c main_arg9) (V c main_arg10) (V c main_arg11)
          (V c main_arg12) (V c main_arg13) (V c main_arg14)) :=
  (dat4 (F := Ideal) V c).arrAt_eq_of_cover 10 _ (fun t _ => Edge4.flushed_msg V c t) fun i => Edge4.cover_msg i

end Cert.KernelIdeal.RegionVal

end
-- ==== Proof.Region5.lean ====
import proofs.«410628_j75788992905488_1_alg».proof.Proof.Gen.KernelIdeal.Frame
import proofs.«410628_j75788992905488_1_alg».proof.Proof.Spec

/-!
# The node update of the second round

At a grid point the body adds the blocks of node features and aggregated messages and applies two dense layers, each
clamped at zero; the block it writes back is the same rows of `nodeUpd` of the whole arrays, and the blocks fill the result.
-/

set_option maxRecDepth 16384

noncomputable section

namespace Cert.KernelIdeal.RegionVal

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibDense Cert.Spec

-- the contents of every array when the call begins
variable (V : (c : Dev nD) → (b : Ref sig .tc) → Buf (Elt Ideal) ((c : Thread nD τ).loc b))

/-! ## The body's value -/

/-- One dense layer clamped at zero, in the body's spelling (both operands narrowed, a zero accumulator, the bias row
    repeated down the rows, the maximum with the zero splat), is `relu (x · w + b)`. -/
theorem layer5_eq (ht : FTy.bf16.bits < FTy.f32.bits) (hc : S32.ShapeCasts S1x32) (hb : S1x32.Broadcasts S5000x32)
    (x : FVec Ideal S5000x32 .f32) (w : FVec Ideal S32x32 .f32) (b : FVec Ideal S32 .f32) :
    maximumf (addf (matmul dot_S5000x32_S32x32_S5000x32_1_0_0_1_n_n none (truncf .bf16 x ht) (truncf .bf16 w ht)
            (constant (F := Ideal) S5000x32 .f32 0x00000000#32))
          (broadcastTo S5000x32 (shapeCast S1x32 b hc) hb))
        (broadcast S5000x32 (Scalar.ofBits (F := Ideal) .f32 0x00000000#32))
      = reluM (lin x w b) := by
  have e := kernLin_eq 5000 32 32 none hc hb ht x w b
  have r := kernRelu_eq (s := S5000x32) (lin x w b)
  exact (congrArg (fun a => maximumf a (broadcast S5000x32 (Scalar.ofBits (F := Ideal) .f32 0x00000000#32))) e).trans r

/-- The body's stored value is the node update of its loaded blocks. -/
theorem pay5 (v0 v2 : Vec Ideal S5000x32 .f32) (v6 : Vec Ideal S32x32 .f32) (v9 : Vec Ideal S32 .f32)
    (v15 : Vec Ideal S32x32 .f32) (v19 : Vec Ideal S32 .f32) :
    k5_pay1 (F := Ideal) v0 v2 v6 v9 v15 v19 = nodeUpd v0 v2 v6 v9 v15 v19 := by
  unfold k5_pay1
  show maximumf (addf (matmul dot_S5000x32_S32x32_S5000x32_1_0_0_1_n_n none
          (truncf .bf16 (maximumf (addf (matmul dot_S5000x32_S32x32_S5000x32_1_0_0_1_n_n none
                  (truncf .bf16 (addf (shapeCast S5000x32 v0 shapeCasts_S5000x32_S5000x32)
                      (shapeCast S5000x32 v2 shapeCasts_S5000x32_S5000x32)) bitsLt_bf16_f32)
                  (truncf .bf16 v6 bitsLt_bf16_f32) (constant (F := Ideal) S5000x32 .f32 0x00000000#32))
                (broadcastTo S5000x32 (shapeCast S1x32 v9 shapeCasts_S32_S1x32) broadcasts_S1x32_S5000x32))
              (broadcast S5000x32 (Scalar.ofBits (F := Ideal) .f32 0x00000000#32))) bitsLt_bf16_f32)
          (truncf .bf16 v15 bitsLt_bf16_f32) (constant (F := Ideal) S5000x32 .f32 0x00000000#32))
        (broadcastTo S5000x32 (shapeCast S1x32 v19 shapeCasts_S32_S1x32) broadcasts_S1x32_S5000x32))
      (broadcast S5000x32 (Scalar.ofBits (F := Ideal) .f32 0x00000000#32)) = _
  rw [layer5_eq, layer5_eq, shapeCast_self, shapeCast_self]
  rfl

/-! ## The windows' block indices -/

theorem zeros5_2 : (![0, 0] : Fin 2 → Nat) = fun _ => 0 :=
  funext fun a => by match a with | ⟨0, _⟩ => rfl | ⟨1, _⟩ => rfl

theorem zeros5_1 : (![0] : Fin 1 → Nat) = fun _ => 0 :=
  funext fun a => by match a with | ⟨0, _⟩ => rfl

/-- At point `t` the three row-streamed windows sit at block `(t, 0)` and the four weight windows at block zero. -/
theorem idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 1) = 0
    ∧ win5_4.index t (0 : Fin 2) = 0 ∧ win5_4.index t (1 : Fin 2) = 0
    ∧ win5_5.index t (0 : Fin 1) = 0
    ∧ win5_6.index t (0 : Fin 2) = t.val ∧ win5_6.index t (1 : Fin 2) = 0 :=
  (by decide +kernel : ∀ t : Fin grid5.N, _)

/-- Twenty points of 5000 rows stay inside the 100000 rows. -/
theorem row5_lt (t : Fin cfg5.N) (p : Fin 5000) : t.val * 5000 + p.val < 100000 := by
  have ht : t.val < 20 := Nat.lt_of_lt_of_eq t.isLt N_5
  have hp : p.val < 5000 := p.isLt
  omega

/-! ## The blocks the body loads, as entries of the arrays -/

/-- The node-feature block at point `t` is rows `5000 t …` of the node features. -/
theorem nfBlock5 (c : Dev nD) (t : Fin cfg5.N) (p : Fin 5000) (k : Fin 32) :
    (iblk5 V c 0 t : Vec Ideal S5000x32 .f32) (ix2 p k)
      = (V c main_v12 : Vec Ideal S100000x32 .f32) (ix2 (⟨t.val * 5000 + p.val, row5_lt t p⟩ : Fin 100000) k) := by
  obtain ⟨h0, h1, -⟩ := idx5 t
  show V c main_v12 (((cfg5.win 0).blk t).view.emb (ix2 p k))
    = V c main_v12 (ix2 (⟨t.val * 5000 + p.val, row5_lt t p⟩ : Fin 100000) k)
  refine congrArg (V c main_v12) ?_
  funext a; apply Fin.ext
  match a with
  | ⟨0, _⟩ => show win5_0.index t (0 : Fin 2) * 5000 + 1 * p.val = t.val * 5000 + p.val; omega
  | ⟨1, _⟩ => show win5_0.index t (1 : Fin 2) * 32 + 1 * k.val = k.val; omega

/-- The aggregated-message block at point `t` is rows `5000 t …` of the aggregated messages. -/
theorem aggBlock5 (c : Dev nD) (t : Fin cfg5.N) (p : Fin 5000) (k : Fin 32) :
    (iblk5 V c 1 t : Vec Ideal S5000x32 .f32) (ix2 p k)
      = (V c main_v18 : Vec Ideal S100000x32 .f32) (ix2 (⟨t.val * 5000 + p.val, row5_lt t p⟩ : Fin 100000) k) := by
  obtain ⟨-, -, h0, h1, -⟩ := idx5 t
  show V c main_v18 (((cfg5.win 1).blk t).view.emb (ix2 p k))
    = V c main_v18 (ix2 (⟨t.val * 5000 + p.val, row5_lt t p⟩ : Fin 100000) k)
  refine congrArg (V c main_v18) ?_
  funext a; apply Fin.ext
  match a with
  | ⟨0, _⟩ => show win5_1.index t (0 : Fin 2) * 5000 + 1 * p.val = t.val * 5000 + p.val; omega
  | ⟨1, _⟩ => show win5_1.index t (1 : Fin 2) * 32 + 1 * k.val = k.val; omega

/-- The first layer's weight window holds the whole weight array at every point. -/
theorem w1Block5 (c : Dev nD) (t : Fin cfg5.N) (a b : Fin 32) :
    (iblk5 V c 2 t : Vec Ideal S32x32 .f32) (ix2 a b) = (V c main_arg15 : Vec Ideal S32x32 .f32) (ix2 a b) := by
  obtain ⟨-, -, -, -, h0, h1, -⟩ := idx5 t
  show V c main_arg15 (((cfg5.win 2).blk t).view.emb (ix2 a b)) = V c main_arg15 (ix2 a b)
  refine congrArg (V c main_arg15) ?_
  funext d; apply Fin.ext
  match d with
  | ⟨0, _⟩ => show win5_2.index t (0 : Fin 2) * 32 + 1 * a.val = a.val; omega
  | ⟨1, _⟩ => show win5_2.index t (1 : Fin 2) * 32 + 1 * b.val = b.val; omega

/-- The first layer's bias window holds the whole bias at every point. -/
theorem b1Block5 (c : Dev nD) (t : Fin cfg5.N) (a : Fin 32) :
    (iblk5 V c 3 t : Vec Ideal S32 .f32) (ix1 a) = (V c main_arg16 : Vec Ideal S32 .f32) (ix1 a) := by
  obtain ⟨-, -, -, -, -, -, h0, -⟩ := idx5 t
  show V c main_arg16 (((cfg5.win 3).blk t).view.emb (ix1 a)) = V c main_arg16 (ix1 a)
  refine congrArg (V c main_arg16) ?_
  funext d; apply Fin.ext
  match d with
  | ⟨0, _⟩ => show win5_3.index t (0 : Fin 1) * 32 + 1 * a.val = a.val; omega

/-- The second layer's weight window holds the whole weight array at every point. -/
theorem w2Block5 (c : Dev nD) (t : Fin cfg5.N) (a b : Fin 32) :
    (iblk5 V c 4 t : Vec Ideal S32x32 .f32) (ix2 a b) = (V c main_arg17 : Vec Ideal S32x32 .f32) (ix2 a b) := by
  obtain ⟨-, -, -, -, -, -, -, h0, h1, -⟩ := idx5 t
  show V c main_arg17 (((cfg5.win 4).blk t).view.emb (ix2 a b)) = V c main_arg17 (ix2 a b)
  refine congrArg (V c main_arg17) ?_
  funext d; apply Fin.ext
  match d with
  | ⟨0, _⟩ => show win5_4.index t (0 : Fin 2) * 32 + 1 * a.val = a.val; omega
  | ⟨1, _⟩ => show win5_4.index t (1 : Fin 2) * 32 + 1 * b.val = b.val; omega

/-- The second layer's bias window holds the whole bias at every point. -/
theorem b2Block5 (c : Dev nD) (t : Fin cfg5.N) (a : Fin 32) :
    (iblk5 V c 5 t : Vec Ideal S32 .f32) (ix1 a) = (V c main_arg18 : Vec Ideal S32 .f32) (ix1 a) := by
  obtain ⟨-, -, -, -, -, -, -, -, -, h0, -⟩ := idx5 t
  show V c main_arg18 (((cfg5.win 5).blk t).view.emb (ix1 a)) = V c main_arg18 (ix1 a)
  refine congrArg (V c main_arg18) ?_
  funext d; apply Fin.ext
  match d with
  | ⟨0, _⟩ => show win5_5.index t (0 : Fin 1) * 32 + 1 * a.val = a.val; omega

/-! ## A block of the node update is the same rows of the node update of the arrays -/

/-- Row `p` of the node update of blocks whose rows `p` are rows `r` of the arrays, under weights that agree entry by
    entry, is row `r` of the node update of the arrays. -/
theorem nodeUpd_block5 (nf agg : Mat 5000 32) (w₁ : Mat 32 32) (b₁ : Row 32) (w₂ : Mat 32 32) (b₂ : Row 32)
    (NF AGG : Mat 100000 32) (W₁ : Mat 32 32) (B₁ : Row 32) (W₂ : Mat 32 32) (B₂ : Row 32)
    (p : Fin 5000) (r : Fin 100000) (q : Fin 32)
    (hn : ∀ k : Fin 32, nf (ix2 p k) = NF (ix2 r k)) (ha : ∀ k : Fin 32, agg (ix2 p k) = AGG (ix2 r k))
    (hw1 : ∀ a b : Fin 32, w₁ (ix2 a b) = W₁ (ix2 a b)) (hb1 : ∀ a : Fin 32, b₁ (ix1 a) = B₁ (ix1 a))
    (hw2 : ∀ a b : Fin 32, w₂ (ix2 a b) = W₂ (ix2 a b)) (hb2 : ∀ a : Fin 32, b₂ (ix1 a) = B₂ (ix1 a)) :
    nodeUpd nf agg w₁ b₁ w₂ b₂ (ix2 p q) = nodeUpd NF AGG W₁ B₁ W₂ B₂ (ix2 r q) := by
  have e1 : w₁ = W₁ := funext fun i => (congrArg w₁ (eq_ix2 i)).trans ((hw1 (i 0) (i 1)).trans (congrArg W₁ (eq_ix2 i).symm))
  have e2 : b₁ = B₁ := funext fun i => (congrArg b₁ (eq_ix1 i)).trans ((hb1 (i 0)).trans (congrArg B₁ (eq_ix1 i).symm))
  have e3 : w₂ = W₂ := funext fun i => (congrArg w₂ (eq_ix2 i)).trans ((hw2 (i 0) (i 1)).trans (congrArg W₂ (eq_ix2 i).symm))
  have e4 : b₂ = B₂ := funext fun i => (congrArg b₂ (eq_ix1 i)).trans ((hb2 (i 0)).trans (congrArg B₂ (eq_ix1 i).symm))
  subst e1 e2 e3 e4
  exact nodeUpd_rows nf agg NF AGG w₁ b₁ w₂ b₂ p r q hn ha

/-! ## From the blocks to the array -/

/-- What point `t` writes back is block `t` of the node update of the arrays the call found. -/
theorem flushed5 (c : Dev nD) (t : Fin cfg5.N) :
    (dat5 (F := Ideal) V c).flushed 6 t
      = ((cfg5.win 6).blk t).view.read (Elt Ideal)
          (nodeUpd (V c main_v12) (V c main_v18) (V c main_arg15) (V c main_arg16) (V c main_arg17) (V c main_arg18)) := by
  show (cfg5.win 6).cut (grid5.coords t) ((dat5 V c).after 6 t) = _
  rw [after5_6]
  unfold out5_6
  rw [View.canon_unit_zero zeros5_2]
  simp only [View.ld_unit_zero (S := S5000x32) zeros5_2, View.ld_unit_zero (S := S32x32) zeros5_2,
    View.ld_unit_zero (S := S32) zeros5_1]
  rw [pay5]
  funext j
  obtain ⟨p, q, rfl⟩ : ∃ (p : Fin 5000) (q : Fin 32), j = ix2 p q := ⟨j 0, j 1, eq_ix2 j⟩
  have hemb : ((cfg5.win 6).blk t).view.emb (ix2 p q)
      = (ix2 (⟨t.val * 5000 + p.val, row5_lt t p⟩ : Fin 100000) q : S100000x32.Idx) := by
    obtain ⟨-, -, -, -, -, -, -, -, -, -, h0, h1⟩ := idx5 t
    funext a; apply Fin.ext
    match a with
    | ⟨0, _⟩ => show win5_6.index t (0 : Fin 2) * 5000 + 1 * p.val = t.val * 5000 + p.val; omega
    | ⟨1, _⟩ => show win5_6.index t (1 : Fin 2) * 32 + 1 * q.val = q.val; omega
  show nodeUpd (iblk5 V c 0 t) (iblk5 V c 1 t) (iblk5 V c 2 t) (iblk5 V c 3 t) (iblk5 V c 4 t) (iblk5 V c 5 t) (ix2 p q)
    = nodeUpd (V c main_v12) (V c main_v18) (V c main_arg15) (V c main_arg16) (V c main_arg17) (V c main_arg18)
        (((cfg5.win 6).blk t).view.emb (ix2 p q))
  rw [hemb]
  exact nodeUpd_block5 (iblk5 V c 0 t) (iblk5 V c 1 t) (iblk5 V c 2 t) (iblk5 V c 3 t) (iblk5 V c 4 t) (iblk5 V c 5 t)
    (V c main_v12) (V c main_v18) (V c main_arg15) (V c main_arg16) (V c main_arg17) (V c main_arg18)
    p (⟨t.val * 5000 + p.val, row5_lt t p⟩ : Fin 100000) q
    (fun k => nfBlock5 V c t p k) (fun k => aggBlock5 V c t p k) (fun a b => w1Block5 V c t a b) (fun a => b1Block5 V c t a)
    (fun a b => w2Block5 V c t a b) (fun a => b2Block5 V c t a)

/-- An entry of the result array is in point `t`'s block iff each coordinate is in the block's range on its axis. -/
theorem mem_blk5 (t : Fin cfg5.N) (i : S100000x32.Idx) :
    i ∈ ((cfg5.win 6).blk t).view.set
      ↔ ∀ a : Fin 2, win5_6.index t a * S5000x32.size a ≤ (i a).val
          ∧ (i a).val < win5_6.index t a * S5000x32.size a + S5000x32.size a := by
  show i ∈ ((View.whole main_v19).slice (win5_6.rect t)).set ↔ _
  rw [View.set_slice_whole, Rect.mem_set_unit]
  exact Iff.rfl

/-- Every entry of the result array is written back by the point its row's block of 5000 belongs to. -/
theorem cover5 (i : S100000x32.Idx) :
    ∃ t : Fin cfg5.N, (cfg5.win 6).flush t = true ∧ i ∈ ((cfg5.win 6).blk t).view.set := by
  have hi0 : (i 0).val < 100000 := (i 0).isLt
  have hi1 : (i 1).val < 32 := (i 1).isLt
  have ht : (i 0).val / 5000 < cfg5.N := Nat.lt_of_lt_of_eq (by omega : (i 0).val / 5000 < 20) N_5.symm
  obtain ⟨-, -, -, -, -, -, -, -, -, -, h0, h1⟩ := idx5 ⟨(i 0).val / 5000, ht⟩
  have e0 : win5_6.index ⟨(i 0).val / 5000, ht⟩ (0 : Fin 2) = (i 0).val / 5000 := h0
  have e1 : win5_6.index ⟨(i 0).val / 5000, ht⟩ (1 : Fin 2) = 0 := h1
  refine ⟨⟨(i 0).val / 5000, ht⟩, flush5_6 _, ?_⟩
  rw [mem_blk5]
  intro a
  match a with
  | ⟨0, _⟩ =>
    show win5_6.index ⟨(i 0).val / 5000, ht⟩ (0 : Fin 2) * 5000 ≤ (i 0).val
      ∧ (i 0).val < win5_6.index ⟨(i 0).val / 5000, ht⟩ (0 : Fin 2) * 5000 + 5000
    rw [e0]; omega
  | ⟨1, _⟩ =>
    show win5_6.index ⟨(i 0).val / 5000, ht⟩ (1 : Fin 2) * 32 ≤ (i 1).val
      ∧ (i 1).val < win5_6.index ⟨(i 0).val / 5000, ht⟩ (1 : Fin 2) * 32 + 32
    rw [e1]; omega

/-- After the call the result array is the node update of the arrays the call found. -/
theorem region5_value (c : Dev nD) :
    (dat5 (F := Ideal) V c).arrAt 6 cfg5.N
      = nodeUpd (V c main_v12) (V c main_v18) (V c main_arg15) (V c main_arg16) (V c main_arg17) (V c main_arg18) :=
  (dat5 (F := Ideal) V c).arrAt_eq_of_cover 6
    (nodeUpd (V c main_v12) (V c main_v18) (V c main_arg15) (V c main_arg16) (V c main_arg17) (V c main_arg18))
    (fun t _ => flushed5 V c t) cover5

end Cert.KernelIdeal.RegionVal

end
-- ==== Proof.Region6.lean ====
import proofs.«410628_j75788992905488_1_alg».proof.Proof.Gen.KernelIdeal.Frame
import proofs.«410628_j75788992905488_1_alg».proof.Proof.Spec

/-!
# Pallas call 6: the node head

The call's grid walks the rows in blocks of 5000; at a point the body multiplies the block by the resident weights and adds
the bias, so the block it writes back is the same rows of `lin` of the whole array, and the blocks fill the result.
-/

set_option maxRecDepth 16384

noncomputable section

namespace Cert.KernelIdeal.RegionVal

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibDense Cert.Spec

-- the TensorCore's buffer contents when the region is entered
variable (V : (c : Dev nD) → (b : Ref sig .tc) → Buf (Elt Ideal) ((c : Thread nD τ).loc b))

/-- The body's stored value is the dense layer of its loaded blocks. -/
theorem pay6 (v0 : Vec Ideal S5000x32 .f32) (v2 : Vec Ideal S32x7 .f32) (v5 : Vec Ideal S7 .f32) :
    k6_pay1 (F := Ideal) v0 v2 v5 = lin v0 v2 v5 := by
  unfold k6_pay1
  rw [shapeCast_self]
  exact kernLin_eq 5000 32 7 none shapeCasts_S7_S1x7 broadcasts_S1x7_S5000x7 bitsLt_bf16_f32 v0 v2 v5

/-! ## Where a block sits in its array -/

/-- The body reads and writes each staging buffer whole: its accesses start at offset zero on every axis. -/
theorem nodeHead_zero2 : (![0, 0] : Fin 2 → Nat) = fun _ => 0 :=
  funext fun a => by match a with | ⟨0, _⟩ => rfl | ⟨1, _⟩ => rfl

theorem nodeHead_zero1 : (![0] : Fin 1 → Nat) = fun _ => 0 :=
  funext fun a => by match a with | ⟨0, _⟩ => rfl

/-- The block indices at a grid point: the features' and the result's blocks are block `t` of the rows and the only block
    of the columns; the weights and the bias are one block each, the same at every point. -/
theorem nodeHead_index : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 1) = 0
    ∧ win6_3.index t (0 : Fin 2) = t.val ∧ win6_3.index t (1 : Fin 2) = 0 :=
  (by decide +kernel : ∀ t : Fin grid6.N, _)

/-- Row `p` of block `t` is a row of the array: `20` blocks of `5000` rows are its `100000` rows. -/
theorem nodeHead_row_lt (t : Fin cfg6.N) (p : Fin 5000) : t.val * 5000 + p.val < 100000 := by
  have ht : t.val < 20 := Nat.lt_of_lt_of_eq t.isLt N_6
  have hp : p.val < 5000 := p.isLt
  omega

/-- The features' block at point `t` holds rows `5000 t … 5000 t + 4999` of the features. -/
theorem nodeHead_rows (c : Dev nD) (t : Fin cfg6.N) (p : Fin 5000) (k : Fin 32) :
    iblk6 (F := Ideal) V c 0 t (ix2 p k) = V c main_v19 (ix2 ⟨t.val * 5000 + p.val, nodeHead_row_lt t p⟩ k) := by
  obtain ⟨e0, e1, -⟩ := nodeHead_index t
  show V c main_v19 (((cfg6.win 0).blk t).view.emb (ix2 p k)) = _
  refine congrArg (V c main_v19) ?_
  funext a; apply Fin.ext
  match a with
  | ⟨0, _⟩ => show win6_0.index t (0 : Fin 2) * 5000 + 1 * p.val = t.val * 5000 + p.val; rw [e0]; omega
  | ⟨1, _⟩ => show win6_0.index t (1 : Fin 2) * 32 + 1 * k.val = k.val; rw [e1]; omega

/-- The weights' block is the weights, at every point. -/
theorem nodeHead_weights (c : Dev nD) (t : Fin cfg6.N) (k : Fin 32) (q : Fin 7) :
    iblk6 (F := Ideal) V c 1 t (ix2 k q) = V c main_arg19 (ix2 k q) := by
  obtain ⟨-, -, e2, e3, -⟩ := nodeHead_index t
  show V c main_arg19 (((cfg6.win 1).blk t).view.emb (ix2 k q)) = _
  refine congrArg (V c main_arg19) ?_
  funext a; apply Fin.ext
  match a with
  | ⟨0, _⟩ => show win6_1.index t (0 : Fin 2) * 32 + 1 * k.val = k.val; rw [e2]; omega
  | ⟨1, _⟩ => show win6_1.index t (1 : Fin 2) * 7 + 1 * q.val = q.val; rw [e3]; omega

/-- The bias's block is the bias, at every point. -/
theorem nodeHead_bias (c : Dev nD) (t : Fin cfg6.N) (q : Fin 7) :
    iblk6 (F := Ideal) V c 2 t (ix1 q) = V c main_arg20 (ix1 q) := by
  obtain ⟨-, -, -, -, e4, -⟩ := nodeHead_index t
  show V c main_arg20 (((cfg6.win 2).blk t).view.emb (ix1 q)) = _
  refine congrArg (V c main_arg20) ?_
  funext a; apply Fin.ext
  match a with
  | ⟨0, _⟩ => show win6_2.index t (0 : Fin 1) * 7 + 1 * q.val = q.val; rw [e4]; omega

/-! ## What a point writes back -/

/-- Entry `(p, q)` of the dense layer of the blocks at point `t` is entry `(5000 t + p, q)` of the dense layer of the whole
    arrays: a row of `x · w + b` is a function of the same row of `x`. -/
theorem nodeHead_entry (c : Dev nD) (t : Fin cfg6.N) (p : Fin 5000) (q : Fin 7) :
    lin (iblk6 (F := Ideal) V c 0 t) (iblk6 (F := Ideal) V c 1 t) (iblk6 (F := Ideal) V c 2 t) (ix2 p q)
      = lin (V c main_v19) (V c main_arg19) (V c main_arg20) (ix2 ⟨t.val * 5000 + p.val, nodeHead_row_lt t p⟩ q) := by
  refine lin_rows (M := 5000) (M' := 100000) (K := 32) (N := 7) _ _ _ _ _ _ p _ q ?_ ?_ ?_
  · exact fun k => nodeHead_rows V c t p k
  · exact fun k => nodeHead_weights V c t k q
  · exact nodeHead_bias V c t q

/-- What point `t` writes back is block `t` of the dense layer of the whole arrays. -/
theorem nodeHead_written (c : Dev nD) (t : Fin cfg6.N) :
    (dat6 (F := Ideal) V c).flushed 3 t
      = ((cfg6.win 3).blk t).view.read (Elt Ideal) (lin (V c main_v19) (V c main_arg19) (V c main_arg20)) := by
  show (cfg6.win 3).cut (grid6.coords t) ((dat6 V c).after 3 t) = _
  rw [after6_3]
  unfold out6_3
  rw [View.canon_unit_zero nodeHead_zero2]
  simp only [View.ld_unit_zero (S := S5000x32) nodeHead_zero2, View.ld_unit_zero (S := S32x7) nodeHead_zero2,
    View.ld_unit_zero (S := S7) nodeHead_zero1]
  rw [pay6]
  obtain ⟨-, -, -, -, -, e5, e6⟩ := nodeHead_index t
  funext j
  obtain ⟨p, q, rfl⟩ : ∃ (p : Fin 5000) (q : Fin 7), j = ix2 p q := ⟨j 0, j 1, eq_ix2 j⟩
  show lin (iblk6 (F := Ideal) V c 0 t) (iblk6 (F := Ideal) V c 1 t) (iblk6 (F := Ideal) V c 2 t) (ix2 p q)
    = lin (V c main_v19) (V c main_arg19) (V c main_arg20) (((cfg6.win 3).blk t).view.emb (ix2 p q))
  refine (nodeHead_entry V c t p q).trans (congrArg (lin (V c main_v19) (V c main_arg19) (V c main_arg20)) ?_)
  funext a; apply Fin.ext
  match a with
  | ⟨0, _⟩ => show t.val * 5000 + p.val = win6_3.index t (0 : Fin 2) * 5000 + 1 * p.val; rw [e5]; omega
  | ⟨1, _⟩ => show q.val = win6_3.index t (1 : Fin 2) * 7 + 1 * q.val; rw [e6]; omega

/-! ## The blocks fill the result -/

/-- An entry of the result is in point `t`'s block iff each coordinate is in the block's range on its axis. -/
theorem nodeHead_mem (t : Fin cfg6.N) (i : S100000x7.Idx) :
    i ∈ ((cfg6.win 3).blk t).view.set ↔ ∀ a : Fin 2, win6_3.index t a * S5000x7.size a ≤ (i a).val
      ∧ (i a).val < win6_3.index t a * S5000x7.size a + S5000x7.size a := by
  show i ∈ ((View.whole main_v20).slice (win6_3.rect t)).set ↔ _
  rw [View.set_slice_whole, Rect.mem_set_unit]
  exact Iff.rfl

/-- Row `r` of the result is written by point `r / 5000`. -/
theorem nodeHead_cover (i : S100000x7.Idx) :
    ∃ t : Fin cfg6.N, (cfg6.win 3).flush t = true ∧ i ∈ ((cfg6.win 3).blk t).view.set := by
  have hi0 : (i 0).val < 100000 := (i 0).isLt
  have hi1 : (i 1).val < 7 := (i 1).isLt
  obtain ⟨t, ht⟩ : ∃ t : Fin cfg6.N, t.val = (i 0).val / 5000 :=
    ⟨⟨(i 0).val / 5000, Nat.lt_of_lt_of_eq (by omega : (i 0).val / 5000 < 20) N_6.symm⟩, rfl⟩
  obtain ⟨-, -, -, -, -, e5, e6⟩ := nodeHead_index t
  refine ⟨t, flush6_3 t, ?_⟩
  rw [nodeHead_mem]
  intro a
  match a with
  | ⟨0, _⟩ =>
    show win6_3.index t (0 : Fin 2) * 5000 ≤ (i 0).val ∧ (i 0).val < win6_3.index t (0 : Fin 2) * 5000 + 5000
    rw [e5]; omega
  | ⟨1, _⟩ =>
    show win6_3.index t (1 : Fin 2) * 7 ≤ (i 1).val ∧ (i 1).val < win6_3.index t (1 : Fin 2) * 7 + 7
    rw [e6]; omega

/-- After the call the result array is the dense layer of the arrays the call found. -/
theorem region6_value (c : Dev nD) :
    (dat6 (F := Ideal) V c).arrAt 3 cfg6.N = lin (V c main_v19) (V c main_arg19) (V c main_arg20) :=
  (dat6 (F := Ideal) V c).arrAt_eq_of_cover 3 (lin (V c main_v19) (V c main_arg19) (V c main_arg20))
    (fun t _ => nodeHead_written V c t) nodeHead_cover

end Cert.KernelIdeal.RegionVal

end
-- ==== Proof.Region7.lean ====
import proofs.«410628_j75788992905488_1_alg».proof.Proof.Gen.KernelIdeal.Frame
import proofs.«410628_j75788992905488_1_alg».proof.Proof.Spec

/-!
# Pallas call 7: the edge head

The call's grid walks the rows in blocks of 5000; at a point the body multiplies the block by the resident weights and adds
the bias, so the block it writes back is the same rows of `lin` of the whole array, and the blocks fill the result.
-/

set_option maxRecDepth 16384

noncomputable section

namespace Cert.KernelIdeal.RegionVal

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibDense Cert.Spec

-- the TensorCore's buffer contents when the region is entered
variable (V : (c : Dev nD) → (b : Ref sig .tc) → Buf (Elt Ideal) ((c : Thread nD τ).loc b))

/-- The body's stored value is the dense layer of its loaded blocks. -/
theorem pay7 (v0 : Vec Ideal S5000x32 .f32) (v2 : Vec Ideal S32x2 .f32) (v5 : Vec Ideal S2 .f32) :
    k7_pay1 (F := Ideal) v0 v2 v5 = lin v0 v2 v5 := by
  unfold k7_pay1
  -- the body first reshapes the loaded block to the shape it already has: nothing moves
  rw [shapeCast_self v0 shapeCasts_S5000x32_S5000x32]
  exact kernLin_eq 5000 32 2 none shapeCasts_S2_S1x2 broadcasts_S1x2_S5000x2 bitsLt_bf16_f32 v0 v2 v5

/-! ## Where a block sits in its array -/

/-- Every access of the body starts at the origin of its staging buffer: the two-axis origin is the zero function. -/
theorem edgeHead_zero2 : (![0, 0] : Fin 2 → Nat) = fun _ => 0 :=
  funext fun a => by match a with | ⟨0, _⟩ => rfl | ⟨1, _⟩ => rfl

/-- The same for the one-axis origin (the bias). -/
theorem edgeHead_zero1 : (![0] : Fin 1 → Nat) = fun _ => 0 :=
  funext fun a => by match a with | ⟨0, _⟩ => rfl

/-- The block indices at grid point `t`: the edge features and the result are cut into row blocks and point `t` takes
    block `t`, the only block of the columns; the weights and the bias are a single block, whatever the point. -/
theorem edgeHead_index : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 1) = 0
    ∧ win7_3.index t (0 : Fin 2) = t.val ∧ win7_3.index t (1 : Fin 2) = 0 :=
  (by decide +kernel : ∀ t : Fin grid7.N, _)

/-- `320` blocks of `5000` rows make the `1600000` rows: row `p` of block `t` is row `5000 t + p` of the array. -/
theorem edgeHead_row_lt (t : Fin cfg7.N) (p : Fin 5000) : t.val * 5000 + p.val < 1600000 := by
  have ht : t.val < 320 := Nat.lt_of_lt_of_eq t.isLt N_7
  have hp : p.val < 5000 := p.isLt
  omega

/-- The edge features' block at point `t` is rows `5000 t … 5000 t + 4999` of the edge features. -/
theorem edgeHead_rows (c : Dev nD) (t : Fin cfg7.N) (p : Fin 5000) (k : Fin 32) :
    iblk7 (F := Ideal) V c 0 t (ix2 p k) = V c main_v15_0 (ix2 ⟨t.val * 5000 + p.val, edgeHead_row_lt t p⟩ k) := by
  obtain ⟨e0, e1, -⟩ := edgeHead_index t
  show V c main_v15_0 (((cfg7.win 0).blk t).view.emb (ix2 p k)) = _
  refine congrArg (V c main_v15_0) ?_
  funext a; apply Fin.ext
  match a with
  | ⟨0, _⟩ => show win7_0.index t (0 : Fin 2) * 5000 + 1 * p.val = t.val * 5000 + p.val; rw [e0]; omega
  | ⟨1, _⟩ => show win7_0.index t (1 : Fin 2) * 32 + 1 * k.val = k.val; rw [e1]; omega

/-- The weights' block is all of the weights, at every point. -/
theorem edgeHead_weights (c : Dev nD) (t : Fin cfg7.N) (k : Fin 32) (q : Fin 2) :
    iblk7 (F := Ideal) V c 1 t (ix2 k q) = V c main_arg21 (ix2 k q) := by
  obtain ⟨-, -, e2, e3, -⟩ := edgeHead_index t
  show V c main_arg21 (((cfg7.win 1).blk t).view.emb (ix2 k q)) = _
  refine congrArg (V c main_arg21) ?_
  funext a; apply Fin.ext
  match a with
  | ⟨0, _⟩ => show win7_1.index t (0 : Fin 2) * 32 + 1 * k.val = k.val; rw [e2]; omega
  | ⟨1, _⟩ => show win7_1.index t (1 : Fin 2) * 2 + 1 * q.val = q.val; rw [e3]; omega

/-- The bias's block is all of the bias, at every point. -/
theorem edgeHead_bias (c : Dev nD) (t : Fin cfg7.N) (q : Fin 2) :
    iblk7 (F := Ideal) V c 2 t (ix1 q) = V c main_arg22 (ix1 q) := by
  obtain ⟨-, -, -, -, e4, -⟩ := edgeHead_index t
  show V c main_arg22 (((cfg7.win 2).blk t).view.emb (ix1 q)) = _
  refine congrArg (V c main_arg22) ?_
  funext a; apply Fin.ext
  match a with
  | ⟨0, _⟩ => show win7_2.index t (0 : Fin 1) * 2 + 1 * q.val = q.val; rw [e4]; omega

/-! ## What a point writes back -/

/-- The dense layer acts on each row by itself, so entry `(p, q)` of the layer of the blocks at point `t` is entry
    `(5000 t + p, q)` of the layer of the whole arrays. -/
theorem edgeHead_entry (c : Dev nD) (t : Fin cfg7.N) (p : Fin 5000) (q : Fin 2) :
    lin (iblk7 (F := Ideal) V c 0 t) (iblk7 (F := Ideal) V c 1 t) (iblk7 (F := Ideal) V c 2 t) (ix2 p q)
      = lin (V c main_v15_0) (V c main_arg21) (V c main_arg22) (ix2 ⟨t.val * 5000 + p.val, edgeHead_row_lt t p⟩ q) := by
  refine lin_rows (M := 5000) (M' := 1600000) (K := 32) (N := 2) _ _ _ _ _ _ p _ q ?_ ?_ ?_
  · exact fun k => edgeHead_rows V c t p k
  · exact fun k => edgeHead_weights V c t k q
  · exact edgeHead_bias V c t q

/-- Point `t` writes back block `t` of the dense layer of the whole arrays. -/
theorem edgeHead_written (c : Dev nD) (t : Fin cfg7.N) :
    (dat7 (F := Ideal) V c).flushed 3 t
      = ((cfg7.win 3).blk t).view.read (Elt Ideal) (lin (V c main_v15_0) (V c main_arg21) (V c main_arg22)) := by
  show (cfg7.win 3).cut (grid7.coords t) ((dat7 V c).after 3 t) = _
  rw [after7_3]
  unfold out7_3
  rw [View.canon_unit_zero edgeHead_zero2]
  simp only [View.ld_unit_zero (S := S5000x32) edgeHead_zero2, View.ld_unit_zero (S := S32x2) edgeHead_zero2,
    View.ld_unit_zero (S := S2) edgeHead_zero1]
  rw [pay7]
  obtain ⟨-, -, -, -, -, e5, e6⟩ := edgeHead_index t
  funext j
  obtain ⟨p, q, rfl⟩ : ∃ (p : Fin 5000) (q : Fin 2), j = ix2 p q := ⟨j 0, j 1, eq_ix2 j⟩
  show lin (iblk7 (F := Ideal) V c 0 t) (iblk7 (F := Ideal) V c 1 t) (iblk7 (F := Ideal) V c 2 t) (ix2 p q)
    = lin (V c main_v15_0) (V c main_arg21) (V c main_arg22) (((cfg7.win 3).blk t).view.emb (ix2 p q))
  refine (edgeHead_entry V c t p q).trans (congrArg (lin (V c main_v15_0) (V c main_arg21) (V c main_arg22)) ?_)
  funext a; apply Fin.ext
  match a with
  | ⟨0, _⟩ => show t.val * 5000 + p.val = win7_3.index t (0 : Fin 2) * 5000 + 1 * p.val; rw [e5]; omega
  | ⟨1, _⟩ => show q.val = win7_3.index t (1 : Fin 2) * 2 + 1 * q.val; rw [e6]; omega

/-! ## The blocks fill the result -/

/-- An entry of the result lies in point `t`'s block iff, on each axis, its coordinate lies in the block's range. -/
theorem edgeHead_mem (t : Fin cfg7.N) (i : S1600000x2.Idx) :
    i ∈ ((cfg7.win 3).blk t).view.set ↔ ∀ a : Fin 2, win7_3.index t a * S5000x2.size a ≤ (i a).val
      ∧ (i a).val < win7_3.index t a * S5000x2.size a + S5000x2.size a := by
  show i ∈ ((View.whole main_v21).slice (win7_3.rect t)).set ↔ _
  rw [View.set_slice_whole, Rect.mem_set_unit]
  exact Iff.rfl

/-- Row `r` of the result is written at point `r / 5000`. -/
theorem edgeHead_cover (i : S1600000x2.Idx) :
    ∃ t : Fin cfg7.N, (cfg7.win 3).flush t = true ∧ i ∈ ((cfg7.win 3).blk t).view.set := by
  have hi0 : (i 0).val < 1600000 := (i 0).isLt
  have hi1 : (i 1).val < 2 := (i 1).isLt
  obtain ⟨t, ht⟩ : ∃ t : Fin cfg7.N, t.val = (i 0).val / 5000 :=
    ⟨⟨(i 0).val / 5000, Nat.lt_of_lt_of_eq (by omega : (i 0).val / 5000 < 320) N_7.symm⟩, rfl⟩
  obtain ⟨-, -, -, -, -, e5, e6⟩ := edgeHead_index t
  refine ⟨t, flush7_3 t, ?_⟩
  rw [edgeHead_mem]
  intro a
  match a with
  | ⟨0, _⟩ =>
    show win7_3.index t (0 : Fin 2) * 5000 ≤ (i 0).val ∧ (i 0).val < win7_3.index t (0 : Fin 2) * 5000 + 5000
    rw [e5]; omega
  | ⟨1, _⟩ =>
    show win7_3.index t (1 : Fin 2) * 2 ≤ (i 1).val ∧ (i 1).val < win7_3.index t (1 : Fin 2) * 2 + 2
    rw [e6]; omega

/-- After the call the result array is the dense layer of the arrays the call found. -/
theorem region7_value (c : Dev nD) :
    (dat7 (F := Ideal) V c).arrAt 3 cfg7.N = lin (V c main_v15_0) (V c main_arg21) (V c main_arg22) :=
  (dat7 (F := Ideal) V c).arrAt_eq_of_cover 3 (lin (V c main_v15_0) (V c main_arg21) (V c main_arg22))
    (fun t _ => edgeHead_written V c t) edgeHead_cover

end Cert.KernelIdeal.RegionVal

end
-- ==== Proof.HostFnsK.lean ====
import proofs.«410628_j75788992905488_1_alg».proof.Proof.Gen.KernelIdeal
import proofs.«410628_j75788992905488_1_alg».proof.Proof.Spec

/-!
# The host operations around the dense stages, as functions

The two rows of the edge list (`srcOf`, `dstOf`: a slice of `edge_index` reshaped to a vector), the row gather of the
node table at a vector of node numbers with negative numbers wrapped once (`takeRows`), and the sum of the edges'
messages into the rows their target numbers name (`segSum`), each spelled with this program's own printed operations.
`InRange ids` says every number of `ids` is a node number: as an unsigned word it is below 100000.
-/

noncomputable section

namespace Cert.KernelIdeal.HostFns

open Cert.KernelIdeal Cert.KernelIdeal.Facts₀ Cert.KernelIdeal.Facts Idealize.ShloMosaic Idealize.ShloMosaic.TcCoe Idealize.SL.Sem

variable {F : FTy → Type} [FloatOps F]

/-- Row 0 of the edge list: the source node of every edge. -/
def srcOf (ei : IVec S2x1600000 32) : IVec S1600000 32 :=
  shapeCast S1600000 (extractStridedSlice S1x1600000 ![0, 0] ei slices_S2x1600000_S1x1600000_0_0) shapeCasts_S1x1600000_S1600000

/-- Row 1 of the edge list: the target node of every edge. -/
def dstOf (ei : IVec S2x1600000 32) : IVec S1600000 32 :=
  shapeCast S1600000 (extractStridedSlice S1x1600000 ![1, 0] ei slices_S2x1600000_S1x1600000_1_0) shapeCasts_S1x1600000_S1600000

/-- Every number is a node number: below 100000 as an unsigned word (so also non-negative as a signed one). -/
def InRange (ids : IVec S1600000 32) : Prop := ∀ j : S1600000.Idx, (ids j).toNat < 100000

/-- The numbers with a negative one wrapped once (`+ 100000`), as the column of start indices the gather takes. -/
def wrapIdx (ids : IVec S1600000 32) : IVec S1600000x1 32 :=
  broadcastInDim S1600000x1 ![0] bcast_S1600000_S1600000x1_0
    (select (cmpi .slt ids (broadcastInDim S1600000 ![] bcast_S_S1600000 (constantI S_ 32 0#32)))
      (addi ids (broadcastInDim S1600000 ![] bcast_S_S1600000 (constantI S_ 32 100000#32))) ids)

/-- Row `ids[e]` of the node table for every edge `e`. -/
def takeRows (nf : FVec F S100000x32 .f32) (ids : IVec S1600000 32) : FVec F S1600000x32 .f32 :=
  Host.gather gather_S100000x32_S1600000x1_S1600000x32_1_0_n_n_0_1_132 nf (wrapIdx ids)

/-- The messages summed into the rows their target numbers name, from the zero table. -/
def segSum (msg : FVec F S1600000x32 .f32) (ids : IVec S1600000 32) : FVec F S100000x32 .f32 :=
  Host.scatterAdd scatter_S100000x32_S1600000x1_S1600000x32_1_0_0_1
    (broadcastInDim S100000x32 ![] bcast_S_S100000x32 (constant (F := F) S_ .f32 0x00000000#32))
    (broadcastInDim S1600000x1 ![0] bcast_S1600000_S1600000x1_0 ids) msg

/-- The program's argument arrays, on the extended reals, as the network's inputs. -/
def inputs (m : (ℓ : Loc nD τ sig) → Buf (Elt Ideal) ℓ) (c : Dev nD) : Cert.Spec.Inputs where
  x0 := m ((c.tc : Thread nD τ).loc main_arg0)
  x1 := m ((c.tc : Thread nD τ).loc main_arg1)
  src := srcOf (m ((c.tc : Thread nD τ).loc main_arg2))
  dst := dstOf (m ((c.tc : Thread nD τ).loc main_arg2))
  nipw := m ((c.tc : Thread nD τ).loc main_arg3)
  nipb := m ((c.tc : Thread nD τ).loc main_arg4)
  emw1 := m ((c.tc : Thread nD τ).loc main_arg5)
  emb1 := m ((c.tc : Thread nD τ).loc main_arg6)
  emw2 := m ((c.tc : Thread nD τ).loc main_arg7)
  emb2 := m ((c.tc : Thread nD τ).loc main_arg8)
  apw := m ((c.tc : Thread nD τ).loc main_arg9)
  apb := m ((c.tc : Thread nD τ).loc main_arg10)
  wv := m ((c.tc : Thread nD τ).loc main_arg11)
  bv := m ((c.tc : Thread nD τ).loc main_arg12)
  wo := m ((c.tc : Thread nD τ).loc main_arg13)
  bo := m ((c.tc : Thread nD τ).loc main_arg14)
  gw1 := m ((c.tc : Thread nD τ).loc main_arg15)
  gb1 := m ((c.tc : Thread nD τ).loc main_arg16)
  gw2 := m ((c.tc : Thread nD τ).loc main_arg17)
  gb2 := m ((c.tc : Thread nD τ).loc main_arg18)
  nchw := m ((c.tc : Thread nD τ).loc main_arg19)
  nchb := m ((c.tc : Thread nD τ).loc main_arg20)
  echw := m ((c.tc : Thread nD τ).loc main_arg21)
  echb := m ((c.tc : Thread nD τ).loc main_arg22)

end Cert.KernelIdeal.HostFns

end
-- ==== Proof.HostSteps.lean ====
import proofs.«410628_j75788992905488_1_alg».proof.Proof.Gen.KernelIdeal.Frame
import proofs.«410628_j75788992905488_1_alg».proof.Proof.HostFnsK
import Idealize.ShloMosaic.Lib.StableHlo.Predicate
import Idealize.ShloMosaic.Lib.StableHlo.Run
import Idealize.ShloMosaic.Lib.ValueIdx
import Idealize.ShloMosaic.Lib.ReduceAll
import Idealize.ShloMosaic.PureOps.Reduce

/-!
# What the host operations between the Pallas calls leave at the run's boundaries

`Gen.W1 … Gen.W15` are the buffer contents at the boundaries of the program's segments. A stretch of host operations
writes each of its results as the operations' term of the buffers it reads at the boundary before it: the two rows of
the edge list; the gather of the node table at the source and at the target numbers, which under the range hypothesis
is the plain row gather (the out-of-range fill never fires: every wrapped number is between 0 and 99999); and the sum
of the messages into their target rows.
-/

set_option maxRecDepth 16384

noncomputable section

namespace Cert.KernelIdeal.HostSteps

open Cert.KernelIdeal Cert.KernelIdeal.Gen Cert.KernelIdeal.HostFns
open Idealize.ShloMosaic Idealize.ShloMosaic.TcCoe Idealize.SL.Sem
open Idealize.ShloMosaic.ValueIdx Idealize.ShloMosaic.StableHlo.Predicate

variable {F : FTy → Type} [FloatOps F]

/-! ## The gather with fill is the plain gather on node numbers

The gather's guard is, edge by edge, "the wrapped number is at least 0 and at most 99999", taken over a unit axis.
A number below 100000 as an unsigned word is not negative as a signed one, so the wrap leaves it alone and both tests
hold: the guard is 1 everywhere and the select keeps the gathered row. -/

/-- A node number is not negative, so the wrap (`+ 100000` on a negative number) leaves it alone. -/
theorem wrap_word (a : BitVec 32) (ha : a.toNat < 100000) :
    Scalar.select (IntOp.cmpi .slt a 0#32) (IntOp.addi a 100000#32) a = a := by
  have h0 : IntOp.cmpi .slt a 0#32 = 0#1 := eq_zero_of_ne_one fun h1 => by
    have h2 := (slt_iff_toNat (a := a) (b := 0#32) (by omega) (by decide)).mp h1
    have e : (0#32 : BitVec 32).toNat = 0 := rfl
    omega
  rw [h0, select_zero]

/-- A node number passes both range tests: `0 ≤ a` and `a ≤ 99999` as signed words. -/
theorem mask_word (a : BitVec 32) (ha : a.toNat < 100000) :
    IntOp.andi (IntOp.cmpi .sge a 0#32) (IntOp.cmpi .sle a 99999#32) = 1#1 := by
  have e0 : (0#32 : BitVec 32).toNat = 0 := rfl
  have e1 : (99999#32 : BitVec 32).toNat = 99999 := rfl
  exact IntOp.andi_eq_one.mpr
    ⟨(sge_iff_toNat (a := a) (b := 0#32) (by omega) (by decide)).mpr (by omega),
     (sle_iff_toNat (a := a) (b := 99999#32) (by omega) (by decide)).mpr (by omega)⟩

/-- A left fold by `and` from 1 over bits that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have e : IntOp.andi (1#1) (f a) = 1#1 := by rw [h a (List.mem_cons_self ..)]; decide
    rw [List.foldl_cons, e]
    exact foldl_andi_one f l fun n hn => h n (List.mem_cons_of_mem _ hn)

/-- On node numbers the wrap does nothing: the start indices are the numbers themselves, as a column. -/
theorem wrapIdx_eq (ids : IVec S1600000 32) (h : InRange ids) :
    wrapIdx ids = broadcastInDim S1600000x1 ![0] bcast_S1600000_S1600000x1_0 ids := by
  unfold wrapIdx
  congr 1
  funext k
  exact wrap_word (ids k) (h k)

/-- Every start index is a node number. -/
theorem wrapIdx_lt (ids : IVec S1600000 32) (h : InRange ids) (i : S1600000x1.Idx) :
    (wrapIdx ids i).toNat < 100000 := by
  rw [wrapIdx_eq ids h]
  exact h _

/-- The guard, reduced by `and` over its unit axis from 1, is 1 at every edge. -/
theorem maskAll (ids : IVec S1600000 32) (h : InRange ids) (j : S1600000.Idx) :
    Host.reduce IntOp.andi
      (andi (cmpi .sge (wrapIdx ids) (broadcastInDim S1600000x1 ![] bcast_S_S1600000x1 (constantI S_ 32 0#32)))
        (cmpi .sle (wrapIdx ids) (broadcastInDim S1600000x1 ![0, 1] bcast_S1x1_S1600000x1_0_1
          (broadcastInDim S1x1 ![1] bcast_S1_S1x1_1 (constantI S1 32 99999#32)))))
      (constantI S_ 1 1#1) reducesTo_S1600000x1_S1600000_d1 h_S_ j = 1#1 := by
  rw [Host.reduce_eq_foldl]
  exact foldl_andi_one _ _ fun i _ => mask_word _ (wrapIdx_lt ids h i)

/-- The gather with the out-of-range fill, as the program prints it, is the plain row gather on node numbers. -/
theorem takeFill_eq (nf : FVec F S100000x32 .f32) (ids : IVec S1600000 32) (h : InRange ids) :
    select (broadcastInDim S1600000x32 ![0] bcast_S1600000_S1600000x32_0
        (Host.reduce IntOp.andi
          (andi (cmpi .sge (wrapIdx ids) (broadcastInDim S1600000x1 ![] bcast_S_S1600000x1 (constantI S_ 32 0#32)))
            (cmpi .sle (wrapIdx ids) (broadcastInDim S1600000x1 ![0, 1] bcast_S1x1_S1600000x1_0_1
              (broadcastInDim S1x1 ![1] bcast_S1_S1x1_1 (constantI S1 32 99999#32)))))
          (constantI S_ 1 1#1) reducesTo_S1600000x1_S1600000_d1 h_S_))
      (Host.gather gather_S100000x32_S1600000x1_S1600000x32_1_0_n_n_0_1_132 nf (wrapIdx ids))
      (broadcastInDim S1600000x32 ![] bcast_S_S1600000x32 (constant (F := F) S_ .f32 0x7FC00000#32))
    = takeRows nf ids := by
  funext j
  show Scalar.select (Host.reduce IntOp.andi _ _ reducesTo_S1600000x1_S1600000_d1 h_S_ _) _ _ = _
  rw [maskAll ids h, select_one]
  rfl

/-! ## Contents moved to a typed reference's buffer and back

A typed reference carries the type of the tensor value it holds; contents pass to and from its buffer along that
equation, which at a literal reference is the identity. -/

/-- Contents written to a typed reference's buffer and read back are the contents. -/
theorem ofBuf_toBuf {T : BufTy} (x : StableHlo.TRef sig T) (v : T.Contents (Elt F)) : x.ofBuf (x.toBuf v) = v := by
  simp [StableHlo.TRef.ofBuf, StableHlo.TRef.toBuf]

theorem ofBuf_main_v1 (p q r) (v : (main_v1 : Ref sig .tc).ty.Contents (Elt F)) :
    (StableHlo.TRef.of (sig := sig) (T := ⟨S1600000, .i32⟩) main_v1 p q r).ofBuf (Val := Elt F) v = v := rfl
theorem ofBuf_main_v3 (p q r) (v : (main_v3 : Ref sig .tc).ty.Contents (Elt F)) :
    (StableHlo.TRef.of (sig := sig) (T := ⟨S1600000, .i32⟩) main_v3 p q r).ofBuf (Val := Elt F) v = v := rfl
theorem ofBuf_main_v4 (p q r) (v : (main_v4 : Ref sig .tc).ty.Contents (Elt F)) :
    (StableHlo.TRef.of (sig := sig) (T := ⟨S100000x32, .f32⟩) main_v4 p q r).ofBuf (Val := Elt F) v = v := rfl
theorem ofBuf_main_v12 (p q r) (v : (main_v12 : Ref sig .tc).ty.Contents (Elt F)) :
    (StableHlo.TRef.of (sig := sig) (T := ⟨S100000x32, .f32⟩) main_v12 p q r).ofBuf (Val := Elt F) v = v := rfl
theorem toBuf_main_v6 (p q r) (v : FVec F S1600000x32 .f32) :
    (StableHlo.TRef.of (sig := sig) (T := ⟨S1600000x32, .f32⟩) main_v6 p q r).toBuf (Val := Elt F) v = v := rfl
theorem toBuf_main_v7 (p q r) (v : FVec F S1600000x32 .f32) :
    (StableHlo.TRef.of (sig := sig) (T := ⟨S1600000x32, .f32⟩) main_v7 p q r).toBuf (Val := Elt F) v = v := rfl
theorem toBuf_main_v13 (p q r) (v : FVec F S1600000x32 .f32) :
    (StableHlo.TRef.of (sig := sig) (T := ⟨S1600000x32, .f32⟩) main_v13 p q r).toBuf (Val := Elt F) v = v := rfl
theorem toBuf_main_v14 (p q r) (v : FVec F S1600000x32 .f32) :
    (StableHlo.TRef.of (sig := sig) (T := ⟨S1600000x32, .f32⟩) main_v14 p q r).toBuf (Val := Elt F) v = v := rfl

/-! ## The stretches

Each gather stretch is stated once over arbitrary boundary contents, then read at the run's boundaries. -/

/-- The gather with fill of the first round, the node table gathered at the edges' source numbers, from any contents `V` whose numbers
    there are node numbers: its result is the plain row gather of the table it reads. -/
theorem take_call0 (V : Valuation τ sig (Elt F)) (h : InRange (V (Proc.devRef .tc main_v1))) :
    StableHlo.after hostOps2 V (Proc.devRef .tc main_v6) = takeRows (V (Proc.devRef .tc main_v4)) (V (Proc.devRef .tc main_v1)) := by
  after_results_simp
  simp only [ofBuf_toBuf]
  simp only [ofBuf_main_v1, ofBuf_main_v4, toBuf_main_v6]
  exact takeFill_eq (F := F) (V (Proc.devRef .tc main_v4)) (V (Proc.devRef .tc main_v1)) h

/-- The gather with fill of the first round, the node table gathered at the edges' target numbers, from any contents `V` whose numbers
    there are node numbers: its result is the plain row gather of the table it reads. -/
theorem take_call1 (V : Valuation τ sig (Elt F)) (h : InRange (V (Proc.devRef .tc main_v3))) :
    StableHlo.after hostOps2_1 V (Proc.devRef .tc main_v7) = takeRows (V (Proc.devRef .tc main_v4)) (V (Proc.devRef .tc main_v3)) := by
  after_results_simp
  simp only [ofBuf_toBuf]
  simp only [ofBuf_main_v3, ofBuf_main_v4, toBuf_main_v7]
  exact takeFill_eq (F := F) (V (Proc.devRef .tc main_v4)) (V (Proc.devRef .tc main_v3)) h

/-- The gather with fill of the second round, the updated node table gathered at the edges' source numbers, from any contents `V` whose numbers
    there are node numbers: its result is the plain row gather of the table it reads. -/
theorem take_call2 (V : Valuation τ sig (Elt F)) (h : InRange (V (Proc.devRef .tc main_v1))) :
    StableHlo.after hostOps4 V (Proc.devRef .tc main_v13) = takeRows (V (Proc.devRef .tc main_v12)) (V (Proc.devRef .tc main_v1)) := by
  after_results_simp
  simp only [ofBuf_toBuf]
  simp only [ofBuf_main_v1, ofBuf_main_v12, toBuf_main_v13]
  exact takeFill_eq (F := F) (V (Proc.devRef .tc main_v12)) (V (Proc.devRef .tc main_v1)) h

/-- The gather with fill of the second round, the updated node table gathered at the edges' target numbers, from any contents `V` whose numbers
    there are node numbers: its result is the plain row gather of the table it reads. -/
theorem take_call3 (V : Valuation τ sig (Elt F)) (h : InRange (V (Proc.devRef .tc main_v3))) :
    StableHlo.after hostOps4_1 V (Proc.devRef .tc main_v14) = takeRows (V (Proc.devRef .tc main_v12)) (V (Proc.devRef .tc main_v3)) := by
  after_results_simp
  simp only [ofBuf_toBuf]
  simp only [ofBuf_main_v3, ofBuf_main_v12, toBuf_main_v14]
  exact takeFill_eq (F := F) (V (Proc.devRef .tc main_v12)) (V (Proc.devRef .tc main_v3)) h

variable (m : (ℓ : Loc nD τ sig) → Buf (Elt F) ℓ) (ρ : Dev nD → PrngReg)

/-- Row 0 of the edge list, after the first stretch. -/
theorem src_at1 (c : Dev nD) : W1 m ρ c (Proc.devRef .tc main_v1) = srcOf (m ((c : Thread nD τ).loc main_arg2)) := by
  show StableHlo.after hostOps0 (W0 m ρ c) (Proc.devRef .tc main_v1) = _
  after_results
  rfl

/-- Row 1 of the edge list, after the first stretch. -/
theorem dst_at1 (c : Dev nD) : W1 m ρ c (Proc.devRef .tc main_v3) = dstOf (m ((c : Thread nD τ).loc main_arg2)) := by
  show StableHlo.after hostOps0 (W0 m ρ c) (Proc.devRef .tc main_v3) = _
  after_results
  rfl

/-- The fill of the out-of-range rows never fires on numbers in range: the gather with fill is the plain row gather. -/
theorem take_v6 (c : Dev nD) (h : InRange (W3 m ρ c (Proc.devRef .tc main_v1))) :
    W4 m ρ c (Proc.devRef .tc main_v6) = takeRows (W3 m ρ c (Proc.devRef .tc main_v4)) (W3 m ρ c (Proc.devRef .tc main_v1)) :=
  take_call0 (W3 m ρ c) h

theorem take_v7 (c : Dev nD) (h : InRange (W4 m ρ c (Proc.devRef .tc main_v3))) :
    W5 m ρ c (Proc.devRef .tc main_v7) = takeRows (W4 m ρ c (Proc.devRef .tc main_v4)) (W4 m ρ c (Proc.devRef .tc main_v3)) :=
  take_call1 (W4 m ρ c) h

/-- The first round's messages summed into their target rows. -/
theorem seg_v11 (c : Dev nD) : W7 m ρ c (Proc.devRef .tc main_v11) = segSum (W6 m ρ c (Proc.devRef .tc main_v8_1)) (W6 m ρ c (Proc.devRef .tc main_v3)) := by
  show StableHlo.after hostOps3 (W6 m ρ c) (Proc.devRef .tc main_v11) = _
  after_results
  rfl

theorem take_v13 (c : Dev nD) (h : InRange (W8 m ρ c (Proc.devRef .tc main_v1))) :
    W9 m ρ c (Proc.devRef .tc main_v13) = takeRows (W8 m ρ c (Proc.devRef .tc main_v12)) (W8 m ρ c (Proc.devRef .tc main_v1)) :=
  take_call2 (W8 m ρ c) h

theorem take_v14 (c : Dev nD) (h : InRange (W9 m ρ c (Proc.devRef .tc main_v3))) :
    W10 m ρ c (Proc.devRef .tc main_v14) = takeRows (W9 m ρ c (Proc.devRef .tc main_v12)) (W9 m ρ c (Proc.devRef .tc main_v3)) :=
  take_call3 (W9 m ρ c) h

/-- The second round's messages summed into their target rows. -/
theorem seg_v18 (c : Dev nD) : W12 m ρ c (Proc.devRef .tc main_v18) = segSum (W11 m ρ c (Proc.devRef .tc main_v15_1)) (W11 m ρ c (Proc.devRef .tc main_v3)) := by
  show StableHlo.after hostOps5 (W11 m ρ c) (Proc.devRef .tc main_v18) = _
  after_results
  rfl

end Cert.KernelIdeal.HostSteps

end
-- ==== Proof.Traces.lean ====
import proofs.«410628_j75788992905488_1_alg».proof.Proof.Gen.KernelIdeal.Frame

/-!
# Buffers that nothing writes between two boundaries keep their contents

A Pallas call changes only its output windows' arrays, and a stretch of host operations only the buffers its operations
write. So an argument array holds its launch contents at every boundary, and an intermediate array holds, where it is
read, what its producer left.

The plan. Each stretch of host operations is a straight line of single-result operations, so the set of buffers it
writes is the list of those results; a buffer outside the list is the same before and after the stretch. A call's exit
differs from its entry only at the call's window arrays, and at an input window's array not even there. Every lemma
below is a walk back from a boundary, one segment at a time, by these three kinds of step.
-/

set_option maxRecDepth 16384

noncomputable section

namespace Cert.KernelIdeal.Traces

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-! ## What each stretch of host operations writes

Every host operation has one result; a stretch writes exactly its operations' results, listed here in program order. -/

/-- The first stretch splits the edge list: row 0 sliced and flattened (the senders), row 1 likewise (the receivers). -/
abbrev wrSplit : List (Ref sig .tc) := [main_v0, main_v1, main_v2, main_v3]

/-- Round 1, the gather of node rows at the senders: index clamping, the gather, the out-of-range mask, the select. -/
abbrev wrGather1a : List (Ref sig .tc) :=
  [main_call0_c, main_call0_v0, main_call0_v1, main_call0_c_0, main_call0_v2, main_call0_v3, main_call0_v4,
   main_call0_v5, main_call0_c_1, main_call0_c_2, main_call0_v6, main_call0_v7, main_call0_v8, main_call0_v9,
   main_call0_v10, main_call0_v11, main_call0_c_3, main_call0_v12, main_call0_v13, main_call0_v14, main_call0_cst,
   main_call0_v15, main_v6]

/-- Round 1, the same gather at the receivers. -/
abbrev wrGather1b : List (Ref sig .tc) :=
  [main_call1_c, main_call1_v0, main_call1_v1, main_call1_c_0, main_call1_v2, main_call1_v3, main_call1_v4,
   main_call1_v5, main_call1_c_1, main_call1_c_2, main_call1_v6, main_call1_v7, main_call1_v8, main_call1_v9,
   main_call1_v10, main_call1_v11, main_call1_c_3, main_call1_v12, main_call1_v13, main_call1_v14, main_call1_cst,
   main_call1_v15, main_v7]

/-- Round 1, the segment sum of the messages over the receivers: a zero table, the index column, the scatter-add. -/
abbrev wrScatter1 : List (Ref sig .tc) := [main_cst, main_v9, main_v10, main_v11]

/-- Round 2, the gather at the senders. -/
abbrev wrGather2a : List (Ref sig .tc) :=
  [main_call2_c, main_call2_v0, main_call2_v1, main_call2_c_0, main_call2_v2, main_call2_v3, main_call2_v4,
   main_call2_v5, main_call2_c_1, main_call2_c_2, main_call2_v6, main_call2_v7, main_call2_v8, main_call2_v9,
   main_call2_v10, main_call2_v11, main_call2_c_3, main_call2_v12, main_call2_v13, main_call2_v14, main_call2_cst,
   main_call2_v15, main_v13]

/-- Round 2, the gather at the receivers. -/
abbrev wrGather2b : List (Ref sig .tc) :=
  [main_call3_c, main_call3_v0, main_call3_v1, main_call3_c_0, main_call3_v2, main_call3_v3, main_call3_v4,
   main_call3_v5, main_call3_c_1, main_call3_c_2, main_call3_v6, main_call3_v7, main_call3_v8, main_call3_v9,
   main_call3_v10, main_call3_v11, main_call3_c_3, main_call3_v12, main_call3_v13, main_call3_v14, main_call3_cst,
   main_call3_v15, main_v14]

/-- Round 2, the segment sum. -/
abbrev wrScatter2 : List (Ref sig .tc) := [main_cst_0, main_v16, main_v17, main_v18]

/-- A single written buffer that a list names lies in the list's image among the device's buffers. -/
theorem sing_sub {y : Ref sig .tc} {L : List (Ref sig .tc)} (hy : y ∈ L) :
    ({Proc.devRef (τ := τ) .tc y} : Finset (DevRef τ sig)) ⊆ (L.map (Proc.devRef (τ := τ) .tc)).toFinset :=
  Finset.singleton_subset_iff.mpr (List.mem_toFinset.mpr (List.mem_map.mpr ⟨y, hy, rfl⟩))

/-- Every operation of the named stretch writes inside the stated list: the stretch is opened into its operations,
    each operation's written set is the singleton of its result, and the result is looked up in the list. -/
local macro "host_writes " l:ident : tactic => `(tactic| (
  simp only [$l:ident, List.Forall, StableHlo.nullary_writes, StableHlo.unary_writes, StableHlo.binary_writes,
    StableHlo.ternary_writes, StableHlo.reshape_writes]
  repeat' apply And.intro
  all_goals exact sing_sub (by decide)))

/-! ## One segment at a time -/

section Steps

variable (c : Dev nD)

/-! ### Across a stretch of host operations, at a buffer outside what it writes -/

theorem W1_keep {b : Ref sig .tc} (hb : b ∉ wrSplit) :
    W1 m ρ c (Proc.devRef .tc b) = W0 m ρ c (Proc.devRef .tc b) :=
  StableHlo.after_of_writes_sub (W := wrSplit) hostOps0 (W0 m ρ c) (by host_writes hostOps0) hb

theorem W4_keep {b : Ref sig .tc} (hb : b ∉ wrGather1a) :
    W4 m ρ c (Proc.devRef .tc b) = W3 m ρ c (Proc.devRef .tc b) :=
  StableHlo.after_of_writes_sub (W := wrGather1a) hostOps2 (W3 m ρ c) (by host_writes hostOps2) hb

theorem W5_keep {b : Ref sig .tc} (hb : b ∉ wrGather1b) :
    W5 m ρ c (Proc.devRef .tc b) = W4 m ρ c (Proc.devRef .tc b) :=
  StableHlo.after_of_writes_sub (W := wrGather1b) hostOps2_1 (W4 m ρ c) (by host_writes hostOps2_1) hb

theorem W7_keep {b : Ref sig .tc} (hb : b ∉ wrScatter1) :
    W7 m ρ c (Proc.devRef .tc b) = W6 m ρ c (Proc.devRef .tc b) :=
  StableHlo.after_of_writes_sub (W := wrScatter1) hostOps3 (W6 m ρ c) (by host_writes hostOps3) hb

theorem W9_keep {b : Ref sig .tc} (hb : b ∉ wrGather2a) :
    W9 m ρ c (Proc.devRef .tc b) = W8 m ρ c (Proc.devRef .tc b) :=
  StableHlo.after_of_writes_sub (W := wrGather2a) hostOps4 (W8 m ρ c) (by host_writes hostOps4) hb

theorem W10_keep {b : Ref sig .tc} (hb : b ∉ wrGather2b) :
    W10 m ρ c (Proc.devRef .tc b) = W9 m ρ c (Proc.devRef .tc b) :=
  StableHlo.after_of_writes_sub (W := wrGather2b) hostOps4_1 (W9 m ρ c) (by host_writes hostOps4_1) hb

theorem W12_keep {b : Ref sig .tc} (hb : b ∉ wrScatter2) :
    W12 m ρ c (Proc.devRef .tc b) = W11 m ρ c (Proc.devRef .tc b) :=
  StableHlo.after_of_writes_sub (W := wrScatter2) hostOps5 (W11 m ρ c) (by host_writes hostOps5) hb

/-! ### Across a call, at the array of one of its input windows

The exit contents of a window's array are the entry contents with the write-backs folded in; an input window has no
write-backs. -/

/-- The first edge-update call reads its weights. -/
theorem W6_read (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))

/-- The first node-update call reads its weights. -/
theorem W8_read (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hin _).trans (A_eq3 (V7 m ρ) c w))

/-! ### Several segments at once

`Clear k b`: from the launch to boundary `k` no host operation writes `b` and no call has it among its arrays. -/

abbrev Clear1 (b : Ref sig .tc) : Prop := b ∉ wrSplit
abbrev Clear2 (b : Ref sig .tc) : Prop := Clear1 b ∧ ∀ w, Pipeline.arrRef spec0 w ≠ b
abbrev Clear3 (b : Ref sig .tc) : Prop := Clear2 b ∧ ∀ w, Pipeline.arrRef spec1 w ≠ b
abbrev Clear5 (b : Ref sig .tc) : Prop := Clear3 b ∧ b ∉ wrGather1a ∧ b ∉ wrGather1b
abbrev Clear7 (b : Ref sig .tc) : Prop := Clear5 b ∧ (∀ w, Pipeline.arrRef spec2 w ≠ b) ∧ b ∉ wrScatter1
abbrev Clear13 (b : Ref sig .tc) : Prop :=
  Clear7 b ∧ (∀ w, Pipeline.arrRef spec3 w ≠ b) ∧ b ∉ wrGather2a ∧ b ∉ wrGather2b ∧
    (∀ w, Pipeline.arrRef spec4 w ≠ b) ∧ b ∉ wrScatter2 ∧ ∀ w, Pipeline.arrRef spec5 w ≠ b

theorem launch_of_clear1 {b : Ref sig .tc} (h : Clear1 b) :
    W1 m ρ c (Proc.devRef .tc b) = m ((c : Thread nD τ).loc b) :=
  (W1_keep m ρ c h).trans rfl

theorem launch_of_clear2 {b : Ref sig .tc} (h : Clear2 b) :
    W2 m ρ c (Proc.devRef .tc b) = m ((c : Thread nD τ).loc b) :=
  (W2_of_ne m ρ c b h.2).trans (launch_of_clear1 m ρ c h.1)

theorem launch_of_clear3 {b : Ref sig .tc} (h : Clear3 b) :
    W3 m ρ c (Proc.devRef .tc b) = m ((c : Thread nD τ).loc b) :=
  (W3_of_ne m ρ c b h.2).trans (launch_of_clear2 m ρ c h.1)

theorem launch_of_clear5 {b : Ref sig .tc} (h : Clear5 b) :
    W5 m ρ c (Proc.devRef .tc b) = m ((c : Thread nD τ).loc b) :=
  (W5_keep m ρ c h.2.2).trans ((W4_keep m ρ c h.2.1).trans (launch_of_clear3 m ρ c h.1))

theorem launch_of_clear7 {b : Ref sig .tc} (h : Clear7 b) :
    W7 m ρ c (Proc.devRef .tc b) = m ((c : Thread nD τ).loc b) :=
  (W7_keep m ρ c h.2.2).trans ((W6_of_ne m ρ c b h.2.1).trans (launch_of_clear5 m ρ c h.1))

/-- From the second edge-update call's entry back to the first one's exit: two gathers, a call, a segment sum. -/
theorem W10_to_W6 {b : Ref sig .tc} (hb : b ∉ wrGather2b) (ha : b ∉ wrGather2a)
    (hn : ∀ w, Pipeline.arrRef spec3 w ≠ b) (hs : b ∉ wrScatter1) :
    W10 m ρ c (Proc.devRef .tc b) = W6 m ρ c (Proc.devRef .tc b) :=
  (W10_keep m ρ c hb).trans ((W9_keep m ρ c ha).trans ((W8_of_ne m ρ c b hn).trans (W7_keep m ρ c hs)))

/-- From the second node-update call's entry back to the first one's exit: a segment sum, a call, two gathers. -/
theorem W12_to_W8 {b : Ref sig .tc} (hs : b ∉ wrScatter2) (hn : ∀ w, Pipeline.arrRef spec4 w ≠ b)
    (hb : b ∉ wrGather2b) (ha : b ∉ wrGather2a) :
    W12 m ρ c (Proc.devRef .tc b) = W8 m ρ c (Proc.devRef .tc b) :=
  (W12_keep m ρ c hs).trans ((W11_of_ne m ρ c b hn).trans ((W10_keep m ρ c hb).trans (W9_keep m ρ c ha)))

theorem launch_of_clear13 {b : Ref sig .tc} : Clear13 b →
    W13 m ρ c (Proc.devRef .tc b) = m ((c : Thread nD τ).loc b)
  | ⟨h7, n3, ha, hb, n4, hs, n5⟩ =>
    (W13_of_ne m ρ c b n5).trans ((W12_to_W8 m ρ c hs n4 hb ha).trans
      ((W8_of_ne m ρ c b n3).trans (launch_of_clear7 m ρ c h7)))

end Steps

/-! ## The argument arrays, at the entry of the call that reads them -/

theorem arg0_at1 (c : Dev nD) : W1 m ρ c (Proc.devRef .tc main_arg0) = m ((c : Thread nD τ).loc main_arg0) :=
  launch_of_clear1 m ρ c (by decide)
theorem arg3_at1 (c : Dev nD) : W1 m ρ c (Proc.devRef .tc main_arg3) = m ((c : Thread nD τ).loc main_arg3) :=
  launch_of_clear1 m ρ c (by decide)
theorem arg4_at1 (c : Dev nD) : W1 m ρ c (Proc.devRef .tc main_arg4) = m ((c : Thread nD τ).loc main_arg4) :=
  launch_of_clear1 m ρ c (by decide)
theorem arg1_at2 (c : Dev nD) : W2 m ρ c (Proc.devRef .tc main_arg1) = m ((c : Thread nD τ).loc main_arg1) :=
  launch_of_clear2 m ρ c (by decide)
theorem arg5_at2 (c : Dev nD) : W2 m ρ c (Proc.devRef .tc main_arg5) = m ((c : Thread nD τ).loc main_arg5) :=
  launch_of_clear2 m ρ c (by decide)
theorem arg6_at2 (c : Dev nD) : W2 m ρ c (Proc.devRef .tc main_arg6) = m ((c : Thread nD τ).loc main_arg6) :=
  launch_of_clear2 m ρ c (by decide)
theorem arg7_at2 (c : Dev nD) : W2 m ρ c (Proc.devRef .tc main_arg7) = m ((c : Thread nD τ).loc main_arg7) :=
  launch_of_clear2 m ρ c (by decide)
theorem arg8_at2 (c : Dev nD) : W2 m ρ c (Proc.devRef .tc main_arg8) = m ((c : Thread nD τ).loc main_arg8) :=
  launch_of_clear2 m ρ c (by decide)
theorem arg9_at5 (c : Dev nD) : W5 m ρ c (Proc.devRef .tc main_arg9) = m ((c : Thread nD τ).loc main_arg9) :=
  launch_of_clear5 m ρ c (by decide)
theorem arg10_at5 (c : Dev nD) : W5 m ρ c (Proc.devRef .tc main_arg10) = m ((c : Thread nD τ).loc main_arg10) :=
  launch_of_clear5 m ρ c (by decide)
theorem arg11_at5 (c : Dev nD) : W5 m ρ c (Proc.devRef .tc main_arg11) = m ((c : Thread nD τ).loc main_arg11) :=
  launch_of_clear5 m ρ c (by decide)
theorem arg12_at5 (c : Dev nD) : W5 m ρ c (Proc.devRef .tc main_arg12) = m ((c : Thread nD τ).loc main_arg12) :=
  launch_of_clear5 m ρ c (by decide)
theorem arg13_at5 (c : Dev nD) : W5 m ρ c (Proc.devRef .tc main_arg13) = m ((c : Thread nD τ).loc main_arg13) :=
  launch_of_clear5 m ρ c (by decide)
theorem arg14_at5 (c : Dev nD) : W5 m ρ c (Proc.devRef .tc main_arg14) = m ((c : Thread nD τ).loc main_arg14) :=
  launch_of_clear5 m ρ c (by decide)
theorem arg15_at7 (c : Dev nD) : W7 m ρ c (Proc.devRef .tc main_arg15) = m ((c : Thread nD τ).loc main_arg15) :=
  launch_of_clear7 m ρ c (by decide)
theorem arg16_at7 (c : Dev nD) : W7 m ρ c (Proc.devRef .tc main_arg16) = m ((c : Thread nD τ).loc main_arg16) :=
  launch_of_clear7 m ρ c (by decide)
theorem arg17_at7 (c : Dev nD) : W7 m ρ c (Proc.devRef .tc main_arg17) = m ((c : Thread nD τ).loc main_arg17) :=
  launch_of_clear7 m ρ c (by decide)
theorem arg18_at7 (c : Dev nD) : W7 m ρ c (Proc.devRef .tc main_arg18) = m ((c : Thread nD τ).loc main_arg18) :=
  launch_of_clear7 m ρ c (by decide)

/-! The edge-update weights are windows 3 to 8 of both edge-update calls: at the second call's entry they are what the
    first call found, since the first call only reads them. -/

theorem arg9_at10 (c : Dev nD) : W10 m ρ c (Proc.devRef .tc main_arg9) = m ((c : Thread nD τ).loc main_arg9) :=
  (W10_to_W6 m ρ c (by decide) (by decide) (by decide) (by decide)).trans
    ((W6_read m ρ c 3 rfl).trans (arg9_at5 m ρ c))
theorem arg10_at10 (c : Dev nD) : W10 m ρ c (Proc.devRef .tc main_arg10) = m ((c : Thread nD τ).loc main_arg10) :=
  (W10_to_W6 m ρ c (by decide) (by decide) (by decide) (by decide)).trans
    ((W6_read m ρ c 4 rfl).trans (arg10_at5 m ρ c))
theorem arg11_at10 (c : Dev nD) : W10 m ρ c (Proc.devRef .tc main_arg11) = m ((c : Thread nD τ).loc main_arg11) :=
  (W10_to_W6 m ρ c (by decide) (by decide) (by decide) (by decide)).trans
    ((W6_read m ρ c 5 rfl).trans (arg11_at5 m ρ c))
theorem arg12_at10 (c : Dev nD) : W10 m ρ c (Proc.devRef .tc main_arg12) = m ((c : Thread nD τ).loc main_arg12) :=
  (W10_to_W6 m ρ c (by decide) (by decide) (by decide) (by decide)).trans
    ((W6_read m ρ c 6 rfl).trans (arg12_at5 m ρ c))
theorem arg13_at10 (c : Dev nD) : W10 m ρ c (Proc.devRef .tc main_arg13) = m ((c : Thread nD τ).loc main_arg13) :=
  (W10_to_W6 m ρ c (by decide) (by decide) (by decide) (by decide)).trans
    ((W6_read m ρ c 7 rfl).trans (arg13_at5 m ρ c))
theorem arg14_at10 (c : Dev nD) : W10 m ρ c (Proc.devRef .tc main_arg14) = m ((c : Thread nD τ).loc main_arg14) :=
  (W10_to_W6 m ρ c (by decide) (by decide) (by decide) (by decide)).trans
    ((W6_read m ρ c 8 rfl).trans (arg14_at5 m ρ c))

/-! The node-update weights are windows 2 to 5 of both node-update calls. -/

theorem arg15_at12 (c : Dev nD) : W12 m ρ c (Proc.devRef .tc main_arg15) = m ((c : Thread nD τ).loc main_arg15) :=
  (W12_to_W8 m ρ c (by decide) (by decide) (by decide) (by decide)).trans
    ((W8_read m ρ c 2 rfl).trans (arg15_at7 m ρ c))
theorem arg16_at12 (c : Dev nD) : W12 m ρ c (Proc.devRef .tc main_arg16) = m ((c : Thread nD τ).loc main_arg16) :=
  (W12_to_W8 m ρ c (by decide) (by decide) (by decide) (by decide)).trans
    ((W8_read m ρ c 3 rfl).trans (arg16_at7 m ρ c))
theorem arg17_at12 (c : Dev nD) : W12 m ρ c (Proc.devRef .tc main_arg17) = m ((c : Thread nD τ).loc main_arg17) :=
  (W12_to_W8 m ρ c (by decide) (by decide) (by decide) (by decide)).trans
    ((W8_read m ρ c 4 rfl).trans (arg17_at7 m ρ c))
theorem arg18_at12 (c : Dev nD) : W12 m ρ c (Proc.devRef .tc main_arg18) = m ((c : Thread nD τ).loc main_arg18) :=
  (W12_to_W8 m ρ c (by decide) (by decide) (by decide) (by decide)).trans
    ((W8_read m ρ c 5 rfl).trans (arg18_at7 m ρ c))

/-! The two readouts' weights: nothing before their calls has them among its arrays. -/

theorem arg19_at13 (c : Dev nD) : W13 m ρ c (Proc.devRef .tc main_arg19) = m ((c : Thread nD τ).loc main_arg19) :=
  launch_of_clear13 m ρ c (by decide)
theorem arg20_at13 (c : Dev nD) : W13 m ρ c (Proc.devRef .tc main_arg20) = m ((c : Thread nD τ).loc main_arg20) :=
  launch_of_clear13 m ρ c (by decide)
theorem arg21_at14 (c : Dev nD) : W14 m ρ c (Proc.devRef .tc main_arg21) = m ((c : Thread nD τ).loc main_arg21) :=
  (W14_of_ne m ρ c main_arg21 (by decide)).trans (launch_of_clear13 m ρ c (by decide))
theorem arg22_at14 (c : Dev nD) : W14 m ρ c (Proc.devRef .tc main_arg22) = m ((c : Thread nD τ).loc main_arg22) :=
  (W14_of_ne m ρ c main_arg22 (by decide)).trans (launch_of_clear13 m ρ c (by decide))

/-! ## The intermediate arrays, from where they are read back to their producer's exit

The senders `main_v1` and the receivers `main_v3` are made by the first stretch and read by every gather and segment
sum after it; the node tables `main_v4`, `main_v12` and the edge tables are made by a call and read a few segments on. -/

theorem v1_at3 (c : Dev nD) : W3 m ρ c (Proc.devRef .tc main_v1) = W1 m ρ c (Proc.devRef .tc main_v1) :=
  (W3_of_ne m ρ c main_v1 (by decide)).trans (W2_of_ne m ρ c main_v1 (by decide))
theorem v1_at8 (c : Dev nD) : W8 m ρ c (Proc.devRef .tc main_v1) = W1 m ρ c (Proc.devRef .tc main_v1) :=
  (W8_of_ne m ρ c main_v1 (by decide)).trans ((W7_keep m ρ c (by decide)).trans
    ((W6_of_ne m ρ c main_v1 (by decide)).trans ((W5_keep m ρ c (by decide)).trans
      ((W4_keep m ρ c (by decide)).trans (v1_at3 m ρ c)))))
theorem v3_at4 (c : Dev nD) : W4 m ρ c (Proc.devRef .tc main_v3) = W1 m ρ c (Proc.devRef .tc main_v3) :=
  (W4_keep m ρ c (by decide)).trans
    ((W3_of_ne m ρ c main_v3 (by decide)).trans (W2_of_ne m ρ c main_v3 (by decide)))
theorem v3_at6 (c : Dev nD) : W6 m ρ c (Proc.devRef .tc main_v3) = W1 m ρ c (Proc.devRef .tc main_v3) :=
  (W6_of_ne m ρ c main_v3 (by decide)).trans ((W5_keep m ρ c (by decide)).trans (v3_at4 m ρ c))
theorem v3_at9 (c : Dev nD) : W9 m ρ c (Proc.devRef .tc main_v3) = W1 m ρ c (Proc.devRef .tc main_v3) :=
  (W9_keep m ρ c (by decide)).trans ((W8_of_ne m ρ c main_v3 (by decide)).trans
    ((W7_keep m ρ c (by decide)).trans (v3_at6 m ρ c)))
theorem v3_at11 (c : Dev nD) : W11 m ρ c (Proc.devRef .tc main_v3) = W1 m ρ c (Proc.devRef .tc main_v3) :=
  (W11_of_ne m ρ c main_v3 (by decide)).trans ((W10_keep m ρ c (by decide)).trans (v3_at9 m ρ c))
theorem v4_at3 (c : Dev nD) : W3 m ρ c (Proc.devRef .tc main_v4) = W2 m ρ c (Proc.devRef .tc main_v4) :=
  W3_of_ne m ρ c main_v4 (by decide)
theorem v4_at4 (c : Dev nD) : W4 m ρ c (Proc.devRef .tc main_v4) = W2 m ρ c (Proc.devRef .tc main_v4) :=
  (W4_keep m ρ c (by decide)).trans (v4_at3 m ρ c)
theorem v4_at7 (c : Dev nD) : W7 m ρ c (Proc.devRef .tc main_v4) = W2 m ρ c (Proc.devRef .tc main_v4) :=
  (W7_keep m ρ c (by decide)).trans ((W6_of_ne m ρ c main_v4 (by decide)).trans
    ((W5_keep m ρ c (by decide)).trans (v4_at4 m ρ c)))
theorem v5_at5 (c : Dev nD) : W5 m ρ c (Proc.devRef .tc main_v5) = W3 m ρ c (Proc.devRef .tc main_v5) :=
  (W5_keep m ρ c (by decide)).trans (W4_keep m ρ c (by decide))
theorem v6_at5 (c : Dev nD) : W5 m ρ c (Proc.devRef .tc main_v6) = W4 m ρ c (Proc.devRef .tc main_v6) :=
  W5_keep m ρ c (by decide)
theorem v8_0_at10 (c : Dev nD) : W10 m ρ c (Proc.devRef .tc main_v8_0) = W6 m ρ c (Proc.devRef .tc main_v8_0) :=
  W10_to_W6 m ρ c (by decide) (by decide) (by decide) (by decide)
theorem v12_at9 (c : Dev nD) : W9 m ρ c (Proc.devRef .tc main_v12) = W8 m ρ c (Proc.devRef .tc main_v12) :=
  W9_keep m ρ c (by decide)
theorem v12_at12 (c : Dev nD) : W12 m ρ c (Proc.devRef .tc main_v12) = W8 m ρ c (Proc.devRef .tc main_v12) :=
  W12_to_W8 m ρ c (by decide) (by decide) (by decide) (by decide)
theorem v13_at10 (c : Dev nD) : W10 m ρ c (Proc.devRef .tc main_v13) = W9 m ρ c (Proc.devRef .tc main_v13) :=
  W10_keep m ρ c (by decide)
theorem v15_0_at14 (c : Dev nD) : W14 m ρ c (Proc.devRef .tc main_v15_0) = W11 m ρ c (Proc.devRef .tc main_v15_0) :=
  (W14_of_ne m ρ c main_v15_0 (by decide)).trans
    ((W13_of_ne m ρ c main_v15_0 (by decide)).trans (W12_keep m ρ c (by decide)))
theorem v20_at15 (c : Dev nD) : W15 m ρ c (Proc.devRef .tc main_v20) = W14 m ρ c (Proc.devRef .tc main_v20) :=
  W15_of_ne m ρ c main_v20 (by decide)

end Cert.KernelIdeal.Traces

end
-- ==== Proof.KernelChain.lean ====
import proofs.«410628_j75788992905488_1_alg».proof.Proof.Region0
import proofs.«410628_j75788992905488_1_alg».proof.Proof.Region1
import proofs.«410628_j75788992905488_1_alg».proof.Proof.Region2
import proofs.«410628_j75788992905488_1_alg».proof.Proof.Region3
import proofs.«410628_j75788992905488_1_alg».proof.Proof.Region4
import proofs.«410628_j75788992905488_1_alg».proof.Proof.Region5
import proofs.«410628_j75788992905488_1_alg».proof.Proof.Region6
import proofs.«410628_j75788992905488_1_alg».proof.Proof.Region7
import proofs.«410628_j75788992905488_1_alg».proof.Proof.HostSteps
import proofs.«410628_j75788992905488_1_alg».proof.Proof.Traces

/-!
# The kernel program's two results are the network's outputs of its arguments

Walking the run's boundaries in order: each Pallas call's output array is its stage of the arrays it found, each host
stretch's result is its operation of the buffers it read, and a buffer nothing wrote in between is what its producer
left. So every intermediate array is the corresponding stage of `Spec` of the argument arrays, and the two result
arrays are `outNodes` and `outEdges`. The range hypotheses say both rows of the edge list hold node numbers: under
them the gather with its out-of-range fill is the plain row gather.
-/

set_option maxRecDepth 16384

noncomputable section

namespace Cert.KernelIdeal.Chain

open Cert.KernelIdeal Cert.KernelIdeal.Gen Cert.KernelIdeal.HostFns Cert.KernelIdeal.HostSteps Cert.KernelIdeal.Traces
open Cert.KernelIdeal.RegionVal Cert.LibDense Cert.Spec
open Idealize.ShloMosaic Idealize.ShloMosaic.TcCoe Idealize.SL.Sem

variable (m : (ℓ : Loc nD τ sig) → Buf (Elt Ideal) ℓ) (ρ : Dev nD → PrngReg)

/-- The gather and the segment sum the kernel's program uses, on the extended reals. -/
abbrev tk := takeRows (F := Ideal)
abbrev sg := segSum (F := Ideal)

/-- The source row of the edge list. -/
theorem val_src (c : Dev nD) : W1 m ρ c (Proc.devRef .tc main_v1) = (inputs m c).src := src_at1 m ρ c

/-- The target row of the edge list. -/
theorem val_dst (c : Dev nD) : W1 m ρ c (Proc.devRef .tc main_v3) = (inputs m c).dst := dst_at1 m ρ c

/-- Call 0 leaves the initial node features. -/
theorem val_v4 (c : Dev nD) : W2 m ρ c (Proc.devRef .tc main_v4) = nf0 (inputs m c) := by
  have h := (W2_arr m ρ c 3).trans (region0_value (V1 m ρ) c)
  rw [show V1 m ρ c main_arg0 = _ from arg0_at1 m ρ c, show V1 m ρ c main_arg3 = _ from arg3_at1 m ρ c,
    show V1 m ρ c main_arg4 = _ from arg4_at1 m ρ c] at h
  exact h

/-- Call 1 leaves the initial edge features. -/
theorem val_v5 (c : Dev nD) : W3 m ρ c (Proc.devRef .tc main_v5) = ef0 (inputs m c) := by
  have h := (W3_arr m ρ c 5).trans (region1_value (V2 m ρ) c)
  rw [show V2 m ρ c main_arg1 = _ from arg1_at2 m ρ c, show V2 m ρ c main_arg5 = _ from arg5_at2 m ρ c,
    show V2 m ρ c main_arg6 = _ from arg6_at2 m ρ c, show V2 m ρ c main_arg7 = _ from arg7_at2 m ρ c,
    show V2 m ρ c main_arg8 = _ from arg8_at2 m ρ c] at h
  exact h

/-- The first gather at the source numbers. -/
theorem val_v6 (c : Dev nD) (hs : InRange (inputs m c).src) :
    W4 m ρ c (Proc.devRef .tc main_v6) = tk (nf0 (inputs m c)) (inputs m c).src := by
  have h1 : W3 m ρ c (Proc.devRef .tc main_v1) = (inputs m c).src := (v1_at3 m ρ c).trans (val_src m ρ c)
  have h4 : W3 m ρ c (Proc.devRef .tc main_v4) = nf0 (inputs m c) := (v4_at3 m ρ c).trans (val_v4 m ρ c)
  have h := take_v6 m ρ c (by rw [h1]; exact hs)
  rw [h1, h4] at h
  exact h

/-- The first gather at the target numbers. -/
theorem val_v7 (c : Dev nD) (hd : InRange (inputs m c).dst) :
    W5 m ρ c (Proc.devRef .tc main_v7) = tk (nf0 (inputs m c)) (inputs m c).dst := by
  have h3 : W4 m ρ c (Proc.devRef .tc main_v3) = (inputs m c).dst := (v3_at4 m ρ c).trans (val_dst m ρ c)
  have h4 : W4 m ρ c (Proc.devRef .tc main_v4) = nf0 (inputs m c) := (v4_at4 m ρ c).trans (val_v4 m ρ c)
  have h := take_v7 m ρ c (by rw [h3]; exact hd)
  rw [h3, h4] at h
  exact h

/-- Call 2's first output: the edge features after the first round. -/
theorem val_v8_0 (c : Dev nD) (hs : InRange (inputs m c).src) (hd : InRange (inputs m c).dst) :
    W6 m ρ c (Proc.devRef .tc main_v8_0) = ef1 tk (inputs m c) := by
  have h := (W6_arr m ρ c 9).trans (region2_ef (V5 m ρ) c)
  rw [show V5 m ρ c main_v6 = _ from (v6_at5 m ρ c).trans (val_v6 m ρ c hs), show V5 m ρ c main_v7 = _ from val_v7 m ρ c hd,
    show V5 m ρ c main_v5 = _ from (v5_at5 m ρ c).trans (val_v5 m ρ c),
    show V5 m ρ c main_arg9 = _ from arg9_at5 m ρ c,
    show V5 m ρ c main_arg10 = _ from arg10_at5 m ρ c,
    show V5 m ρ c main_arg11 = _ from arg11_at5 m ρ c,
    show V5 m ρ c main_arg12 = _ from arg12_at5 m ρ c,
    show V5 m ρ c main_arg13 = _ from arg13_at5 m ρ c,
    show V5 m ρ c main_arg14 = _ from arg14_at5 m ρ c] at h
  exact h

/-- Call 2's second output: the first round's messages. -/
theorem val_v8_1 (c : Dev nD) (hs : InRange (inputs m c).src) (hd : InRange (inputs m c).dst) :
    W6 m ρ c (Proc.devRef .tc main_v8_1) = msg1 tk (inputs m c) := by
  have h := (W6_arr m ρ c 10).trans (region2_msg (V5 m ρ) c)
  rw [show V5 m ρ c main_v6 = _ from (v6_at5 m ρ c).trans (val_v6 m ρ c hs), show V5 m ρ c main_v7 = _ from val_v7 m ρ c hd,
    show V5 m ρ c main_v5 = _ from (v5_at5 m ρ c).trans (val_v5 m ρ c),
    show V5 m ρ c main_arg9 = _ from arg9_at5 m ρ c,
    show V5 m ρ c main_arg10 = _ from arg10_at5 m ρ c,
    show V5 m ρ c main_arg11 = _ from arg11_at5 m ρ c,
    show V5 m ρ c main_arg12 = _ from arg12_at5 m ρ c,
    show V5 m ρ c main_arg13 = _ from arg13_at5 m ρ c,
    show V5 m ρ c main_arg14 = _ from arg14_at5 m ρ c] at h
  exact h

/-- The first round's messages summed into their target rows. -/
theorem val_v11 (c : Dev nD) (hs : InRange (inputs m c).src) (hd : InRange (inputs m c).dst) :
    W7 m ρ c (Proc.devRef .tc main_v11) = sg (msg1 tk (inputs m c)) (inputs m c).dst := by
  have h := seg_v11 m ρ c
  rw [val_v8_1 m ρ c hs hd, (v3_at6 m ρ c).trans (val_dst m ρ c)] at h
  exact h

/-- Call 3 leaves the node features after the first round. -/
theorem val_v12 (c : Dev nD) (hs : InRange (inputs m c).src) (hd : InRange (inputs m c).dst) :
    W8 m ρ c (Proc.devRef .tc main_v12) = nf1 tk sg (inputs m c) := by
  have h := (W8_arr m ρ c 6).trans (region3_value (V7 m ρ) c)
  rw [show V7 m ρ c main_v4 = _ from (v4_at7 m ρ c).trans (val_v4 m ρ c), show V7 m ρ c main_v11 = _ from val_v11 m ρ c hs hd,
    show V7 m ρ c main_arg15 = _ from arg15_at7 m ρ c,
    show V7 m ρ c main_arg16 = _ from arg16_at7 m ρ c,
    show V7 m ρ c main_arg17 = _ from arg17_at7 m ρ c,
    show V7 m ρ c main_arg18 = _ from arg18_at7 m ρ c] at h
  exact h

/-- The second gather at the source numbers. -/
theorem val_v13 (c : Dev nD) (hs : InRange (inputs m c).src) (hd : InRange (inputs m c).dst) :
    W9 m ρ c (Proc.devRef .tc main_v13) = tk (nf1 tk sg (inputs m c)) (inputs m c).src := by
  have h1 : W8 m ρ c (Proc.devRef .tc main_v1) = (inputs m c).src := (v1_at8 m ρ c).trans (val_src m ρ c)
  have h := take_v13 m ρ c (by rw [h1]; exact hs)
  rw [h1, val_v12 m ρ c hs hd] at h
  exact h

/-- The second gather at the target numbers. -/
theorem val_v14 (c : Dev nD) (hs : InRange (inputs m c).src) (hd : InRange (inputs m c).dst) :
    W10 m ρ c (Proc.devRef .tc main_v14) = tk (nf1 tk sg (inputs m c)) (inputs m c).dst := by
  have h3 : W9 m ρ c (Proc.devRef .tc main_v3) = (inputs m c).dst := (v3_at9 m ρ c).trans (val_dst m ρ c)
  have h := take_v14 m ρ c (by rw [h3]; exact hd)
  rw [h3, (v12_at9 m ρ c).trans (val_v12 m ρ c hs hd)] at h
  exact h

/-- Call 4's first output: the edge features after the second round. -/
theorem val_v15_0 (c : Dev nD) (hs : InRange (inputs m c).src) (hd : InRange (inputs m c).dst) :
    W11 m ρ c (Proc.devRef .tc main_v15_0) = ef2 tk sg (inputs m c) := by
  have h := (W11_arr m ρ c 9).trans (region4_ef (V10 m ρ) c)
  rw [show V10 m ρ c main_v13 = _ from (v13_at10 m ρ c).trans (val_v13 m ρ c hs hd), show V10 m ρ c main_v14 = _ from val_v14 m ρ c hs hd,
    show V10 m ρ c main_v8_0 = _ from (v8_0_at10 m ρ c).trans (val_v8_0 m ρ c hs hd),
    show V10 m ρ c main_arg9 = _ from arg9_at10 m ρ c,
    show V10 m ρ c main_arg10 = _ from arg10_at10 m ρ c,
    show V10 m ρ c main_arg11 = _ from arg11_at10 m ρ c,
    show V10 m ρ c main_arg12 = _ from arg12_at10 m ρ c,
    show V10 m ρ c main_arg13 = _ from arg13_at10 m ρ c,
    show V10 m ρ c main_arg14 = _ from arg14_at10 m ρ c] at h
  exact h

/-- Call 4's second output: the second round's messages. -/
theorem val_v15_1 (c : Dev nD) (hs : InRange (inputs m c).src) (hd : InRange (inputs m c).dst) :
    W11 m ρ c (Proc.devRef .tc main_v15_1) = msg2 tk sg (inputs m c) := by
  have h := (W11_arr m ρ c 10).trans (region4_msg (V10 m ρ) c)
  rw [show V10 m ρ c main_v13 = _ from (v13_at10 m ρ c).trans (val_v13 m ρ c hs hd), show V10 m ρ c main_v14 = _ from val_v14 m ρ c hs hd,
    show V10 m ρ c main_v8_0 = _ from (v8_0_at10 m ρ c).trans (val_v8_0 m ρ c hs hd),
    show V10 m ρ c main_arg9 = _ from arg9_at10 m ρ c,
    show V10 m ρ c main_arg10 = _ from arg10_at10 m ρ c,
    show V10 m ρ c main_arg11 = _ from arg11_at10 m ρ c,
    show V10 m ρ c main_arg12 = _ from arg12_at10 m ρ c,
    show V10 m ρ c main_arg13 = _ from arg13_at10 m ρ c,
    show V10 m ρ c main_arg14 = _ from arg14_at10 m ρ c] at h
  exact h

/-- The second round's messages summed into their target rows. -/
theorem val_v18 (c : Dev nD) (hs : InRange (inputs m c).src) (hd : InRange (inputs m c).dst) :
    W12 m ρ c (Proc.devRef .tc main_v18) = sg (msg2 tk sg (inputs m c)) (inputs m c).dst := by
  have h := seg_v18 m ρ c
  rw [val_v15_1 m ρ c hs hd, (v3_at11 m ρ c).trans (val_dst m ρ c)] at h
  exact h

/-- Call 5 leaves the node features after the second round. -/
theorem val_v19 (c : Dev nD) (hs : InRange (inputs m c).src) (hd : InRange (inputs m c).dst) :
    W13 m ρ c (Proc.devRef .tc main_v19) = nf2 tk sg (inputs m c) := by
  have h := (W13_arr m ρ c 6).trans (region5_value (V12 m ρ) c)
  rw [show V12 m ρ c main_v12 = _ from (v12_at12 m ρ c).trans (val_v12 m ρ c hs hd), show V12 m ρ c main_v18 = _ from val_v18 m ρ c hs hd,
    show V12 m ρ c main_arg15 = _ from arg15_at12 m ρ c,
    show V12 m ρ c main_arg16 = _ from arg16_at12 m ρ c,
    show V12 m ρ c main_arg17 = _ from arg17_at12 m ρ c,
    show V12 m ρ c main_arg18 = _ from arg18_at12 m ρ c] at h
  exact h

/-- Call 6 leaves the refined node logits; call 7 does not touch them. -/
theorem val_v20 (c : Dev nD) (hs : InRange (inputs m c).src) (hd : InRange (inputs m c).dst) :
    W15 m ρ c (Proc.devRef .tc main_v20) = outNodes tk sg (inputs m c) := by
  have h := (W14_arr m ρ c 3).trans (region6_value (V13 m ρ) c)
  rw [show V13 m ρ c main_v19 = _ from val_v19 m ρ c hs hd, show V13 m ρ c main_arg19 = _ from arg19_at13 m ρ c,
    show V13 m ρ c main_arg20 = _ from arg20_at13 m ρ c] at h
  exact (v20_at15 m ρ c).trans h

/-- Call 7 leaves the refined edge logits. -/
theorem val_v21 (c : Dev nD) (hs : InRange (inputs m c).src) (hd : InRange (inputs m c).dst) :
    W15 m ρ c (Proc.devRef .tc main_v21) = outEdges tk sg (inputs m c) := by
  have h := (W15_arr m ρ c 3).trans (region7_value (V14 m ρ) c)
  rw [show V14 m ρ c main_v15_0 = _ from (v15_0_at14 m ρ c).trans (val_v15_0 m ρ c hs hd), show V14 m ρ c main_arg21 = _ from arg21_at14 m ρ c,
    show V14 m ρ c main_arg22 = _ from arg22_at14 m ρ c] at h
  exact h

end Cert.KernelIdeal.Chain

end
-- ==== Proof.PreDecode.lean ====
import proofs.«410628_j75788992905488_1_alg».proof.Defs
import proofs.«410628_j75788992905488_1_alg».proof.Proof.Gen.Pre_finite_inputs
import proofs.«410628_j75788992905488_1_alg».proof.Proof.HostFnsK
import Idealize.ShloMosaic.Lib.ReduceAll
import Idealize.ShloMosaic.Lib.StableHlo.Predicate
import Idealize.ShloMosaic.Lib.Pipeline.Value
import Idealize.ShloMosaic.Lib.ValueIdx

/-!
# The precondition's last conjunct: every entry of the edge list is a node number

The precondition is a conjunction; its last conjunct is "every entry `e` of `edge_index` has `0 ≤ e` and `e < 100000`"
(signed compares, reduced by `and` over both axes). A signed word that is non-negative and below 100000 is below 100000
as an unsigned word, and both rows of the edge list are entries of `edge_index`.
-/

noncomputable section

namespace Cert.PreDecode

/-! ## One word -/

section Word

open Idealize.ShloMosaic

/-- A 32-bit word whose signed reading is at least 0 and below 100000 has the same unsigned reading: its top bit is
    clear (otherwise the signed reading would be the unsigned one minus 2³², which is negative), so the two readings
    agree and the bound carries over. -/
theorem word_lt (a : BitVec 32) (h0 : IntOp.cmpi .sge a 0#32 = 1#1) (h1 : IntOp.cmpi .slt a 100000#32 = 1#1) :
    a.toNat < 100000 := by
  rw [IntOp.cmpi_sge] at h0
  rw [IntOp.cmpi_slt] at h1
  have e0 : (0#32 : BitVec 32).toInt = 0 := by decide
  have e1 : (100000#32 : BitVec 32).toInt = 100000 := by decide
  rw [e0] at h0
  rw [e1] at h1
  have hlt : a.toNat < 2 ^ 32 := a.isLt
  rw [BitVec.toInt_eq_toNat_cond] at h0 h1
  by_cases hc : 2 * a.toNat < 2 ^ 32
  · rw [if_pos hc] at h0 h1; omega
  · rw [if_neg hc] at h0 h1; omega

end Word

/-! ## The predicate, read back at the edge list -/

section Predicate

open Cert.Pre_finite_inputs Idealize.ShloMosaic

/-- The scalar shape has one index. -/
instance : Subsingleton S_.Idx := ⟨fun a b => funext fun d => d.elim0⟩

/-- If the printed predicate is 1 then every entry of its third argument, the edge list, is below 100000 as an unsigned
    word. The predicate is an `and` of two bits; the right one is the `and` over all entries `e` of
    "`e ≥ 0` signed" `and` "`e < 100000` signed", the two bounds being broadcast constants. -/
theorem all_lt_of_fn {F : FTy → Type} [FloatOps F] (a0 : FVec F S100000x7 .f32) (a1 : FVec F S1600000x2 .f32) (a2 : IVec S2x1600000 32) (a3 : FVec F S7x32 .f32) (a4 : FVec F S32 .f32) (a5 : FVec F S2x32 .f32) (a6 : FVec F S32 .f32) (a7 : FVec F S32x32 .f32) (a8 : FVec F S32 .f32) (a9 : FVec F S64x32 .f32) (a10 : FVec F S32 .f32) (a11 : FVec F S32x32 .f32) (a12 : FVec F S32 .f32) (a13 : FVec F S32x32 .f32) (a14 : FVec F S32 .f32) (a15 : FVec F S32x32 .f32) (a16 : FVec F S32 .f32) (a17 : FVec F S32x32 .f32) (a18 : FVec F S32 .f32) (a19 : FVec F S32x7 .f32) (a20 : FVec F S7 .f32) (a21 : FVec F S32x2 .f32) (a22 : FVec F S2 .f32)
    (h : Cert.Pre_finite_inputs.fn (F := F) a0 a1 a2 a3 a4 a5 a6 a7 a8 a9 a10 a11 a12 a13 a14 a15 a16 a17 a18 a19 a20 a21 a22 ValueIdx.ix0 = 1#1) :
    ∀ i : S2x1600000.Idx, (a2 i).toNat < 100000 := by
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6] at h
  -- the outermost `and`: keep the conjunct that speaks of the edge list
  have h1 := (IntOp.andi_eq_one.1 h).2
  intro i
  -- an `and` over all entries that is 1 is 1 at each entry
  have h2 := Host.reduce_andi_all _ _ _ _ _ h1 i
  -- at one entry: both compares are 1, against the constants 0 and 100000
  have h3 := IntOp.andi_eq_one.1 h2
  exact word_lt (a2 i) h3.1 h3.2

end Predicate

/-! ## The two rows of the edge list are entries of it -/

section Rows

open Cert.KernelIdeal Cert.KernelIdeal.HostFns Idealize.ShloMosaic Idealize.ShloMosaic.TcCoe Idealize.SL.Sem

/-- Position `q` of the one-row slice, for the position `q` a vector index names. -/
def midIdx (j : S1600000.Idx) : S1x1600000.Idx := fun a => match a with
  | ⟨0, _⟩ => ⟨0, Nat.one_pos⟩
  | ⟨1, _⟩ => ⟨(j 0).val, (j 0).isLt⟩

/-- Entry `(r, q)` of the edge list, for the position `q` a vector index names. -/
def rowIdx (r : Fin 2) (j : S1600000.Idx) : S2x1600000.Idx := fun a => match a with
  | ⟨0, _⟩ => ⟨r.val, r.isLt⟩
  | ⟨1, _⟩ => ⟨(j 0).val, (j 0).isLt⟩

/-- Entry `q` of the source row is entry `(0, q)` of the edge list: the reshape keeps the row-major position
    (`0 · 1600000 + q = q`) and the slice starts at `(0, 0)`. -/
theorem srcOf_apply (ei : IVec S2x1600000 32) (j : S1600000.Idx) : srcOf ei j = ei (rowIdx 0 j) := by
  unfold srcOf
  refine (shapeCast_apply _ _ j (midIdx j) ?_).trans ?_
  · rewrite [Shape.rowMajor_val_two, Shape.rowMajor_val_one]
    show 0 * 1600000 + (j 0).val = (j 0).val
    omega
  · exact extractStridedSlice_apply ![0, 0] ei _ (midIdx j) (rowIdx 0 j) (fun a => match a with
      | ⟨0, _⟩ => by show (0 : Nat) = 0 + 0; rfl
      | ⟨1, _⟩ => by show (j 0).val = 0 + (j 0).val; omega)

/-- Entry `q` of the target row is entry `(1, q)` of the edge list: the same reshape, the slice starting at `(1, 0)`. -/
theorem dstOf_apply (ei : IVec S2x1600000 32) (j : S1600000.Idx) : dstOf ei j = ei (rowIdx 1 j) := by
  unfold dstOf
  refine (shapeCast_apply _ _ j (midIdx j) ?_).trans ?_
  · rewrite [Shape.rowMajor_val_two, Shape.rowMajor_val_one]
    show 0 * 1600000 + (j 0).val = (j 0).val
    omega
  · exact extractStridedSlice_apply ![1, 0] ei _ (midIdx j) (rowIdx 1 j) (fun a => match a with
      | ⟨0, _⟩ => by show (1 : Nat) = 1 + 0; rfl
      | ⟨1, _⟩ => by show (j 0).val = 0 + (j 0).val; omega)

/-- Under the precondition both rows of the edge list hold node numbers. -/
theorem inRange_of_pre (m : (ℓ : Loc nD τ sig) → Buf (Elt Ideal) ℓ) (h : Cert.Pre_KernelIdeal m) (c : Dev nD) :
    InRange (srcOf (m ((c.tc : Thread nD τ).loc main_arg2))) ∧ InRange (dstOf (m ((c.tc : Thread nD τ).loc main_arg2))) := by
  -- the predicate's one word is 1 on this device, so every entry of the edge list is a node number
  have hall := all_lt_of_fn _ _ _ _ _ _ _ _ _ _ _ _ _ _ _ _ _ _ _ _ _ _ _ (congrFun (h c) ValueIdx.ix0)
  exact ⟨fun j => by rw [srcOf_apply]; exact hall _, fun j => by rw [dstOf_apply]; exact hall _⟩

end Rows

end Cert.PreDecode

end
-- ==== Proof.HostFnsR.lean ====
import proofs.«410628_j75788992905488_1_alg».proof.Proof.Gen.ReferenceIdeal
import proofs.«410628_j75788992905488_1_alg».proof.Proof.Spec

/-!
# The host operations around the dense stages, as functions

The two rows of the edge list (`srcOf`, `dstOf`: a slice of `edge_index` reshaped to a vector), the row gather of the
node table at a vector of node numbers with negative numbers wrapped once (`takeRows`), and the sum of the edges'
messages into the rows their target numbers name (`segSum`), each spelled with this program's own printed operations.
`InRange ids` says every number of `ids` is a node number: as an unsigned word it is below 100000.
-/

noncomputable section

namespace Cert.ReferenceIdeal.HostFns

open Cert.ReferenceIdeal Cert.ReferenceIdeal.Facts₀ Cert.ReferenceIdeal.Facts Idealize.ShloMosaic Idealize.ShloMosaic.TcCoe Idealize.SL.Sem

variable {F : FTy → Type} [FloatOps F]

/-- Row 0 of the edge list: the source node of every edge. -/
def srcOf (ei : IVec S2x1600000 32) : IVec S1600000 32 :=
  shapeCast S1600000 (extractStridedSlice S1x1600000 ![0, 0] ei slices_S2x1600000_S1x1600000_0_0) shapeCasts_S1x1600000_S1600000

/-- Row 1 of the edge list: the target node of every edge. -/
def dstOf (ei : IVec S2x1600000 32) : IVec S1600000 32 :=
  shapeCast S1600000 (extractStridedSlice S1x1600000 ![1, 0] ei slices_S2x1600000_S1x1600000_1_0) shapeCasts_S1x1600000_S1600000

/-- Every number is a node number: below 100000 as an unsigned word (so also non-negative as a signed one). -/
def InRange (ids : IVec S1600000 32) : Prop := ∀ j : S1600000.Idx, (ids j).toNat < 100000

/-- The numbers with a negative one wrapped once (`+ 100000`), as the column of start indices the gather takes. -/
def wrapIdx (ids : IVec S1600000 32) : IVec S1600000x1 32 :=
  broadcastInDim S1600000x1 ![0] bcast_S1600000_S1600000x1_0
    (select (cmpi .slt ids (broadcastInDim S1600000 ![] bcast_S_S1600000 (constantI S_ 32 0#32)))
      (addi ids (broadcastInDim S1600000 ![] bcast_S_S1600000 (constantI S_ 32 100000#32))) ids)

/-- Row `ids[e]` of the node table for every edge `e`. -/
def takeRows (nf : FVec F S100000x32 .f32) (ids : IVec S1600000 32) : FVec F S1600000x32 .f32 :=
  Host.gather gather_S100000x32_S1600000x1_S1600000x32_1_0_n_n_0_1_132 nf (wrapIdx ids)

/-- The messages summed into the rows their target numbers name, from the zero table. -/
def segSum (msg : FVec F S1600000x32 .f32) (ids : IVec S1600000 32) : FVec F S100000x32 .f32 :=
  Host.scatterAdd scatter_S100000x32_S1600000x1_S1600000x32_1_0_0_1
    (broadcastInDim S100000x32 ![] bcast_S_S100000x32 (constant (F := F) S_ .f32 0x00000000#32))
    (broadcastInDim S1600000x1 ![0] bcast_S1600000_S1600000x1_0 ids) msg

/-- The program's argument arrays, on the extended reals, as the network's inputs. -/
def inputs (m : (ℓ : Loc nD τ sig) → Buf (Elt Ideal) ℓ) (c : Dev nD) : Cert.Spec.Inputs where
  x0 := m ((c.tc : Thread nD τ).loc main_arg0)
  x1 := m ((c.tc : Thread nD τ).loc main_arg1)
  src := srcOf (m ((c.tc : Thread nD τ).loc main_arg2))
  dst := dstOf (m ((c.tc : Thread nD τ).loc main_arg2))
  nipw := m ((c.tc : Thread nD τ).loc main_arg3)
  nipb := m ((c.tc : Thread nD τ).loc main_arg4)
  emw1 := m ((c.tc : Thread nD τ).loc main_arg5)
  emb1 := m ((c.tc : Thread nD τ).loc main_arg6)
  emw2 := m ((c.tc : Thread nD τ).loc main_arg7)
  emb2 := m ((c.tc : Thread nD τ).loc main_arg8)
  apw := m ((c.tc : Thread nD τ).loc main_arg9)
  apb := m ((c.tc : Thread nD τ).loc main_arg10)
  wv := m ((c.tc : Thread nD τ).loc main_arg11)
  bv := m ((c.tc : Thread nD τ).loc main_arg12)
  wo := m ((c.tc : Thread nD τ).loc main_arg13)
  bo := m ((c.tc : Thread nD τ).loc main_arg14)
  gw1 := m ((c.tc : Thread nD τ).loc main_arg15)
  gb1 := m ((c.tc : Thread nD τ).loc main_arg16)
  gw2 := m ((c.tc : Thread nD τ).loc main_arg17)
  gb2 := m ((c.tc : Thread nD τ).loc main_arg18)
  nchw := m ((c.tc : Thread nD τ).loc main_arg19)
  nchb := m ((c.tc : Thread nD τ).loc main_arg20)
  echw := m ((c.tc : Thread nD τ).loc main_arg21)
  echb := m ((c.tc : Thread nD τ).loc main_arg22)

end Cert.ReferenceIdeal.HostFns

end
-- ==== Proof.RefValue.lean ====
import proofs.«410628_j75788992905488_1_alg».proof.Proof.Gen.ReferenceIdeal.Read
import proofs.«410628_j75788992905488_1_alg».proof.Proof.HostFnsR
import proofs.«410628_j75788992905488_1_alg».proof.Proof.LibDense

/-!
# What the reference computes: the network of `Spec`, stage by stage

The reference's run ends with each result at the composed term of its host operations of the arguments. Read with the
layer lemmas — `dot_general(x, w) + broadcast(b)` is `lin x w b`, `maximum(·, 0)` is `relu`, `concatenate` is `cat` — that
term is the network's stages applied in order, with the reference's own row gather and segment sum.

The file goes in three steps. First each printed layer, at the shapes it is printed at, is the dense layer, the `relu` or
the column join of `LibDense`. Then the three composite stages of a round — the edge update, the message, the node
update — are read off a term of printed layers over arbitrary operands. Last the program's intermediate values, in program
order, are the network's stages of the arguments: every value is one printed stage applied to earlier values.
-/

set_option maxRecDepth 16384

noncomputable section

namespace Cert.ReferenceIdeal.RefValue

open Cert.ReferenceIdeal Cert.ReferenceIdeal.Gen Cert.ReferenceIdeal.HostFns Cert.ReferenceIdeal.Read Idealize.ShloMosaic Idealize.ShloMosaic.TcCoe Idealize.SL.Sem
open Cert.LibDense Cert.Spec

/-! The reference's row gather and segment sum, on the extended reals. -/

local notation "takeI" => takeRows (F := Ideal)
local notation "segI" => segSum (F := Ideal)

/-! ## The printed layers, at their shapes

The seven dense layers (a contraction record each), `relu` on edge rows and on node rows, and the join of two 32-column
edge arrays. The printed contraction record and the plain `[M, K] × [K, N]` contraction have the same fields, so each
statement is the general layer lemma at these sizes. -/

/-- Node logits to node features: `[100000, 7] × [7, 32]`. -/
theorem lin_N7 (x : FVec Ideal S100000x7 .f32) (w : FVec Ideal S7x32 .f32) (b : FVec Ideal S32 .f32) :
    addf (Host.dotGeneral dot_S100000x7_S7x32_S100000x32_1_0_0_1_n_n none x w) (broadcastInDim S100000x32 ![0, 1] bcast_S1x32_S100000x32_0_1 (broadcastInDim S1x32 ![1] bcast_S32_S1x32_1 b))
      = lin (M := 100000) (K := 7) (N := 32) x w b :=
  hostLin_eq 100000 7 32 none _ _ x w b

/-- A 32-to-32 layer on node rows. -/
theorem lin_N32 (x : FVec Ideal S100000x32 .f32) (w : FVec Ideal S32x32 .f32) (b : FVec Ideal S32 .f32) :
    addf (Host.dotGeneral dot_S100000x32_S32x32_S100000x32_1_0_0_1_n_n none x w) (broadcastInDim S100000x32 ![0, 1] bcast_S1x32_S100000x32_0_1 (broadcastInDim S1x32 ![1] bcast_S32_S1x32_1 b))
      = lin (M := 100000) (K := 32) (N := 32) x w b :=
  hostLin_eq 100000 32 32 none _ _ x w b

/-- The node head: `[100000, 32] × [32, 7]`. -/
theorem lin_No (x : FVec Ideal S100000x32 .f32) (w : FVec Ideal S32x7 .f32) (b : FVec Ideal S7 .f32) :
    addf (Host.dotGeneral dot_S100000x32_S32x7_S100000x7_1_0_0_1_n_n none x w) (broadcastInDim S100000x7 ![0, 1] bcast_S1x7_S100000x7_0_1 (broadcastInDim S1x7 ![1] bcast_S7_S1x7_1 b))
      = lin (M := 100000) (K := 32) (N := 7) x w b :=
  hostLin_eq 100000 32 7 none _ _ x w b

/-- Edge logits to hidden features: `[1600000, 2] × [2, 32]`. -/
theorem lin_E2 (x : FVec Ideal S1600000x2 .f32) (w : FVec Ideal S2x32 .f32) (b : FVec Ideal S32 .f32) :
    addf (Host.dotGeneral dot_S1600000x2_S2x32_S1600000x32_1_0_0_1_n_n none x w) (broadcastInDim S1600000x32 ![0, 1] bcast_S1x32_S1600000x32_0_1 (broadcastInDim S1x32 ![1] bcast_S32_S1x32_1 b))
      = lin (M := 1600000) (K := 2) (N := 32) x w b :=
  hostLin_eq 1600000 2 32 none _ _ x w b

/-- A 32-to-32 layer on edge rows. -/
theorem lin_E32 (x : FVec Ideal S1600000x32 .f32) (w : FVec Ideal S32x32 .f32) (b : FVec Ideal S32 .f32) :
    addf (Host.dotGeneral dot_S1600000x32_S32x32_S1600000x32_1_0_0_1_n_n none x w) (broadcastInDim S1600000x32 ![0, 1] bcast_S1x32_S1600000x32_0_1 (broadcastInDim S1x32 ![1] bcast_S32_S1x32_1 b))
      = lin (M := 1600000) (K := 32) (N := 32) x w b :=
  hostLin_eq 1600000 32 32 none _ _ x w b

/-- The 64-to-32 layer on the joined end-point features. -/
theorem lin_E64 (x : FVec Ideal S1600000x64 .f32) (w : FVec Ideal S64x32 .f32) (b : FVec Ideal S32 .f32) :
    addf (Host.dotGeneral dot_S1600000x64_S64x32_S1600000x32_1_0_0_1_n_n none x w) (broadcastInDim S1600000x32 ![0, 1] bcast_S1x32_S1600000x32_0_1 (broadcastInDim S1x32 ![1] bcast_S32_S1x32_1 b))
      = lin (M := 1600000) (K := 64) (N := 32) x w b :=
  hostLin_eq 1600000 64 32 none _ _ x w b

/-- The edge head: `[1600000, 32] × [32, 2]`. -/
theorem lin_Eo (x : FVec Ideal S1600000x32 .f32) (w : FVec Ideal S32x2 .f32) (b : FVec Ideal S2 .f32) :
    addf (Host.dotGeneral dot_S1600000x32_S32x2_S1600000x2_1_0_0_1_n_n none x w) (broadcastInDim S1600000x2 ![0, 1] bcast_S1x2_S1600000x2_0_1 (broadcastInDim S1x2 ![1] bcast_S2_S1x2_1 b))
      = lin (M := 1600000) (K := 32) (N := 2) x w b :=
  hostLin_eq 1600000 32 2 none _ _ x w b

/-- `relu` on edge rows. -/
theorem relu_E (x : FVec Ideal S1600000x32 .f32) : maximumf x (broadcastInDim S1600000x32 ![] bcast_S_S1600000x32 (constant (F := Ideal) S_ .f32 0x00000000#32)) = reluM x :=
  hostRelu_eq _ x

/-- `relu` on node rows. -/
theorem relu_N (x : FVec Ideal S100000x32 .f32) : maximumf x (broadcastInDim S100000x32 ![] bcast_S_S100000x32 (constant (F := Ideal) S_ .f32 0x00000000#32)) = reluM x :=
  hostRelu_eq _ x

/-- Two 32-column edge arrays side by side. -/
theorem cat_E (s d : FVec Ideal S1600000x32 .f32) :
    concatenate S1600000x64 1 [⟨S1600000x32, s⟩, ⟨S1600000x32, d⟩] concatenates_S1600000x32_S1600000x32_S1600000x64_d1
      = cat (M := 1600000) (A := 32) (B := 32) s d :=
  concat_eq 1600000 32 32 _ s d

/-! ## The composite stages, over arbitrary operands -/

/-- The edge network: two layers with a `relu` between. -/
theorem mlp2_host (x : FVec Ideal S1600000x2 .f32) (w₁ : FVec Ideal S2x32 .f32) (b₁ : FVec Ideal S32 .f32)
    (w₂ : FVec Ideal S32x32 .f32) (b₂ : FVec Ideal S32 .f32) :
    addf (Host.dotGeneral dot_S1600000x32_S32x32_S1600000x32_1_0_0_1_n_n none (maximumf (addf (Host.dotGeneral dot_S1600000x2_S2x32_S1600000x32_1_0_0_1_n_n none x w₁) (broadcastInDim S1600000x32 ![0, 1] bcast_S1x32_S1600000x32_0_1 (broadcastInDim S1x32 ![1] bcast_S32_S1x32_1 b₁))) (broadcastInDim S1600000x32 ![] bcast_S_S1600000x32 (constant (F := Ideal) S_ .f32 0x00000000#32))) w₂) (broadcastInDim S1600000x32 ![0, 1] bcast_S1x32_S1600000x32_0_1 (broadcastInDim S1x32 ![1] bcast_S32_S1x32_1 b₂))
      = mlp2 (M := 1600000) (K := 2) x w₁ b₁ w₂ b₂ := by
  rw [lin_E2, relu_E, lin_E32]
  rfl

/-- The edge update of a round: the three attention layers on the joined end-point rows, times the printed factor, added
    to the old edge features, then `relu`. The factor is the same word on both sides and is never evaluated. -/
theorem edgeNew_host (s d ef : FVec Ideal S1600000x32 .f32) (apw : FVec Ideal S64x32 .f32) (apb : FVec Ideal S32 .f32)
    (wv : FVec Ideal S32x32 .f32) (bv : FVec Ideal S32 .f32) (wo : FVec Ideal S32x32 .f32) (bo : FVec Ideal S32 .f32) :
    maximumf (addf ef (mulf (broadcastInDim S1600000x32 ![] bcast_S_S1600000x32 (constant (F := Ideal) S_ .f32 0x3F800000#32))
        (addf (Host.dotGeneral dot_S1600000x32_S32x32_S1600000x32_1_0_0_1_n_n none (addf (Host.dotGeneral dot_S1600000x32_S32x32_S1600000x32_1_0_0_1_n_n none (addf (Host.dotGeneral dot_S1600000x64_S64x32_S1600000x32_1_0_0_1_n_n none (concatenate S1600000x64 1 [⟨S1600000x32, s⟩, ⟨S1600000x32, d⟩] concatenates_S1600000x32_S1600000x32_S1600000x64_d1) apw) (broadcastInDim S1600000x32 ![0, 1] bcast_S1x32_S1600000x32_0_1 (broadcastInDim S1x32 ![1] bcast_S32_S1x32_1 apb))) wv) (broadcastInDim S1600000x32 ![0, 1] bcast_S1x32_S1600000x32_0_1 (broadcastInDim S1x32 ![1] bcast_S32_S1x32_1 bv))) wo) (broadcastInDim S1600000x32 ![0, 1] bcast_S1x32_S1600000x32_0_1 (broadcastInDim S1x32 ![1] bcast_S32_S1x32_1 bo)))))
      (broadcastInDim S1600000x32 ![] bcast_S_S1600000x32 (constant (F := Ideal) S_ .f32 0x00000000#32))
      = edgeNew (M := 1600000) s d ef apw apb wv bv wo bo := by
  rw [cat_E, lin_E64, lin_E32, lin_E32, relu_E]
  funext i
  rfl

/-- A round's message: `relu` of the source row plus the new edge row. -/
theorem edgeMsg_host (s ef' : FVec Ideal S1600000x32 .f32) :
    maximumf (addf s ef') (broadcastInDim S1600000x32 ![] bcast_S_S1600000x32 (constant (F := Ideal) S_ .f32 0x00000000#32)) = edgeMsg (M := 1600000) s ef' := by
  rw [relu_E]
  funext i
  rfl

/-- A round's node update: two layers, each followed by `relu`, on the node features plus the summed messages. -/
theorem nodeUpd_host (nf agg : FVec Ideal S100000x32 .f32) (w₁ : FVec Ideal S32x32 .f32) (b₁ : FVec Ideal S32 .f32)
    (w₂ : FVec Ideal S32x32 .f32) (b₂ : FVec Ideal S32 .f32) :
    maximumf (addf (Host.dotGeneral dot_S100000x32_S32x32_S100000x32_1_0_0_1_n_n none (maximumf (addf (Host.dotGeneral dot_S100000x32_S32x32_S100000x32_1_0_0_1_n_n none (addf nf agg) w₁) (broadcastInDim S100000x32 ![0, 1] bcast_S1x32_S100000x32_0_1 (broadcastInDim S1x32 ![1] bcast_S32_S1x32_1 b₁))) (broadcastInDim S100000x32 ![] bcast_S_S100000x32 (constant (F := Ideal) S_ .f32 0x00000000#32))) w₂) (broadcastInDim S100000x32 ![0, 1] bcast_S1x32_S100000x32_0_1 (broadcastInDim S1x32 ![1] bcast_S32_S1x32_1 b₂))) (broadcastInDim S100000x32 ![] bcast_S_S100000x32 (constant (F := Ideal) S_ .f32 0x00000000#32))
      = nodeUpd (M := 100000) nf agg w₁ b₁ w₂ b₂ := by
  rw [lin_N32, relu_N, lin_N32, relu_N]
  rfl

/-! ## The program's values, in program order

`I` collects the arguments as the network's inputs and `x2` is the edge list, whose two rows are `I.src` and `I.dst`.
Each value below is one printed stage applied to earlier values; the earlier values are replaced by their stages and the
stage lemma closes the step. -/

/-- The initial node features. -/
theorem v7_eq (I : Inputs) : val_main_v7 (F := Ideal) I.x0 I.nipw I.nipb = nf0 I := by
  unfold val_main_v7 val_main_v4 val_main_v6 val_main_v5
  exact lin_N7 I.x0 I.nipw I.nipb

/-- The initial edge features. -/
theorem v16_eq (I : Inputs) : val_main_v16 (F := Ideal) I.x1 I.emw1 I.emb1 I.emw2 I.emb2 = ef0 I := by
  unfold val_main_v16 val_main_v13 val_main_v12 val_main_v11 val_main_v8 val_main_v10 val_main_v9 val_main_v15 val_main_v14 val_main_call0_v0 val_main_call0_cst
  exact mlp2_host I.x1 I.emw1 I.emb1 I.emw2 I.emb2

/-- The source rows of the initial node features (as the edge update reads them). -/
theorem v23_eq (I : Inputs) (x2 : IVec S2x1600000 32) (hs : I.src = srcOf x2) :
    val_main_v23 (F := Ideal) I.x0 x2 I.nipw I.nipb = takeI (nf0 I) I.src := by
  unfold val_main_v23
  rw [v7_eq I, hs]
  rfl

/-- The target rows of the initial node features. -/
theorem v30_eq (I : Inputs) (x2 : IVec S2x1600000 32) (hd : I.dst = dstOf x2) :
    val_main_v30 (F := Ideal) I.x0 x2 I.nipw I.nipb = takeI (nf0 I) I.dst := by
  unfold val_main_v30
  rw [v7_eq I, hd]
  rfl

/-- The edge features after the first round. -/
theorem v47_eq (I : Inputs) (x2 : IVec S2x1600000 32) (hs : I.src = srcOf x2) (hd : I.dst = dstOf x2) :
    val_main_v47 (F := Ideal) I.x0 I.x1 x2 I.nipw I.nipb I.emw1 I.emb1 I.emw2 I.emb2 I.apw I.apb I.wv I.bv I.wo I.bo = ef1 takeI I := by
  unfold val_main_v47 val_main_v46 val_main_v45 val_main_v43 val_main_v40 val_main_v39 val_main_v36 val_main_v35 val_main_v32 val_main_v31
  rw [v16_eq I, v23_eq I x2 hs, v30_eq I x2 hd]
  exact edgeNew_host _ _ _ I.apw I.apb I.wv I.bv I.wo I.bo

/-- The source rows of the initial node features (as the message reads them). -/
theorem v54_eq (I : Inputs) (x2 : IVec S2x1600000 32) (hs : I.src = srcOf x2) :
    val_main_v54 (F := Ideal) I.x0 x2 I.nipw I.nipb = takeI (nf0 I) I.src := by
  unfold val_main_v54
  rw [v7_eq I, hs]
  rfl

/-- The first round's messages. -/
theorem v56_eq (I : Inputs) (x2 : IVec S2x1600000 32) (hs : I.src = srcOf x2) (hd : I.dst = dstOf x2) :
    val_main_v56 (F := Ideal) I.x0 I.x1 x2 I.nipw I.nipb I.emw1 I.emb1 I.emw2 I.emb2 I.apw I.apb I.wv I.bv I.wo I.bo = msg1 takeI I := by
  unfold val_main_v56 val_main_v55
  rw [v54_eq I x2 hs, v47_eq I x2 hs hd]
  exact edgeMsg_host _ _

/-- The first round's messages summed into their target rows. -/
theorem v59_eq (I : Inputs) (x2 : IVec S2x1600000 32) (hs : I.src = srcOf x2) (hd : I.dst = dstOf x2) :
    val_main_v59 (F := Ideal) I.x0 I.x1 x2 I.nipw I.nipb I.emw1 I.emb1 I.emw2 I.emb2 I.apw I.apb I.wv I.bv I.wo I.bo = segI (msg1 takeI I) I.dst := by
  unfold val_main_v59
  rw [v56_eq I x2 hs hd, hd]
  rfl

/-- The node features after the first round. -/
theorem v70_eq (I : Inputs) (x2 : IVec S2x1600000 32) (hs : I.src = srcOf x2) (hd : I.dst = dstOf x2) :
    val_main_v70 (F := Ideal) I.x0 I.x1 x2 I.nipw I.nipb I.emw1 I.emb1 I.emw2 I.emb2 I.apw I.apb I.wv I.bv I.wo I.bo I.gw1 I.gb1 I.gw2 I.gb2 = nf1 takeI segI I := by
  unfold val_main_v70 val_main_v69 val_main_v66 val_main_v65 val_main_v64 val_main_v61 val_main_v60
  rw [v7_eq I, v59_eq I x2 hs hd]
  exact nodeUpd_host _ _ I.gw1 I.gb1 I.gw2 I.gb2

/-- The source rows of the node features after the first round (as the edge update reads them). -/
theorem v77_eq (I : Inputs) (x2 : IVec S2x1600000 32) (hs : I.src = srcOf x2) (hd : I.dst = dstOf x2) :
    val_main_v77 (F := Ideal) I.x0 I.x1 x2 I.nipw I.nipb I.emw1 I.emb1 I.emw2 I.emb2 I.apw I.apb I.wv I.bv I.wo I.bo I.gw1 I.gb1 I.gw2 I.gb2 = takeI (nf1 takeI segI I) I.src := by
  unfold val_main_v77
  rw [v70_eq I x2 hs hd, hs]
  rfl

/-- The target rows of the node features after the first round. -/
theorem v84_eq (I : Inputs) (x2 : IVec S2x1600000 32) (hs : I.src = srcOf x2) (hd : I.dst = dstOf x2) :
    val_main_v84 (F := Ideal) I.x0 I.x1 x2 I.nipw I.nipb I.emw1 I.emb1 I.emw2 I.emb2 I.apw I.apb I.wv I.bv I.wo I.bo I.gw1 I.gb1 I.gw2 I.gb2 = takeI (nf1 takeI segI I) I.dst := by
  unfold val_main_v84
  rw [v70_eq I x2 hs hd, hd]
  rfl

/-- The edge features after the second round. -/
theorem v101_eq (I : Inputs) (x2 : IVec S2x1600000 32) (hs : I.src = srcOf x2) (hd : I.dst = dstOf x2) :
    val_main_v101 (F := Ideal) I.x0 I.x1 x2 I.nipw I.nipb I.emw1 I.emb1 I.emw2 I.emb2 I.apw I.apb I.wv I.bv I.wo I.bo I.gw1 I.gb1 I.gw2 I.gb2 = ef2 takeI segI I := by
  unfold val_main_v101 val_main_v100 val_main_v99 val_main_v97 val_main_v94 val_main_v93 val_main_v90 val_main_v89 val_main_v86 val_main_v85
  rw [v47_eq I x2 hs hd, v77_eq I x2 hs hd, v84_eq I x2 hs hd]
  exact edgeNew_host _ _ _ I.apw I.apb I.wv I.bv I.wo I.bo

/-- The source rows of the node features after the first round (as the message reads them). -/
theorem v108_eq (I : Inputs) (x2 : IVec S2x1600000 32) (hs : I.src = srcOf x2) (hd : I.dst = dstOf x2) :
    val_main_v108 (F := Ideal) I.x0 I.x1 x2 I.nipw I.nipb I.emw1 I.emb1 I.emw2 I.emb2 I.apw I.apb I.wv I.bv I.wo I.bo I.gw1 I.gb1 I.gw2 I.gb2 = takeI (nf1 takeI segI I) I.src := by
  unfold val_main_v108
  rw [v70_eq I x2 hs hd, hs]
  rfl

/-- The second round's messages. -/
theorem v110_eq (I : Inputs) (x2 : IVec S2x1600000 32) (hs : I.src = srcOf x2) (hd : I.dst = dstOf x2) :
    val_main_v110 (F := Ideal) I.x0 I.x1 x2 I.nipw I.nipb I.emw1 I.emb1 I.emw2 I.emb2 I.apw I.apb I.wv I.bv I.wo I.bo I.gw1 I.gb1 I.gw2 I.gb2 = msg2 takeI segI I := by
  unfold val_main_v110 val_main_v109
  rw [v108_eq I x2 hs hd, v101_eq I x2 hs hd]
  exact edgeMsg_host _ _

/-- The second round's messages summed into their target rows. -/
theorem v113_eq (I : Inputs) (x2 : IVec S2x1600000 32) (hs : I.src = srcOf x2) (hd : I.dst = dstOf x2) :
    val_main_v113 (F := Ideal) I.x0 I.x1 x2 I.nipw I.nipb I.emw1 I.emb1 I.emw2 I.emb2 I.apw I.apb I.wv I.bv I.wo I.bo I.gw1 I.gb1 I.gw2 I.gb2 = segI (msg2 takeI segI I) I.dst := by
  unfold val_main_v113
  rw [v110_eq I x2 hs hd, hd]
  rfl

/-- The node features after the second round. -/
theorem v124_eq (I : Inputs) (x2 : IVec S2x1600000 32) (hs : I.src = srcOf x2) (hd : I.dst = dstOf x2) :
    val_main_v124 (F := Ideal) I.x0 I.x1 x2 I.nipw I.nipb I.emw1 I.emb1 I.emw2 I.emb2 I.apw I.apb I.wv I.bv I.wo I.bo I.gw1 I.gb1 I.gw2 I.gb2 = nf2 takeI segI I := by
  unfold val_main_v124 val_main_v123 val_main_v120 val_main_v119 val_main_v118 val_main_v115 val_main_v114
  rw [v70_eq I x2 hs hd, v113_eq I x2 hs hd]
  exact nodeUpd_host _ _ I.gw1 I.gb1 I.gw2 I.gb2

/-- The refined node logits. -/
theorem v128_eq (I : Inputs) (x2 : IVec S2x1600000 32) (hs : I.src = srcOf x2) (hd : I.dst = dstOf x2) :
    val_main_v128 (F := Ideal) I.x0 I.x1 x2 I.nipw I.nipb I.emw1 I.emb1 I.emw2 I.emb2 I.apw I.apb I.wv I.bv I.wo I.bo I.gw1 I.gb1 I.gw2 I.gb2 I.nchw I.nchb = outNodes takeI segI I := by
  unfold val_main_v128 val_main_v125
  rw [v124_eq I x2 hs hd]
  exact lin_No _ I.nchw I.nchb

/-- The refined edge logits. -/
theorem v132_eq (I : Inputs) (x2 : IVec S2x1600000 32) (hs : I.src = srcOf x2) (hd : I.dst = dstOf x2) :
    val_main_v132 (F := Ideal) I.x0 I.x1 x2 I.nipw I.nipb I.emw1 I.emb1 I.emw2 I.emb2 I.apw I.apb I.wv I.bv I.wo I.bo I.gw1 I.gb1 I.gw2 I.gb2 I.echw I.echb = outEdges takeI segI I := by
  unfold val_main_v132 val_main_v129
  rw [v101_eq I x2 hs hd]
  exact lin_Eo _ I.echw I.echb

/-! ## The two results -/

/-- The reference's first result is the refined node logits of its arguments. -/
theorem ref_nodes (m : (ℓ : Loc nD τ sig) → Buf (Elt Ideal) ℓ) (c : Dev nD) :
    Cert.ReferenceIdeal.Value.res_main_v128 (F := Ideal) m c = outNodes (takeRows (F := Ideal)) (segSum (F := Ideal)) (inputs m c) :=
  (val_main_v128_eq (F := Ideal) m c).trans (v128_eq (inputs m c) (m ((c.tc : Thread nD τ).loc main_arg2)) rfl rfl)

/-- The reference's second result is the refined edge logits of its arguments. -/
theorem ref_edges (m : (ℓ : Loc nD τ sig) → Buf (Elt Ideal) ℓ) (c : Dev nD) :
    Cert.ReferenceIdeal.Value.res_main_v132 (F := Ideal) m c = outEdges (takeRows (F := Ideal)) (segSum (F := Ideal)) (inputs m c) :=
  (val_main_v132_eq (F := Ideal) m c).trans (v132_eq (inputs m c) (m ((c.tc : Thread nD τ).loc main_arg2)) rfl rfl)

end Cert.ReferenceIdeal.RefValue

end
-- ==== Proof.HostFnsEq.lean ====
import proofs.«410628_j75788992905488_1_alg».proof.Proof.HostFnsK
import proofs.«410628_j75788992905488_1_alg».proof.Proof.HostFnsR

/-!
# The two programs' host functions are the same functions

Each program prints its own copy of the shapes and of the gather's and scatter's dimension records; the copies have the
same fields, so the functions built from them are equal.
-/

noncomputable section

namespace Cert.HostFnsEq

open Idealize.ShloMosaic

/-! Both sides unfold to the same operations at the same literal shapes, and the evidence arguments are proofs of the
same propositions, so each equality holds by unfolding. -/

theorem srcOf_eq (ei : IVec Cert.KernelIdeal.S2x1600000 32) :
    Cert.ReferenceIdeal.HostFns.srcOf ei = Cert.KernelIdeal.HostFns.srcOf ei := rfl

theorem dstOf_eq (ei : IVec Cert.KernelIdeal.S2x1600000 32) :
    Cert.ReferenceIdeal.HostFns.dstOf ei = Cert.KernelIdeal.HostFns.dstOf ei := rfl

theorem takeRows_eq (nf : FVec Ideal Cert.KernelIdeal.S100000x32 .f32) (ids : IVec Cert.KernelIdeal.S1600000 32) :
    Cert.ReferenceIdeal.HostFns.takeRows (F := Ideal) nf ids = Cert.KernelIdeal.HostFns.takeRows (F := Ideal) nf ids := rfl

theorem segSum_eq (msg : FVec Ideal Cert.KernelIdeal.S1600000x32 .f32) (ids : IVec Cert.KernelIdeal.S1600000 32) :
    Cert.ReferenceIdeal.HostFns.segSum (F := Ideal) msg ids = Cert.KernelIdeal.HostFns.segSum (F := Ideal) msg ids := rfl

end Cert.HostFnsEq

end
-- ==== Proof.lean ====
/-
  A two-round message-passing network on a graph of 100000 nodes and 1600000 edges with 32 hidden features, as eight Pallas
  calls — the initial node projection, the edge network, and per round an edge update and a node update, then the node head
  and the edge head, each streaming blocks of 5000 rows past resident weights — with the row gathers of the node table and
  the segment sum of the messages done by host operations between the calls; against the same network in plain jnp.

  On the extended reals a change of float format is the identity and every operation is exact, so a call's block of rows is
  the same rows of its stage applied to the whole array (every stage acts row by row: Spec.lean over LibDense.lean), and the
  blocks fill the result (Region0 … Region7). The host stretches' results are their operations of the buffers they read, and a
  buffer nothing writes in between is what its producer left (HostSteps, Traces), so the kernel program's two results are
  the network's outputs of its arguments (KernelChain), as are the reference's (RefValue).

  The two programs differ in ONE place: the kernel gathers with jnp.take, which fills the rows of out-of-range numbers with
  NaN, where the reference's indexing clamps. The precondition's last conjunct says every entry of the edge list is a node
  number (PreDecode); under it the fill never fires and both gathers are the plain row gather.

  No law of the extended reals beyond the definitions is used: the two sides are the same sums, so finiteness of the float
  inputs is never opened.
-/
import proofs.«410628_j75788992905488_1_alg».proof.Defs
import proofs.«410628_j75788992905488_1_alg».proof.Proof.Gen.Kernel
import proofs.«410628_j75788992905488_1_alg».proof.Proof.Gen.Kernel.Skeleton
import proofs.«410628_j75788992905488_1_alg».proof.Proof.Gen.Kernel.Launch
import proofs.«410628_j75788992905488_1_alg».proof.Proof.Gen.Kernel.Points
import proofs.«410628_j75788992905488_1_alg».proof.Proof.Gen.Kernel.Frame
import proofs.«410628_j75788992905488_1_alg».proof.Proof.Gen.KernelIdeal
import proofs.«410628_j75788992905488_1_alg».proof.Proof.Gen.KernelIdeal.Skeleton
import proofs.«410628_j75788992905488_1_alg».proof.Proof.Gen.KernelIdeal.Launch
import proofs.«410628_j75788992905488_1_alg».proof.Proof.Gen.KernelIdeal.Points
import proofs.«410628_j75788992905488_1_alg».proof.Proof.Gen.KernelIdeal.Frame
import proofs.«410628_j75788992905488_1_alg».proof.Proof.Gen.ReferenceIdeal
import proofs.«410628_j75788992905488_1_alg».proof.Proof.Gen.ReferenceIdeal.Run
import proofs.«410628_j75788992905488_1_alg».proof.Proof.Gen.Pre_finite_inputs
import proofs.«410628_j75788992905488_1_alg».proof.Proof.KernelRun
import proofs.«410628_j75788992905488_1_alg».proof.Proof.KernelChain
import proofs.«410628_j75788992905488_1_alg».proof.Proof.PreDecode
import proofs.«410628_j75788992905488_1_alg».proof.Proof.RefValue
import proofs.«410628_j75788992905488_1_alg».proof.Proof.HostFnsEq
import Idealize.ShloMosaic.Adequacy
import Idealize.ShloMosaic.Init

noncomputable section

namespace Cert.Proof

open Idealize.ShloMosaic Idealize.SL.Sem

/-- The kernel program's frame, at the word level: the generated frame of its eight calls. -/
theorem frame_k : Cert.frame_Kernel := fun m ρ _ => Cert.Kernel.Gen.frame m ρ

/-- The same for the idealized kernel program. -/
theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Memories that agree on the arguments give the two programs the same network inputs. -/
theorem inputs_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) :
    Cert.ReferenceIdeal.HostFns.inputs m' c = Cert.KernelIdeal.HostFns.inputs m c := by
  unfold Cert.ReferenceIdeal.HostFns.inputs Cert.KernelIdeal.HostFns.inputs
  rw [h0, h1, h2, h3, h4, h5, h6, h7, h8, h9, h10, h11, h12, h13, h14, h15, h16, h17, h18, h19, h20, h21, h22]
  rw [Cert.HostFnsEq.srcOf_eq, Cert.HostFnsEq.dstOf_eq]

/-- Under the precondition both programs end with the network's outputs of the arguments. -/
theorem algebraic : Cert.algebraic_KernelIdeal_ReferenceIdeal := by
  intro m ρ m' ρ' hpre hagree
  have hr := fun c => Cert.PreDecode.inRange_of_pre m hpre c
  refine ⟨fun c => Cert.Spec.outNodes Cert.KernelIdeal.Chain.tk Cert.KernelIdeal.Chain.sg (Cert.KernelIdeal.HostFns.inputs m c),
    fun c => Cert.Spec.outEdges Cert.KernelIdeal.Chain.tk Cert.KernelIdeal.Chain.sg (Cert.KernelIdeal.HostFns.inputs m c), ?_, ?_⟩
  · exact (θ_run Cert.KernelIdeal.defs _ _).mono
      (fun r h c => ⟨(h c).1.trans (Cert.KernelIdeal.Chain.val_v20 m ρ c (hr c).1 (hr c).2),
        (h c).2.1.trans (Cert.KernelIdeal.Chain.val_v21 m ρ c (hr c).1 (hr c).2), (h c).2.2⟩)
      (Cert.KernelIdeal.Results.run_results (F := Ideal) m ρ)
  · have htk : (Cert.ReferenceIdeal.HostFns.takeRows (F := Ideal)) = Cert.KernelIdeal.Chain.tk :=
      funext fun nf => funext fun ids => Cert.HostFnsEq.takeRows_eq nf ids
    have hsg : (Cert.ReferenceIdeal.HostFns.segSum (F := Ideal)) = Cert.KernelIdeal.Chain.sg :=
      funext fun msg => funext fun ids => Cert.HostFnsEq.segSum_eq msg ids
    refine (θ_run Cert.ReferenceIdeal.defs _ _).mono (fun r h c => ?_) (Cert.ReferenceIdeal.Value.run (F := Ideal) m' ρ')
    obtain ⟨h0, h1, h2, h3, h4, h5, h6, h7, h8, h9, h10, h11, h12, h13, h14, h15, h16, h17, h18, h19, h20, h21, h22⟩ := hagree c
    have hI := inputs_agree m m' c h0 h1 h2 h3 h4 h5 h6 h7 h8 h9 h10 h11 h12 h13 h14 h15 h16 h17 h18 h19 h20 h21 h22
    refine ⟨(h c).1.trans ?_, (h c).2.1.trans ?_, (h c).2.2⟩
    · rw [Cert.ReferenceIdeal.RefValue.ref_nodes m' c, hI, htk, hsg]
    · rw [Cert.ReferenceIdeal.RefValue.ref_edges m' c, hI, htk, hsg]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
